-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2048 : Shape := ⟨2, ![10000, 2048]⟩
abbrev S160000 : Shape := ⟨1, ![160000]⟩
abbrev S320000 : Shape := ⟨1, ![320000]⟩
abbrev S2048x256 : Shape := ⟨2, ![2048, 256]⟩
abbrev S768x256 : Shape := ⟨2, ![768, 256]⟩
abbrev S256 : Shape := ⟨1, ![256]⟩
abbrev S_ : Shape := ⟨0, ![]⟩

class Facts : Prop where
  bcast_S_S10000x2048 : S_.BroadcastsInDim S10000x2048 (![] : Fin 0 → Fin S10000x2048.rank)
  reducesTo_S10000x2048_S_d0_1 : S10000x2048.ReducesTo [0, 1] S_
  h_S_ : 0 < S_.numel
  bcast_S_S160000 : S_.BroadcastsInDim S160000 (![] : Fin 0 → Fin S160000.rank)
  reducesTo_S160000_S_d0 : S160000.ReducesTo [0] S_
  bcast_S_S320000 : S_.BroadcastsInDim S320000 (![] : Fin 0 → Fin S320000.rank)
  reducesTo_S320000_S_d0 : S320000.ReducesTo [0] S_
  bcast_S_S2048x256 : S_.BroadcastsInDim S2048x256 (![] : Fin 0 → Fin S2048x256.rank)
  reducesTo_S2048x256_S_d0_1 : S2048x256.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg5 : IVec S320000 32) (main_v49 : IVec S_ 1) (main_c_19 : IVec S_ 32) : IVec S_ 1 :=
  let main_v50 : IVec S320000 32 := broadcastInDim S320000 ![] bcast_S_S320000 main_c_19
  let main_v51 : IVec S320000 1 := cmpi .sge main_arg5 main_v50
  let main_c_20 : IVec S_ 32 := constantI S_ 32 10000#32
  let main_v52 : IVec S320000 32 := broadcastInDim S320000 ![] bcast_S_S320000 main_c_20
  let main_v53 : IVec S320000 1 := cmpi .slt main_arg5 main_v52
  let main_v54 : IVec S320000 1 := andi main_v51 main_v53
  let main_c_21 : IVec S_ 1 := constantI S_ 1 1#1
  let main_v55 : IVec S_ 1 := (fun x v => Host.reduce IntOp.andi x v reducesTo_S320000_S_d0 h_S_) main_v54 main_c_21
  let main_v56 : IVec S_ 1 := andi main_v49 main_v55
  main_v56

def fn_part2 {F : FTy → Type} [FloatOps F] (main_arg2 : IVec S160000 32) (main_arg4 : IVec S320000 32) (main_arg5 : IVec S320000 32) (main_v28 : IVec S_ 1) (main_v33 : IVec S160000 1) : IVec S_ 1 :=
  let main_c_12 : IVec S_ 1 := constantI S_ 1 1#1
  let main_v34 : IVec S_ 1 := (fun x v => Host.reduce IntOp.andi x v reducesTo_S160000_S_d0 h_S_) main_v33 main_c_12
  let main_v35 : IVec S_ 1 := andi main_v28 main_v34
  let main_c_13 : IVec S_ 32 := constantI S_ 32 0#32
  let main_v36 : IVec S160000 32 := broadcastInDim S160000 ![] bcast_S_S160000 main_c_13
  let main_v37 : IVec S160000 1 := cmpi .sge main_arg2 main_v36
  let main_c_14 : IVec S_ 32 := constantI S_ 32 10000#32
  let main_v38 : IVec S160000 32 := broadcastInDim S160000 ![] bcast_S_S160000 main_c_14
  let main_v39 : IVec S160000 1 := cmpi .slt main_arg2 main_v38
  let main_v40 : IVec S160000 1 := andi main_v37 main_v39
  let main_c_15 : IVec S_ 1 := constantI S_ 1 1#1
  let main_v41 : IVec S_ 1 := (fun x v => Host.reduce IntOp.andi x v reducesTo_S160000_S_d0 h_S_) main_v40 main_c_15
  let main_v42 : IVec S_ 1 := andi main_v35 main_v41
  let main_c_16 : IVec S_ 32 := constantI S_ 32 0#32
  let main_v43 : IVec S320000 32 := broadcastInDim S320000 ![] bcast_S_S320000 main_c_16
  let main_v44 : IVec S320000 1 := cmpi .sge main_arg4 main_v43
  let main_c_17 : IVec S_ 32 := constantI S_ 32 10000#32
  let main_v45 : IVec S320000 32 := broadcastInDim S320000 ![] bcast_S_S320000 main_c_17
  let main_v46 : IVec S320000 1 := cmpi .slt main_arg4 main_v45
  let main_v47 : IVec S320000 1 := andi main_v44 main_v46
  let main_c_18 : IVec S_ 1 := constantI S_ 1 1#1
  let main_v48 : IVec S_ 1 := (fun x v => Host.reduce IntOp.andi x v reducesTo_S320000_S_d0 h_S_) main_v47 main_c_18
  let main_v49 : IVec S_ 1 := andi main_v42 main_v48
  let main_c_19 : IVec S_ 32 := constantI S_ 32 0#32
  fn_part3 (F := F) main_arg5 main_v49 main_c_19

def fn_part1 {F : FTy → Type} [FloatOps F] (main_arg1 : IVec S160000 32) (main_arg2 : IVec S160000 32) (main_arg4 : IVec S320000 32) (main_arg5 : IVec S320000 32) (main_arg8 : FVec F S768x256 .f32) (main_arg9 : FVec F S256 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S768x256 .f32 := Host.absf main_arg8
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S160000 32 := broadcastInDim S160000 ![] bcast_S_S160000 main_c_10
  let main_v30 : IVec S160000 1 := cmpi .sge main_arg1 main_v29
  let main_c_11 : IVec S_ 32 := constantI S_ 32 10000#32
  let main_v31 : IVec S160000 32 := broadcastInDim S160000 ![] bcast_S_S160000 main_c_11
  let main_v32 : IVec S160000 1 := cmpi .slt main_arg1 main_v31
  let main_v33 : IVec S160000 1 := andi main_v30 main_v32
  fn_part2 (F := F) main_arg2 main_arg4 main_arg5 main_v28 main_v33

def fn {F : FTy → Type} [FloatOps F] (main_arg0 : FVec F S10000x2048 .f32) (main_arg1 : IVec S160000 32) (main_arg2 : IVec S160000 32) (main_arg3 : FVec F S160000 .f32) (main_arg4 : IVec S320000 32) (main_arg5 : IVec S320000 32) (main_arg6 : FVec F S320000 .f32) (main_arg7 : FVec F S2048x256 .f32) (main_arg8 : FVec F S768x256 .f32) (main_arg9 : FVec F S256 .f32) : IVec S_ 1 :=
  let main_v0 : FVec F S10000x2048 .f32 := Host.absf main_arg0
  let main_cst : FVec F S_ .f32 := constant S_ .f32 0x7F800000#32
  let main_v1 : FVec F S10000x2048 .f32 := broadcastInDim S10000x2048 ![] bcast_S_S10000x2048 main_cst
  let main_v2 : IVec S10000x2048 1 := cmpf .olt main_v0 main_v1
  let main_c : IVec S_ 1 := constantI S_ 1 1#1
  let main_v3 : IVec S_ 1 := (fun x v => Host.reduce IntOp.andi x v reducesTo_S10000x2048_S_d0_1 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S320000 .f32 := Host.absf main_arg6
  let main_cst_2 : FVec F S_ .f32 := constant S_ .f32 0x7F800000#32
  let main_v10 : FVec F S320000 .f32 := broadcastInDim S320000 ![] bcast_S_S320000 main_cst_2
  let main_v11 : IVec S320000 1 := cmpf .olt main_v9 main_v10
  let main_c_3 : IVec S_ 1 := constantI S_ 1 1#1
  let main_v12 : IVec S_ 1 := (fun x v => Host.reduce IntOp.andi x v reducesTo_S320000_S_d0 h_S_) main_v11 main_c_3
  let main_v13 : IVec S_ 1 := andi main_v8 main_v12
  let main_v14 : FVec F S2048x256 .f32 := Host.absf main_arg7
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg1 main_arg2 main_arg4 main_arg5 main_arg8 main_arg9 main_v13 main_v16
-- ==== Kernel.lean ====
abbrev S10000x2048 : Shape := ⟨2, ![10000, 2048]⟩
abbrev S160000 : Shape := ⟨1, ![160000]⟩
abbrev S320000 : Shape := ⟨1, ![320000]⟩
abbrev S2048x256 : Shape := ⟨2, ![2048, 256]⟩
abbrev S768x256 : Shape := ⟨2, ![768, 256]⟩
abbrev S256 : Shape := ⟨1, ![256]⟩
abbrev S10000x256 : Shape := ⟨2, ![10000, 256]⟩
abbrev S1000x2048 : Shape := ⟨2, ![1000, 2048]⟩
abbrev S1000x256 : Shape := ⟨2, ![1000, 256]⟩
abbrev S_ : Shape := ⟨0, ![]⟩
abbrev S10240x256 : Shape := ⟨2, ![10240, 256]⟩
abbrev S20480x10240 : Shape := ⟨2, ![20480, 10240]⟩
abbrev S160000x1 : Shape := ⟨2, ![160000, 1]⟩
abbrev S160000x2 : Shape := ⟨2, ![160000, 2]⟩
abbrev S320000x1 : Shape := ⟨2, ![320000, 1]⟩
abbrev S320000x2 : Shape := ⟨2, ![320000, 2]⟩
abbrev S20480x256 : Shape := ⟨2, ![20480, 256]⟩
abbrev S1024x2048 : Shape := ⟨2, ![1024, 2048]⟩
abbrev S1024x256 : Shape := ⟨2, ![1024, 256]⟩
abbrev S256x256 : Shape := ⟨2, ![256, 256]⟩
abbrev S1x256 : Shape := ⟨2, ![1, 256]⟩

abbrev nBuf : Space → Nat
  | .hbm => 68
  | .vmem => 23
  | .smem => 0
  | _ => 0

abbrev bufTy : (tb : Table) → Fin (tcTables nBuf tb) → BufTy
  | .hbm, ⟨0, _⟩ => ⟨S10000x2048, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S320000, .i32⟩
  | .hbm, ⟨5, _⟩ => ⟨S320000, .i32⟩
  | .hbm, ⟨6, _⟩ => ⟨S320000, .f32⟩
  | .hbm, ⟨7, _⟩ => ⟨S2048x256, .f32⟩
  | .hbm, ⟨8, _⟩ => ⟨S768x256, .f32⟩
  | .hbm, ⟨9, _⟩ => ⟨S256, .f32⟩
  | .hbm, ⟨10, _⟩ => ⟨S2048x256, .bf16⟩
  | .hbm, ⟨11, _⟩ => ⟨S10000x256, .bf16⟩
  | .hbm, ⟨12, _⟩ => ⟨S_, .i32⟩
  | .hbm, ⟨13, _⟩ => ⟨S_, .bf16⟩
  | .hbm, ⟨14, _⟩ => ⟨S10240x256, .bf16⟩
  | .hbm, ⟨15, _⟩ => ⟨S_, .f32⟩
  | .hbm, ⟨16, _⟩ => ⟨S20480x10240, .f32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S_, .i32⟩
  | .hbm, ⟨25, _⟩ => ⟨S160000, .i32⟩
  | .hbm, ⟨26, _⟩ => ⟨S160000, .i1⟩
  | .hbm, ⟨27, _⟩ => ⟨S_, .i32⟩
  | .hbm, ⟨28, _⟩ => ⟨S160000, .i32⟩
  | .hbm, ⟨29, _⟩ => ⟨S160000, .i32⟩
  | .hbm, ⟨30, _⟩ => ⟨S160000, .i32⟩
  | .hbm, ⟨31, _⟩ => ⟨S160000x1, .i32⟩
  | .hbm, ⟨32, _⟩ => ⟨S160000x1, .i32⟩
  | .hbm, ⟨33, _⟩ => ⟨S160000x2, .i32⟩
  | .hbm, ⟨34, _⟩ => ⟨S20480x10240, .f32⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S_, .i32⟩
  | .hbm, ⟨46, _⟩ => ⟨S320000, .i32⟩
  | .hbm, ⟨47, _⟩ => ⟨S320000, .i1⟩
  | .hbm, ⟨48, _⟩ => ⟨S_, .i32⟩
  | .hbm, ⟨49, _⟩ => ⟨S320000, .i32⟩
  | .hbm, ⟨50, _⟩ => ⟨S320000, .i32⟩
  | .hbm, ⟨51, _⟩ => ⟨S320000, .i32⟩
  | .hbm, ⟨52, _⟩ => ⟨S320000x1, .i32⟩
  | .hbm, ⟨53, _⟩ => ⟨S320000x1, .i32⟩
  | .hbm, ⟨54, _⟩ => ⟨S320000x2, .i32⟩
  | .hbm, ⟨55, _⟩ => ⟨S20480x10240, .f32⟩
  | .hbm, ⟨56, _⟩ => ⟨S20480x10240, .bf16⟩
  | .hbm, ⟨57, _⟩ => ⟨S20480x256, .f32⟩
  | .hbm, ⟨58, _⟩ => ⟨S10000x256, .f32⟩
  | .hbm, ⟨59, _⟩ => ⟨S10000x256, .f32⟩
  | .hbm, ⟨60, _⟩ => ⟨S256x256, .f32⟩
  | .hbm, ⟨61, _⟩ => ⟨S256x256, .bf16⟩
  | .hbm, ⟨62, _⟩ => ⟨S256x256, .f32⟩
  | .hbm, ⟨63, _⟩ => ⟨S256x256, .bf16⟩
  | .hbm, ⟨64, _⟩ => ⟨S256x256, .f32⟩
  | .hbm, ⟨65, _⟩ => ⟨S256x256, .bf16⟩
  | .hbm, ⟨66, _⟩ => ⟨S1x256, .f32⟩
  | .hbm, ⟨67, _⟩ => ⟨S10000x256, .f32⟩
  | .local _ .vmem, ⟨0, _⟩ => ⟨S1000x2048, .f32⟩
  | .local _ .vmem, ⟨1, _⟩ => ⟨S1000x2048, .f32⟩
  | .local _ .vmem, ⟨2, _⟩ => ⟨S2048x256, .bf16⟩
  | .local _ .vmem, ⟨3, _⟩ => ⟨S1000x256, .bf16⟩
  | .local _ .vmem, ⟨4, _⟩ => ⟨S1000x256, .bf16⟩
  | .local _ .vmem, ⟨5, _⟩ => ⟨S1024x2048, .bf16⟩
  | .local _ .vmem, ⟨6, _⟩ => ⟨S1024x2048, .bf16⟩
  | .local _ .vmem, ⟨7, _⟩ => ⟨S10240x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1000x256, .bf16⟩
  | .local _ .vmem, ⟨12, _⟩ => ⟨S1000x256, .bf16⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S1x256, .f32⟩
  | .local _ .vmem, ⟨21, _⟩ => ⟨S1000x256, .f32⟩
  | .local _ .vmem, ⟨22, _⟩ => ⟨S1000x256, .f32⟩
  | _, _ => ⟨S10000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![20, 5], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  inb_S1000x2048_S1000x2048_0_0 : ∀ a, (![0, 0] : Fin 2 → Nat) a + S1000x2048.size a ≤ S1000x2048.size a
  h_S1000x2048 : 0 < S1000x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  pads_S10000x256_S10240x256_02400_000 : S10000x256.Pads (![0, 0] : Fin 2 → Nat) ![240, 0] ![0, 0] S10240x256
  h_S_ : 0 < S_.numel
  bcast_S_S20480x10240 : S_.BroadcastsInDim S20480x10240 (![] : Fin 0 → Fin S20480x10240.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S20480x256_S10000x256_0_0 : S20480x256.Slices ![0, 0] S10000x256
  slices_S20480x256_S10000x256_10240_0 : S20480x256.Slices ![10240, 0] S10000x256
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S256_S1x256 : S256.ShapeCasts S1x256
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  dot_S1000x2048_S2048x256_S1000x256_1_0_0_1_n_n_wf : DotDims.WF S1000x2048 S2048x256 S1000x256 [1] [0] [0] [1] [] []
  scatter_S20480x10240_S160000x2_S160000_n_01_01_1_wf : ScatterDims.WF S20480x10240 S160000x2 S160000 [] [0, 1] [0, 1] 1
  scatter_S20480x10240_S320000x2_S320000_n_01_01_1_wf : ScatterDims.WF S20480x10240 S320000x2 S320000 [] [0, 1] [0, 1] 1
  dot_S1024x2048_S2048x256_S1024x256_1_0_0_1_n_n_wf : DotDims.WF S1024x2048 S2048x256 S1024x256 [1] [0] [0] [1] [] []
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S10000x2048.size a
  hwx0_0 : ∀ i : grid0.Coords, EltTy.bits .f32 = 32 ∨ (Rect.block (s := S10000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .bf16 = 32 ∨ (Rect.block (s := S10000x256) S1000x256.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S10240x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S20480x10240.size a
  hwx1_0 : ∀ i : grid1.Coords, EltTy.bits .bf16 = 32 ∨ (Rect.block (s := S20480x10240) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S20480x256.size a
  hwx1_2 : ∀ i : grid1.Coords, EltTy.bits .f32 = 32 ∨ (Rect.block (s := S20480x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .bf16 = 32 ∨ (Rect.block (s := S10000x256) S1000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S10000x256.size a
  hwx2_1 : ∀ i : grid2.Coords, EltTy.bits .f32 = 32 ∨ (Rect.block (s := S10000x256) S1000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S10000x256.size a
  hwx2_2 : ∀ i : grid2.Coords, EltTy.bits .f32 = 32 ∨ (Rect.block (s := S10000x256) S1000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x256.size a ≤ S10000x256.size a
  hwx2_7 : ∀ i : grid2.Coords, EltTy.bits .f32 = 32 ∨ (Rect.block (s := S10000x256) S1000x256.size (cc2_transform_7 i) (hinb2_7 i)).WholeWords (EltTy.packing .f32)

variable [Facts₀]

def dot_S1000x2048_S2048x256_S1000x256_1_0_0_1_n_n : DotDims S1000x2048 S2048x256 S1000x256 where
  lhsContracting := [1]
  rhsContracting := [0]
  lhsNonContracting := [0]
  rhsNonContracting := [1]
  lhsBatch := []
  rhsBatch := []
  wf := dot_S1000x2048_S2048x256_S1000x256_1_0_0_1_n_n_wf
def scatter_S20480x10240_S160000x2_S160000_n_01_01_1 : ScatterDims S20480x10240 S160000x2 S160000 where
  updateWindowDims := []
  insertedWindowDims := [0, 1]
  scatterDimsToOperandDims := [0, 1]
  indexVectorDim := 1
  wf := scatter_S20480x10240_S160000x2_S160000_n_01_01_1_wf
def scatter_S20480x10240_S320000x2_S320000_n_01_01_1 : ScatterDims S20480x10240 S320000x2 S320000 where
  updateWindowDims := []
  insertedWindowDims := [0, 1]
  scatterDimsToOperandDims := [0, 1]
  indexVectorDim := 1
  wf := scatter_S20480x10240_S320000x2_S320000_n_01_01_1_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45) S1000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x2048 : Shape := ⟨2, ![10000, 2048]⟩
abbrev S160000 : Shape := ⟨1, ![160000]⟩
abbrev S320000 : Shape := ⟨1, ![320000]⟩
abbrev S2048x256 : Shape := ⟨2, ![2048, 256]⟩
abbrev S768x256 : Shape := ⟨2, ![768, 256]⟩
abbrev S256 : Shape := ⟨1, ![256]⟩
abbrev S10000x256 : Shape := ⟨2, ![10000, 256]⟩
abbrev S160000x1 : Shape := ⟨2, ![160000, 1]⟩
abbrev S_ : Shape := ⟨0, ![]⟩
abbrev S160000x256 : Shape := ⟨2, ![160000, 256]⟩
abbrev S320000x1 : Shape := ⟨2, ![320000, 1]⟩
abbrev S320000x256 : Shape := ⟨2, ![320000, 256]⟩
abbrev S10000x768 : Shape := ⟨2, ![10000, 768]⟩
abbrev S1x256 : Shape := ⟨2, ![1, 256]⟩

abbrev nBuf : Space → Nat
  | .hbm => 48
  | .vmem => 0
  | .smem => 0
  | _ => 0

abbrev bufTy : (tb : Table) → Fin (tcTables nBuf tb) → BufTy
  | .hbm, ⟨0, _⟩ => ⟨S10000x2048, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S320000, .i32⟩
  | .hbm, ⟨5, _⟩ => ⟨S320000, .i32⟩
  | .hbm, ⟨6, _⟩ => ⟨S320000, .f32⟩
  | .hbm, ⟨7, _⟩ => ⟨S2048x256, .f32⟩
  | .hbm, ⟨8, _⟩ => ⟨S768x256, .f32⟩
  | .hbm, ⟨9, _⟩ => ⟨S256, .f32⟩
  | .hbm, ⟨10, _⟩ => ⟨S10000x256, .f32⟩
  | .hbm, ⟨11, _⟩ => ⟨S160000x1, .f32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000x256, .f32⟩
  | .hbm, ⟨21, _⟩ => ⟨S160000x256, .f32⟩
  | .hbm, ⟨22, _⟩ => ⟨S160000x256, .f32⟩
  | .hbm, ⟨23, _⟩ => ⟨S_, .f32⟩
  | .hbm, ⟨24, _⟩ => ⟨S10000x256, .f32⟩
  | .hbm, ⟨25, _⟩ => ⟨S160000x1, .i32⟩
  | .hbm, ⟨26, _⟩ => ⟨S10000x256, .f32⟩
  | .hbm, ⟨27, _⟩ => ⟨S320000x1, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x256, .f32⟩
  | .hbm, ⟨37, _⟩ => ⟨S320000x256, .f32⟩
  | .hbm, ⟨38, _⟩ => ⟨S320000x256, .f32⟩
  | .hbm, ⟨39, _⟩ => ⟨S_, .f32⟩
  | .hbm, ⟨40, _⟩ => ⟨S10000x256, .f32⟩
  | .hbm, ⟨41, _⟩ => ⟨S320000x1, .i32⟩
  | .hbm, ⟨42, _⟩ => ⟨S10000x256, .f32⟩
  | .hbm, ⟨43, _⟩ => ⟨S10000x768, .f32⟩
  | .hbm, ⟨44, _⟩ => ⟨S10000x256, .f32⟩
  | .hbm, ⟨45, _⟩ => ⟨S1x256, .f32⟩
  | .hbm, ⟨46, _⟩ => ⟨S10000x256, .f32⟩
  | .hbm, ⟨47, _⟩ => ⟨S10000x256, .f32⟩
  | _, _ => ⟨S10000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  concatenates_S10000x256_S10000x256_S10000x256_S10000x768_d1 : Shape.Concatenates [S10000x256, S10000x256, S10000x256] S10000x768 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x2048_S2048x256_S10000x256_1_0_0_1_n_n_wf : DotDims.WF S10000x2048 S2048x256 S10000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x768_S768x256_S10000x256_1_0_0_1_n_n_wf : DotDims.WF S10000x768 S768x256 S10000x256 [1] [0] [0] [1] [] []

variable [Facts₀]

def dot_S10000x2048_S2048x256_S10000x256_1_0_0_1_n_n : DotDims S10000x2048 S2048x256 S10000x256 where
  lhsContracting := [1]
  rhsContracting := [0]
  lhsNonContracting := [0]
  rhsNonContracting := [1]
  lhsBatch := []
  rhsBatch := []
  wf := dot_S10000x2048_S2048x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x768_S768x256_S10000x256_1_0_0_1_n_n : DotDims S10000x768 S768x256 S10000x256 where
  lhsContracting := [1]
  rhsContracting := [0]
  lhsNonContracting := [0]
  rhsNonContracting := [1]
  lhsBatch := []
  rhsBatch := []
  wf := dot_S10000x768_S768x256_S10000x256_1_0_0_1_n_n_wf

class Facts : Prop extends Facts₀ where

variable [Facts]
-- ==== Proof.KB.R0Data.lean ====
/-
  Region 0 of the kernel program: one row block of x (1000 × 2048) times the whole first-layer weight
  (2048 × 256), stored as the matching row block of h0. Stated at a parameter V, the buffer contents
  the region is entered with.
-/
import proofs.«424452_j30116310680317_3_alg».proof.Proof.Gen.Kernel.Launch
import proofs.«424452_j30116310680317_3_alg».proof.Proof.Gen.Kernel.Skeleton
import proofs.«424452_j30116310680317_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1000x2048 := Rect.unit (s := S1000x2048) ![0, 0] S1000x2048.size inb_S1000x2048_S1000x2048_0_0
abbrev rW0 : Rect S2048x256 := Rect.unit (s := S2048x256) ![0, 0] S2048x256.size inb_S2048x256_S2048x256_0_0
abbrev rO0 : Rect S1000x256 := Rect.unit (s := S1000x256) ![0, 0] S1000x256.size inb_S1000x256_S1000x256_0_0

/-- What the body leaves in the output block: the product of the x block and the weight. -/
def out0_2 (x0 : Vec F S1000x2048 .f32) (x1 : Vec F S2048x256 .bf16) : Vec F S1000x256 .bf16 :=
  View.canon [⟨rO0, k0_pay1 (View.ld x0 rX0) (View.ld x1 rW0)⟩]

/-- The proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end R0

end Cert.Kernel.Hand

end
-- ==== Proof.KB.R1Data.lean ====
/-
  Region 1 of the kernel program: the stacked adjacency (20480 × 10240) times the padded h0 (10240 × 256),
  row block by row block (1024 rows), the inner dimension in five stretches of 2048 accumulated in a scratch
  block that is zeroed at a row block's first stretch and stored to the output block at its last.
  Stated at a parameter V, the buffer contents the region is entered with.
-/
import proofs.«424452_j30116310680317_3_alg».proof.Proof.Gen.Kernel.Launch
import proofs.«424452_j30116310680317_3_alg».proof.Proof.Gen.Kernel.Skeleton
import proofs.«424452_j30116310680317_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S1024x2048 := Rect.unit (s := S1024x2048) ![0, 0] S1024x2048.size inb_S1024x2048_S1024x2048_0_0
abbrev rO1 : Rect S1024x256 := Rect.unit (s := S1024x256) ![0, 0] S1024x256.size inb_S1024x256_S1024x256_0_0
/-- The stretch of 2048 rows of the padded h0 that grid point i multiplies by. -/
abbrev rS1 (i : grid1.Coords) : Rect S10240x256 := Rect.unit (s := S10240x256) (k1_off1 i) S2048x256.size (k1_off1_inb i)

/-- One accumulation step: the scratch contents acc plus the product of the adjacency block a and the
    stretch of the padded h0 block b that grid point i names. -/
def step1 (i : grid1.Coords) (a : Vec F S1024x2048 .bf16) (b : Vec F S10240x256 .bf16) (acc : Vec F S1024x256 .f32) : Vec F S1024x256 .f32 :=
  k1_pay2 (View.ld b (rS1 i)) acc (View.ld a rA1)

/-- What the scratch holds after the body at grid position n: zero plus the products of the stretches of
    the current row block up to this one. -/
def accAt1 (c : Dev nD) : (n : ℕ) → n < cfg1.N → Vec F S1024x256 .f32
  | 0, hn => step1 (grid1.coords ⟨0, hn⟩) (iblk1 V c 0 ⟨0, hn⟩) (iblk1 V c 1 ⟨0, hn⟩) (k1_pay1 (F := F))
  | n + 1, hn =>
    if (n + 1) % 5 = 0 then
      step1 (grid1.coords ⟨n + 1, hn⟩) (iblk1 V c 0 ⟨n + 1, hn⟩) (iblk1 V c 1 ⟨n + 1, hn⟩) (k1_pay1 (F := F))
    else
      step1 (grid1.coords ⟨n + 1, hn⟩) (iblk1 V c 0 ⟨n + 1, hn⟩) (iblk1 V c 1 ⟨n + 1, hn⟩) (accAt1 c n (Nat.lt_of_succ_lt hn))

theorem accAt1_first (c : Dev nD) (t : Fin cfg1.N) (h : t.val % 5 = 0) :
    accAt1 V c t.val t.isLt = step1 (grid1.coords t) (iblk1 V c 0 t) (iblk1 V c 1 t) (k1_pay1 (F := F)) := by
  obtain ⟨n, hn⟩ := t
  cases n with
  | zero => rfl
  | succ n => exact (if_pos h).trans rfl

theorem accAt1_next (c : Dev nD) (t : Fin cfg1.N) (h : ¬ t.val % 5 = 0) :
    accAt1 V c t.val t.isLt = step1 (grid1.coords t) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch buffer of the kernel. -/
abbrev scM1 : Memref sig .tc .vmem S1024x256 .f32 := Memref.whole cc1_scratch0

end R1

end Cert.Kernel.Hand

end
-- ==== Proof.KB.R1.lean ====
/-
  Region 1: the proof data over the accumulation, the invariant that carries the scratch block from one
  grid point to the next, and the body's obligation at every grid point.
-/
import proofs.«424452_j30116310680317_3_alg».proof.Proof.KB.R1Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

/-! ## The invariant -/

/-- The scoped buffers of the core that are neither a staging buffer of this call nor its scratch, each
    whole at some contents: the staging buffers of the two other calls. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg7_0), ((c : Thread nD τ).loc cc2_stg7_0) ↦{fullShare} f)
    ∗ (∃ f : Buf (Elt F) ((c : Thread nD τ).loc cc2_stg7_1), ((c : Thread nD τ).loc cc2_stg7_1) ↦{fullShare} f))

/-- The region invariant before grid position n: before the first point what the launch hands the region
    (every scoped buffer that is no staging buffer of this call at anything, the generator register at some
    state); afterwards the same with the scratch at what the point before left in it. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ others1 (F := F) c ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the scratch at that point's contents. -/
theorem PhiS1_succ (c : Dev nD) (n : ℕ) (hn : n < cfg1.N) :
    PhiS1 V c (n + 1) hn = iprop(owns (c : Thread nD τ) scM1 fullShare (accAt1 V c n hn) ∗ others1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (accAt1 V c (n - 1) (by omega)) ∗ others1 (F := F) c ∗ (∃ r, prngReg c r)) := by
  cases n with
  | zero => exact absurd rfl hz
  | succ n => rfl

/-- What the launch hands the region, with the scratch singled out as a memref owned at some contents. -/
theorem PhiA1_eq (c : Dev nD) :
    (Pipeline.ΦA spec1 c : sProp 𝕄)
      = iprop((∃ d, owns (c : Thread nD τ) scM1 fullShare d) ∗ others1 (F := F) c ∗ (∃ r, prngReg c r)) := by
  unfold Pipeline.ΦA others1; rw [scopedRest1_eq]; simp only [scM1, owns_whole]
  refine BI.equiv_iff.mp ⟨?_, ?_⟩
  · show (_ : sProp 𝕄) ⊢ _
    iintro ⟨⟨H1, H2, H3, H4, H5, HS, H6, H7, H8, H9, H10, H11, H12, H13, H14, H15, H16, H17⟩, Hg⟩
    isplitl [HS]; · iexact HS
    isplitr [Hg]; swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · show (_ : sProp 𝕄) ⊢ _
    iintro ⟨HS, ⟨H1, H2, H3, H4, H5, H6, H7, H8, H9, H10, H11, H12, H13, H14, H15, H16, H17⟩, Hg⟩
    isplitr [Hg]; swap; · iexact Hg
    isplitl [H1]; · iexact H1
    isplitl [H2]; · iexact H2
    isplitl [H3]; · iexact H3
    isplitl [H4]; · iexact H4
    isplitl [H5]; · iexact H5
    isplitl [HS]; · iexact HS
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-! ## The proof data -/

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- After any point but the first the invariant gives back what the launch handed over: the scratch's named
    contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨HS, Ho, Hg⟩
  isplitl [HS]
  · iexists _; iexact HS
  isplitl [Ho]; · iexact Ho
  iexact Hg

/-- The same after the last point. -/
theorem hout1 (c : Dev nD) : (dat1 (F := F) V c).Φ (Fin.last cfg1.N) ⊢ Pipeline.ΦA spec1 c :=
  Phi_out1 V c _ (by rw [Fin.val_last]; have : cfg1.N = 100 := N_1; omega)

/-! ## The body's two conditions over the grid, and where the output window is idle -/

/-- The condition of the body's first conditional, from the grid coordinates: the stretch is the row
    block's first. -/
abbrev cond1_0 (i : grid1.Coords) : Prop :=
  (Scalar.cmpi .ne (Scalar.extui (Scalar.cmpi .eq (BitVec.ofNat 32 (i 1).val) 0#32)) 0#32) = 1#1
/-- It holds at the positions ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The condition of the body's last conditional: the stretch is the row block's last. -/
abbrev cond1_1 (i : grid1.Coords) : Prop := k1_cond2 i = 1#1
/-- It holds at the positions ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle at every stretch but a row block's last, -/
theorem idleAt1_2 : ∀ t : Fin cfg1.N, ¬ t.val % 5 = 4 → cfg1.idle 2 (grid1.coords t) = true := by decide +kernel
/-- is not written back there, -/
theorem noFlush1_2 : ∀ t : Fin cfg1.N, ¬ t.val % 5 = 4 → (cfg1.win 2).flush t = false := by decide +kernel
/-- and is live at a row block's last stretch. -/
theorem liveAt1_2 : ∀ t : Fin cfg1.N, t.val % 5 = 4 → cfg1.idle 2 (grid1.coords t) = false := by decide +kernel

/-- Each input's current staging buffer holds its block at every point, fetched there or not: unfetched, the
    block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun s => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun s => by rw [after1_1]; unfold Dat.blockOf iblk1; rw [A_eq1]; try rfl) t d).trans
    (by unfold Dat.fetched Dat.blockOf iblk1; rw [A_eq1]; try rfl)

/-! ## The body's run, case by case -/

/-- The zero offsets of a whole-block access. -/
theorem hz2 : (![0, 0] : Fin 2 → Nat) = fun _ => 0 := by funext a; fin_cases a <;> rfl

set_option maxHeartbeats 4000000 in
/-- A row block's first stretch (the first conditional taken, the last not): on whole memrefs, the adjacency
    block at a, the padded h0 at b, the output block at xo and the scratch at anything, the body zeroes the
    scratch, adds the stretch's product to it, and hands everything else back as it was. -/
theorem run1_A (c : Dev nD) (i : grid1.Coords) (arg2 : Memref sig .tc .vmem S1024x2048 .bf16) (harg2 : arg2.IsWhole)
    (arg3 : Memref sig .tc .vmem S10240x256 .bf16) (harg3 : arg3.IsWhole) (arg4 : Memref sig .tc .vmem S1024x256 .f32) (harg4 : arg4.IsWhole)
    (arg5 : Memref sig .tc .vmem S1024x256 .f32) (harg5 : arg5.IsWhole) (hc0 : cond1_0 i) (hc1 : ¬cond1_1 i)
    (a : Vec F S1024x2048 .bf16) (b : Vec F S10240x256 .bf16) (xo : Vec F S1024x256 .f32) (E : Set ℕ) (K : PUnit → sProp 𝕄) :
    iprop(owns (c : Thread nD τ) arg2 fullShare a ∗ owns (c : Thread nD τ) arg3 fullShare b ∗ owns (c : Thread nD τ) arg4 fullShare xo
        ∗ (∃ d, owns (c : Thread nD τ) arg5 fullShare d)
        ∗ (iprop(owns (c : Thread nD τ) arg2 fullShare a ∗ owns (c : Thread nD τ) arg3 fullShare b ∗ owns (c : Thread nD τ) arg4 fullShare xo
            ∗ owns (c : Thread nD τ) arg5 fullShare (step1 i a b (k1_pay1 (F := F)))) -∗ K ⟨⟩))
      ⊢ wp frame (wpE (defs₀ (F := F)) Variants.none c none) E (cc1__kernel i arg2 harg2 arg3 harg3 arg4 harg4 arg5 harg5) K := by
  simp only [cc1__kernel_eq_skeleton]; unfold cc1__kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (fun y => ⟨_, List.mem_cons_self, View.mem_set_unit_zero hz2 inb_S1024x256_S1024x256_0_0 y⟩),
    View.canon_cons_unit_zero hz2, View.readCov_unit_zero (S := S1024x256) _ hz2]
  rfl

set_option maxHeartbeats 4000000 in
/-- A middle stretch (neither conditional taken): the scratch at acc; the body adds the stretch's product to it
    and hands everything else back as it was. -/
theorem run1_B (c : Dev nD) (i : grid1.Coords) (arg2 : Memref sig .tc .vmem S1024x2048 .bf16) (harg2 : arg2.IsWhole)
    (arg3 : Memref sig .tc .vmem S10240x256 .bf16) (harg3 : arg3.IsWhole) (arg4 : Memref sig .tc .vmem S1024x256 .f32) (harg4 : arg4.IsWhole)
    (arg5 : Memref sig .tc .vmem S1024x256 .f32) (harg5 : arg5.IsWhole) (hc0 : ¬cond1_0 i) (hc1 : ¬cond1_1 i)
    (a : Vec F S1024x2048 .bf16) (b : Vec F S10240x256 .bf16) (xo : Vec F S1024x256 .f32) (acc : Vec F S1024x256 .f32) (E : Set ℕ) (K : PUnit → sProp 𝕄) :
    iprop(owns (c : Thread nD τ) arg2 fullShare a ∗ owns (c : Thread nD τ) arg3 fullShare b ∗ owns (c : Thread nD τ) arg4 fullShare xo
        ∗ owns (c : Thread nD τ) arg5 fullShare acc
        ∗ (iprop(owns (c : Thread nD τ) arg2 fullShare a ∗ owns (c : Thread nD τ) arg3 fullShare b ∗ owns (c : Thread nD τ) arg4 fullShare xo
            ∗ owns (c : Thread nD τ) arg5 fullShare (step1 i a b acc)) -∗ K ⟨⟩))
      ⊢ wp frame (wpE (defs₀ (F := F)) Variants.none c none) E (cc1__kernel i arg2 harg2 arg3 harg3 arg4 harg4 arg5 harg5) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  have hld : View.readAt (Elt F) arg5.view (Rect.unit ![0, 0] S1024x256.size inb_S1024x256_S1024x256_0_0).toLoadRect f5
      = View.read (Elt F) arg5.view f5 := View.ld_unit_zero hz2 _ _
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (fun y => ⟨_, List.mem_cons_self, View.mem_set_unit_zero hz2 inb_S1024x256_S1024x256_0_0 y⟩),
    View.canon_cons_unit_zero hz2, hld]
  rfl

set_option maxHeartbeats 4000000 in
/-- A row block's last stretch (the last conditional taken): the scratch at acc, the output block at anything;
    the body adds the stretch's product to the scratch and stores the sum, whole, to the output block. -/
theorem run1_C (c : Dev nD) (i : grid1.Coords) (arg2 : Memref sig .tc .vmem S1024x2048 .bf16) (harg2 : arg2.IsWhole)
    (arg3 : Memref sig .tc .vmem S10240x256 .bf16) (harg3 : arg3.IsWhole) (arg4 : Memref sig .tc .vmem S1024x256 .f32) (harg4 : arg4.IsWhole)
    (arg5 : Memref sig .tc .vmem S1024x256 .f32) (harg5 : arg5.IsWhole) (hc0 : ¬cond1_0 i) (hc1 : cond1_1 i)
    (a : Vec F S1024x2048 .bf16) (b : Vec F S10240x256 .bf16) (acc : Vec F S1024x256 .f32) (E : Set ℕ) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare acc
        ∗ (iprop(owns (c : Thread nD τ) arg2 fullShare a ∗ owns (c : Thread nD τ) arg3 fullShare b ∗ owns (c : Thread nD τ) arg4 fullShare (step1 i a b acc)
            ∗ owns (c : Thread nD τ) arg5 fullShare (step1 i a b acc)) -∗ K ⟨⟩))
      ⊢ wp frame (wpE (defs₀ (F := F)) Variants.none c none) E (cc1__kernel i arg2 harg2 arg3 harg3 arg4 harg4 arg5 harg5) K := by
  simp only [cc1__kernel_eq_skeleton]; unfold cc1__kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  have hld : View.readAt (Elt F) arg5.view (Rect.unit ![0, 0] S1024x256.size inb_S1024x256_S1024x256_0_0).toLoadRect f5
      = View.read (Elt F) arg5.view f5 := View.ld_unit_zero hz2 _ _
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (fun y => ⟨_, List.mem_cons_self, View.mem_set_unit_zero hz2 inb_S1024x256_S1024x256_0_0 y⟩),
      View.canon_cons_unit_zero hz2, View.readCov_unit_zero (S := S1024x256) _ hz2, hld]
    rfl
  iexists _; isplitr
  swap; · iexact H5
  ipureintro
  sl_unfold_words
  rw [View.read_writes_eq_canon _ _ _ (fun y => ⟨_, List.mem_cons_self, View.mem_set_unit_zero hz2 inb_S1024x256_S1024x256_0_0 y⟩),
    View.canon_cons_unit_zero hz2, hld]
  rfl

/-! ## The body obligation, at a generic point -/

/-- What the body is called with at point t: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks; the position's residue mod 5 says which of
    the three cases the point is in. The invariant hands the body the scratch at what the point before left (at
    anything at the very first point) and takes it back at this point's contents; the output window is handed
    back untouched at a stretch that is not a row block's last, and holds the finished sum at the last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 5 = 0
  · have h1 : ¬ t.val % 5 = 4 := by omega
    rw [Dat.leavesExact_idle (dat1 V c) 2 t (idleAt1_2 t h1) (noFlush1_2 t h1)]
    rw [accAt1_first V c t h0]
    by_cases hz : t.val = 0
    · rw [PhiS1_castSucc V c t, PhiS1_zero V c _ _ hz, PhiA1_eq]
      iintro ⟨⟨HS, Ho, Hg⟩, Hw, ⟨%d0, H0⟩, ⟨%d1, H1⟩, ⟨%d2, H2⟩⟩
      iapply (run1_A c (grid1.coords t) _ _ _ _ _ _ _ _ ((hcond1_0 t).mpr h0) (fun h => h1 ((hcond1_1 t).mp h))
        (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Ho Hg]
      · isplitl [HS]; · iexact HS
        isplitl [Ho]; · iexact Ho
        iexact Hg
      isplitl [Hw]; · iexact Hw
      isplitl [H0]; · iexact H0
      isplitl [H1]; · iexact H1
      iexists _; iexact H2
    · rw [PhiS1_castSucc V c t, PhiS1_pos V c _ _ hz]
      iintro ⟨⟨HS, Ho, Hg⟩, Hw, ⟨%d0, H0⟩, ⟨%d1, H1⟩, ⟨%d2, H2⟩⟩
      iapply (run1_A c (grid1.coords t) _ _ _ _ _ _ _ _ ((hcond1_0 t).mpr h0) (fun h => h1 ((hcond1_1 t).mp h))
        (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Ho Hg]
      · isplitl [HS]; · iexact HS
        isplitl [Ho]; · iexact Ho
        iexact Hg
      isplitl [Hw]; · iexact Hw
      isplitl [H0]; · iexact H0
      isplitl [H1]; · iexact H1
      iexists _; iexact H2
  · have hz : t.val ≠ 0 := fun e => h0 (by rw [e])
    rw [PhiS1_castSucc V c t, PhiS1_pos V c _ _ hz, accAt1_next V c t h0]
    by_cases h1 : t.val % 5 = 4
    · rw [show (dat1 V c).leavesExact 2 t = owns (c : Thread nD τ) (st1_2 t) fullShare ((dat1 V c).after 2 t) from by
        unfold Dat.leavesExact; rw [liveAt1_2 t h1], after1_2, accAt1_next V c t h0]
      iintro ⟨⟨HS, Ho, Hg⟩, Hw, ⟨%d0, H0⟩, ⟨%d1, H1⟩, ⟨%d2, H2⟩⟩
      iapply (run1_C c (grid1.coords t) _ _ _ _ _ _ _ _ (fun h => h0 ((hcond1_0 t).mp h)) ((hcond1_1 t).mpr h1)
        (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Ho Hg]
      · isplitl [HS]; · iexact HS
        isplitl [Ho]; · iexact Ho
        iexact Hg
      isplitl [Hw]; · iexact Hw
      isplitl [H0]; · iexact H0
      isplitl [H1]; · iexact H1
      iexact H2
    · rw [Dat.leavesExact_idle (dat1 V c) 2 t (idleAt1_2 t h1) (noFlush1_2 t h1)]
      iintro ⟨⟨HS, Ho, Hg⟩, Hw, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h))
        (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Ho Hg]
      · isplitl [HS]; · iexact HS
        isplitl [Ho]; · iexact Ho
        iexact Hg
      isplitl [Hw]; · iexact Hw
      isplitl [H0]; · iexact H0
      isplitl [H1]; · iexact H1
      iexists _; iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end R1

end Cert.Kernel.Hand

end
-- ==== Proof.KB.R2Data.lean ====
/-
  Region 2 of the kernel program: one row block (1000 rows) of h0, h1 and h2, each times its 256 × 256
  slice of the output weight, summed, plus the bias row; stored as the matching row block of the result.
  Stated at a parameter V, the buffer contents the region is entered with.
-/
import proofs.«424452_j30116310680317_3_alg».proof.Proof.Gen.Kernel.Launch
import proofs.«424452_j30116310680317_3_alg».proof.Proof.Gen.Kernel.Skeleton
import proofs.«424452_j30116310680317_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R2
variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rH2 : Rect S1000x256 := Rect.unit (s := S1000x256) ![0, 0] S1000x256.size inb_S1000x256_S1000x256_0_0
abbrev rW2 : Rect S256x256 := Rect.unit (s := S256x256) ![0, 0] S256x256.size inb_S256x256_S256x256_0_0
abbrev rB2 : Rect S1x256 := Rect.unit (s := S1x256) ![0, 0] S1x256.size inb_S1x256_S1x256_0_0

/-- What the body leaves in the output block. -/
def out2_7 (x0 : Vec F S1000x256 .bf16) (x1 : Vec F S1000x256 .f32) (x2 : Vec F S1000x256 .f32)
    (x3 : Vec F S256x256 .bf16) (x4 : Vec F S256x256 .bf16) (x5 : Vec F S256x256 .bf16) (x6 : Vec F S1x256 .f32) : Vec F S1000x256 .f32 :=
  View.canon [⟨rH2, k2_pay1 (View.ld x0 rH2) (View.ld x1 rH2) (View.ld x2 rH2) (View.ld x3 rW2) (View.ld x4 rW2) (View.ld x5 rW2) (View.ld x6 rB2)⟩]

/-- The proof data of pipeline 2. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

end R2

end Cert.Kernel.Hand

end
-- ==== Proof.KB.Fold.lean ====
/-
  The buffer contents of one core at each boundary between the items of the program: the launch memory,
  then each stretch of host operations applied, and at each region's exit its arrays at what the region's
  write-backs leave.
-/
import proofs.«424452_j30116310680317_3_alg».proof.Proof.KB.R0Data
import proofs.«424452_j30116310680317_3_alg».proof.Proof.KB.R1
import proofs.«424452_j30116310680317_3_alg».proof.Proof.KB.R2Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m ((c : Dev nD), b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three stretches of host operations between regions 0 and 1 (region 1's entry is W5). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the stretch of host operations between regions 1 and 2 (region 2's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At region 2's exit: the end of the program. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

end Cert.Kernel.Hand

end
-- ==== Proof.KB.R0.lean ====
/-
  Region 0: the body's run on its staging buffers, and the body's obligation at every grid point.
-/
import proofs.«424452_j30116310680317_3_alg».proof.Proof.KB.R0Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

/-- The x window's current staging buffer holds its row block at every grid point, for any proof data whose
    array is the entry contents and whose body leaves the block in place: the window is uncut and never idle,
    and where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's index map is constant: it is fetched at the first point only, and its staging buffer
    holds the whole weight at every point, by the same argument. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-- The single store is the whole output block, so it covers it. -/
theorem cover0 (p0 : Vec F S1000x256 .bf16) (y : S1000x256.Idx) :
    ∃ pc ∈ ([⟨rO0, p0⟩] : List (View.Piece (Elt F) S1000x256 .bf16)), y ∈ pc.1.set :=
  View.cover_of_tiled [⟨rO0, p0⟩] S1000x256.size (by rfl) y

set_option maxHeartbeats 4000000 in
/-- The body on whole staging memrefs, the inputs at read contents x0 and x1 and the output at anything,
    runs to the continuation holding the inputs as they were and the output at the product block. -/
theorem sound_kernel0 (c : Dev nD) (E : Set ℕ) (i : grid0.Coords)
    (arg1 : Memref sig .tc .vmem S1000x2048 .f32) (harg1 : arg1.IsWhole)
    (arg2 : Memref sig .tc .vmem S2048x256 .bf16) (harg2 : arg2.IsWhole)
    (arg3 : Memref sig .tc .vmem S1000x256 .bf16) (harg3 : arg3.IsWhole)
    (x0 : Vec F S1000x2048 .f32) (x1 : Vec F S2048x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_nr_kernel i arg1 harg1 arg2 harg2 arg3 harg3) K := by
  simp only [cc0__matmul_nr_kernel_eq_skeleton]; unfold cc0__matmul_nr_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- What the body is called with at grid point t: the invariant, the core's debt, and each window's
    current staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body returns at grid point t. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the input buffers hold their blocks, so the body's triple applies; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every grid point. -/
theorem body_obligation0 (c : Dev nD) : BodyObligation (dat0 (F := F) V c) (defs₀ (F := F)) Variants.none () Set.univ := fun t => by
  rw [bigSep_W0, bigSep_W0]
  exact sound_body0 V c t

end R0

end Cert.Kernel.Hand

end
-- ==== Proof.KB.R2.lean ====
/-
  Region 2: the body's run on its staging buffers, and the body's obligation at every grid point.

  The body reads its seven input windows whole, reads the output window whole (a value it never uses) and then
  stores one value over the whole output block. So each input buffer holds the window's block at the point,
  the output buffer ends at a closed function of those blocks, and nothing else of the state is touched.
-/
import proofs.«424452_j30116310680317_3_alg».proof.Proof.KB.R2Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R2
variable (V : (c : Dev nD) → (b : Ref sig .tc) → Buf (Elt F) ((c : Thread nD τ).loc b))

/-- Input window 0's current staging buffer holds its block at every grid point. -/
theorem before2_0 (c : Dev nD) (t : Fin cfg2.N) (d) : (dat2 V c).before 0 t d = iblk2 V c 0 t :=
  ((dat2 V c).before_in_eq_fetched 0 rfl (fun _ => rfl) (fun _ _ _ => rfl)
    (fun s => by rw [after2_0]; unfold Dat.blockOf iblk2; rw [A_eq2]; try rfl) t d).trans
    (by unfold Dat.fetched Dat.blockOf iblk2; rw [A_eq2]; try rfl)

/-- Input window 1's current staging buffer holds its block at every grid point. -/
theorem before2_1 (c : Dev nD) (t : Fin cfg2.N) (d) : (dat2 V c).before 1 t d = iblk2 V c 1 t :=
  ((dat2 V c).before_in_eq_fetched 1 rfl (fun _ => rfl) (fun _ _ _ => rfl)
    (fun s => by rw [after2_1]; unfold Dat.blockOf iblk2; rw [A_eq2]; try rfl) t d).trans
    (by unfold Dat.fetched Dat.blockOf iblk2; rw [A_eq2]; try rfl)

/-- Input window 2's current staging buffer holds its block at every grid point. -/
theorem before2_2 (c : Dev nD) (t : Fin cfg2.N) (d) : (dat2 V c).before 2 t d = iblk2 V c 2 t :=
  ((dat2 V c).before_in_eq_fetched 2 rfl (fun _ => rfl) (fun _ _ _ => rfl)
    (fun s => by rw [after2_2]; unfold Dat.blockOf iblk2; rw [A_eq2]; try rfl) t d).trans
    (by unfold Dat.fetched Dat.blockOf iblk2; rw [A_eq2]; try rfl)

/-- Input window 3's current staging buffer holds its block at every grid point, though it is fetched at the first point only: its block index never moves, so the block it was filled with is the block of every later point. -/
theorem before2_3 (c : Dev nD) (t : Fin cfg2.N) (d) : (dat2 V c).before 3 t d = iblk2 V c 3 t :=
  ((dat2 V c).before_in_eq_fetched 3 rfl (fun _ => rfl) (fun _ _ _ => rfl)
    (fun s => by rw [after2_3]; unfold Dat.blockOf iblk2; rw [A_eq2]; try rfl) t d).trans
    (by unfold Dat.fetched Dat.blockOf iblk2; rw [A_eq2]; try rfl)

/-- Input window 4's current staging buffer holds its block at every grid point, though it is fetched at the first point only: its block index never moves, so the block it was filled with is the block of every later point. -/
theorem before2_4 (c : Dev nD) (t : Fin cfg2.N) (d) : (dat2 V c).before 4 t d = iblk2 V c 4 t :=
  ((dat2 V c).before_in_eq_fetched 4 rfl (fun _ => rfl) (fun _ _ _ => rfl)
    (fun s => by rw [after2_4]; unfold Dat.blockOf iblk2; rw [A_eq2]; try rfl) t d).trans
    (by unfold Dat.fetched Dat.blockOf iblk2; rw [A_eq2]; try rfl)

/-- Input window 5's current staging buffer holds its block at every grid point, though it is fetched at the first point only: its block index never moves, so the block it was filled with is the block of every later point. -/
theorem before2_5 (c : Dev nD) (t : Fin cfg2.N) (d) : (dat2 V c).before 5 t d = iblk2 V c 5 t :=
  ((dat2 V c).before_in_eq_fetched 5 rfl (fun _ => rfl) (fun _ _ _ => rfl)
    (fun s => by rw [after2_5]; unfold Dat.blockOf iblk2; rw [A_eq2]; try rfl) t d).trans
    (by unfold Dat.fetched Dat.blockOf iblk2; rw [A_eq2]; try rfl)

/-- Input window 6's current staging buffer holds its block at every grid point, though it is fetched at the first point only: its block index never moves, so the block it was filled with is the block of every later point. -/
theorem before2_6 (c : Dev nD) (t : Fin cfg2.N) (d) : (dat2 V c).before 6 t d = iblk2 V c 6 t :=
  ((dat2 V c).before_in_eq_fetched 6 rfl (fun _ => rfl) (fun _ _ _ => rfl)
    (fun s => by rw [after2_6]; unfold Dat.blockOf iblk2; rw [A_eq2]; try rfl) t d).trans
    (by unfold Dat.fetched Dat.blockOf iblk2; rw [A_eq2]; try rfl)

/-- The single store writes the whole output block: one piece of the block's own extents tiles it. -/
theorem cover2 (p : Vec F S1000x256 .f32) (y : S1000x256.Idx) :
    ∃ pc ∈ ([⟨rH2, p⟩] : List (View.Piece (Elt F) S1000x256 .f32)), y ∈ pc.1.set :=
  View.cover_of_tiled [⟨rH2, p⟩] S1000x256.size (by rfl) y

set_option maxHeartbeats 4000000 in
/-- The body on whole staging memrefs. The seven inputs are read and left as they were; the output is first read
    (the value is discarded) and then overwritten whole, so whatever it held before, it ends at out2_7 of the
    inputs' contents. -/
theorem sound_kernel2 (c : Dev nD) (E : Set ℕ) (i : grid2.Coords) (a0 : Memref sig .tc .vmem S1000x256 .bf16) (ha0 : a0.IsWhole) (a1 : Memref sig .tc .vmem S1000x256 .f32) (ha1 : a1.IsWhole) (a2 : Memref sig .tc .vmem S1000x256 .f32) (ha2 : a2.IsWhole) (a3 : Memref sig .tc .vmem S256x256 .bf16) (ha3 : a3.IsWhole) (a4 : Memref sig .tc .vmem S256x256 .bf16) (ha4 : a4.IsWhole) (a5 : Memref sig .tc .vmem S256x256 .bf16) (ha5 : a5.IsWhole) (a6 : Memref sig .tc .vmem S1x256 .f32) (ha6 : a6.IsWhole) (a7 : Memref sig .tc .vmem S1000x256 .f32) (ha7 : a7.IsWhole)
    (x0 : Vec F S1000x256 .bf16) (x1 : Vec F S1000x256 .f32) (x2 : Vec F S1000x256 .f32) (x3 : Vec F S256x256 .bf16) (x4 : Vec F S256x256 .bf16) (x5 : Vec F S256x256 .bf16) (x6 : Vec F S1x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out2_7 x0 x1 x2 x3 x4 x5 x6)) -∗ K ⟨⟩))
      ⊢ wp frame (wpE (defs₀ (F := F)) Variants.none c none) E
          (cc2__combine_kernel i a0 ha0 a1 ha1 a2 ha2 a3 ha3 a4 ha4 a5 ha5 a6 ha6 a7 ha7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  iexists _; isplitr
  swap
  · iexact H7
  ipureintro
  exact View.read_writes_eq_canon _ _ _ (cover2 _)

/-- What the body is handed at grid point t: the invariant, what the core owes, and each window's current
    staging buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it hands back: the same invariant and debt one point on, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any grid point. Every input buffer holds its block there, so the body's triple applies with the
    blocks as the inputs' contents; the invariant and the debt are not touched by the body and are the same at
    the next point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every grid point: the eight windows written out one by one. -/
theorem body_obligation2 (c : Dev nD) : BodyObligation (dat2 (F := F) V c) (defs₀ (F := F)) Variants.none () Set.univ := fun t => by
  rw [bigSep_W2, bigSep_W2]
  exact sound_body2 V c t

end R2

end Cert.Kernel.Hand

end
-- ==== Proof.KB.Run.lean ====
/-
  The whole program on the cores, from the launch to the return. Its eight items in order are a stretch of host
  operations, region 0, three stretches, region 1, a stretch, and region 2. Between two items a core holds
  every unscoped buffer whole at the contents the fold of the boundaries names, beside its generator register
  at some state and its debt at nothing. Each stretch moves the buffers to the next boundary's contents; each
  region splits its arrays out of the buffers at its entry, runs its pipeline, and puts them back at what the
  write-backs leave. At the end every unscoped buffer is read against the final memory, and each argument is
  walked back through the fold to its launch contents.
-/
import proofs.«424452_j30116310680317_3_alg».proof.Proof.KB.Fold
import proofs.«424452_j30116310680317_3_alg».proof.Proof.KB.R0
import proofs.«424452_j30116310680317_3_alg».proof.Proof.KB.R2
import proofs.«424452_j30116310680317_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- A reference that no region windows and no stretch of host operations writes holds at the end what it
    held at launch: every step of the fold leaves it alone. -/
theorem W8_of_untouched (c : Dev nD) (r : Ref sig .tc)
    (h0 : ∀ w, Pipeline.arrRef spec0 w ≠ r) (h1 : ∀ w, Pipeline.arrRef spec1 w ≠ r) (h2 : ∀ w, Pipeline.arrRef spec2 w ≠ r)
    (g0 : r ∉ hostOps0_W) (g1 : r ∉ hostOps1_W) (g11 : r ∉ hostOps1_1_W) (g12 : r ∉ hostOps1_2_W) (g2 : r ∉ hostOps2_W) :
    W8 m c (Proc.devRef .tc r) = m ((c : Thread nD τ).loc r) :=
  calc W8 m c (Proc.devRef .tc r)
    _ = W7 m c (Proc.devRef .tc r) := W8_of_ne m c r h2
    _ = W6 m c (Proc.devRef .tc r) := StableHlo.after_of_writes_sub hostOps2 _ hostOps2_writes g2
    _ = W5 m c (Proc.devRef .tc r) := W6_of_ne m c r h1
    _ = W4 m c (Proc.devRef .tc r) := StableHlo.after_of_writes_sub hostOps1_2 _ hostOps1_2_writes g12
    _ = W3 m c (Proc.devRef .tc r) := StableHlo.after_of_writes_sub hostOps1_1 _ hostOps1_1_writes g11
    _ = W2 m c (Proc.devRef .tc r) := StableHlo.after_of_writes_sub hostOps1 _ hostOps1_writes g1
    _ = W1 m c (Proc.devRef .tc r) := W2_of_ne m c r h0
    _ = W0 m c (Proc.devRef .tc r) := StableHlo.after_of_writes_sub hostOps0 _ hostOps0_writes g0
    _ = m ((c : Thread nD τ).loc r) := rfl

/-- The first argument is region 0's first input window: the region leaves an input's array as entered, and
    nothing else touches it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  W8_of_untouched m c main_arg1 (by decide) (by decide) (by decide) (by decide) (by decide) (by decide) (by decide) (by decide)
theorem W8_main_arg2 (c : Dev nD) : W8 m c (Proc.devRef .tc main_arg2) = m ((c : Thread nD τ).loc main_arg2) :=
  W8_of_untouched m c main_arg2 (by decide) (by decide) (by decide) (by decide) (by decide) (by decide) (by decide) (by decide)
theorem W8_main_arg3 (c : Dev nD) : W8 m c (Proc.devRef .tc main_arg3) = m ((c : Thread nD τ).loc main_arg3) :=
  W8_of_untouched m c main_arg3 (by decide) (by decide) (by decide) (by decide) (by decide) (by decide) (by decide) (by decide)
theorem W8_main_arg4 (c : Dev nD) : W8 m c (Proc.devRef .tc main_arg4) = m ((c : Thread nD τ).loc main_arg4) :=
  W8_of_untouched m c main_arg4 (by decide) (by decide) (by decide) (by decide) (by decide) (by decide) (by decide) (by decide)
theorem W8_main_arg5 (c : Dev nD) : W8 m c (Proc.devRef .tc main_arg5) = m ((c : Thread nD τ).loc main_arg5) :=
  W8_of_untouched m c main_arg5 (by decide) (by decide) (by decide) (by decide) (by decide) (by decide) (by decide) (by decide)
theorem W8_main_arg6 (c : Dev nD) : W8 m c (Proc.devRef .tc main_arg6) = m ((c : Thread nD τ).loc main_arg6) :=
  W8_of_untouched m c main_arg6 (by decide) (by decide) (by decide) (by decide) (by decide) (by decide) (by decide) (by decide)
theorem W8_main_arg7 (c : Dev nD) : W8 m c (Proc.devRef .tc main_arg7) = m ((c : Thread nD τ).loc main_arg7) :=
  W8_of_untouched m c main_arg7 (by decide) (by decide) (by decide) (by decide) (by decide) (by decide) (by decide) (by decide)
theorem W8_main_arg8 (c : Dev nD) : W8 m c (Proc.devRef .tc main_arg8) = m ((c : Thread nD τ).loc main_arg8) :=
  W8_of_untouched m c main_arg8 (by decide) (by decide) (by decide) (by decide) (by decide) (by decide) (by decide) (by decide)
theorem W8_main_arg9 (c : Dev nD) : W8 m c (Proc.devRef .tc main_arg9) = m ((c : Thread nD τ).loc main_arg9) :=
  W8_of_untouched m c main_arg9 (by decide) (by decide) (by decide) (by decide) (by decide) (by decide) (by decide) (by decide)

/-! ## The proof data of the three pipelines and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers between two items: its generator register at some state, and its debt,
    at nothing. -/
abbrev R (c : Dev nD) : sProp 𝕄 := iprop((∃ r, prngReg c r) ∗ ∃ W, owes (c : Thread nD τ) (0 : CellTallies nD τ sig Unit) W)
/-- A stretch of host operations as a segment: from the unscoped buffers at W to the same buffers at W with the
    operations applied, the rest of the thread state untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered with every unscoped buffer at the contents of the boundary before
    it, left with them at the contents of the boundary after it. At the entry its arrays are split out of the
    unscoped buffers and the generator register goes into the invariant; at the exit the arrays are put back at
    what the write-backs leave and the register comes out again. Nothing is owed and the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of the boundary before
    it, left with them at the contents of the boundary after it. At the entry its arrays are split out of the
    unscoped buffers and the generator register goes into the invariant (what the launch hands the region is the
    invariant before the first grid point); at the exit the arrays are put back at
    what the write-backs leave and the register comes out again (the invariant after the last grid point gives
    back what the launch handed over). Nothing is owed and the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5 m) c).Φ 0 from rfl]
    refine BIBase.Entails.trans ?_ (hin1 (V5 m) c)
    unfold Pipeline.ΦA
    iintro ⟨Hp, -, Hr⟩
    isplitl [Hr]; · iexact Hr
    iexact Hp
  hout c := by
    rw [Pipeline.ownSems0_none, show (pdats m 1 c).Φ (Fin.last _) = (dat1 (V5 m) c).Φ (Fin.last cfg1.N) from rfl]
    refine BIBase.Entails.trans (hout1 (V5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents of the boundary before
    it, left with them at the contents of the boundary after it. At the entry its arrays are split out of the
    unscoped buffers and the generator register goes into the invariant; at the exit the arrays are put back at
    what the write-backs leave and the register comes out again. Nothing is owed and the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order: a host segment per stretch, entered at the contents of the boundary
    before it, and a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m) ]
/-- The program is the run of its segments: it is the chain of its items, and so is the segments' run. -/
theorem main_run (c : Dev nD) : main (F := F) c = Pipeline.Seg.run (segs m) := (main_chain c).trans (by chain_rfl)

set_option backward.isDefEq.respectTransparency.types false in
/-- From any memory with every counter at zero, every weakly fair execution of the program on the cores
    terminates without a fault, and in every final state each unscoped buffer of each core holds the contents
    of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The same run, read at the arguments: each ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c)⟩) (run_all m ρ)

end Cert.Kernel.Hand

end
-- ==== Proof.KI.R0Data.lean ====
/-
  Region 0 of the kernel program: one row block of x (1000 × 2048) times the whole first-layer weight
  (2048 × 256), stored as the matching row block of h0. Stated at a parameter V, the buffer contents
  the region is entered with.
-/
import proofs.«424452_j30116310680317_3_alg».proof.Proof.Gen.KernelIdeal.Launch
import proofs.«424452_j30116310680317_3_alg».proof.Proof.Gen.KernelIdeal.Skeleton
import proofs.«424452_j30116310680317_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1000x2048 := Rect.unit (s := S1000x2048) ![0, 0] S1000x2048.size inb_S1000x2048_S1000x2048_0_0
abbrev rW0 : Rect S2048x256 := Rect.unit (s := S2048x256) ![0, 0] S2048x256.size inb_S2048x256_S2048x256_0_0
abbrev rO0 : Rect S1000x256 := Rect.unit (s := S1000x256) ![0, 0] S1000x256.size inb_S1000x256_S1000x256_0_0

/-- What the body leaves in the output block: the product of the x block and the weight. -/
def out0_2 (x0 : Vec F S1000x2048 .f32) (x1 : Vec F S2048x256 .bf16) : Vec F S1000x256 .bf16 :=
  View.canon [⟨rO0, k0_pay1 (View.ld x0 rX0) (View.ld x1 rW0)⟩]

/-- The proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end R0

end Cert.KernelIdeal.Hand

end
-- ==== Proof.KI.R1Data.lean ====
/-
  Region 1 of the kernel program: the stacked adjacency (20480 × 10240) times the padded h0 (10240 × 256),
  row block by row block (1024 rows), the inner dimension in five stretches of 2048 accumulated in a scratch
  block that is zeroed at a row block's first stretch and stored to the output block at its last.
  Stated at a parameter V, the buffer contents the region is entered with.
-/
import proofs.«424452_j30116310680317_3_alg».proof.Proof.Gen.KernelIdeal.Launch
import proofs.«424452_j30116310680317_3_alg».proof.Proof.Gen.KernelIdeal.Skeleton
import proofs.«424452_j30116310680317_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S1024x2048 := Rect.unit (s := S1024x2048) ![0, 0] S1024x2048.size inb_S1024x2048_S1024x2048_0_0
abbrev rO1 : Rect S1024x256 := Rect.unit (s := S1024x256) ![0, 0] S1024x256.size inb_S1024x256_S1024x256_0_0
/-- The stretch of 2048 rows of the padded h0 that grid point i multiplies by. -/
abbrev rS1 (i : grid1.Coords) : Rect S10240x256 := Rect.unit (s := S10240x256) (k1_off1 i) S2048x256.size (k1_off1_inb i)

/-- One accumulation step: the scratch contents acc plus the product of the adjacency block a and the
    stretch of the padded h0 block b that grid point i names. -/
def step1 (i : grid1.Coords) (a : Vec F S1024x2048 .bf16) (b : Vec F S10240x256 .bf16) (acc : Vec F S1024x256 .f32) : Vec F S1024x256 .f32 :=
  k1_pay2 (View.ld b (rS1 i)) acc (View.ld a rA1)

/-- What the scratch holds after the body at grid position n: zero plus the products of the stretches of
    the current row block up to this one. -/
def accAt1 (c : Dev nD) : (n : ℕ) → n < cfg1.N → Vec F S1024x256 .f32
  | 0, hn => step1 (grid1.coords ⟨0, hn⟩) (iblk1 V c 0 ⟨0, hn⟩) (iblk1 V c 1 ⟨0, hn⟩) (k1_pay1 (F := F))
  | n + 1, hn =>
    if (n + 1) % 5 = 0 then
      step1 (grid1.coords ⟨n + 1, hn⟩) (iblk1 V c 0 ⟨n + 1, hn⟩) (iblk1 V c 1 ⟨n + 1, hn⟩) (k1_pay1 (F := F))
    else
      step1 (grid1.coords ⟨n + 1, hn⟩) (iblk1 V c 0 ⟨n + 1, hn⟩) (iblk1 V c 1 ⟨n + 1, hn⟩) (accAt1 c n (Nat.lt_of_succ_lt hn))

theorem accAt1_first (c : Dev nD) (t : Fin cfg1.N) (h : t.val % 5 = 0) :
    accAt1 V c t.val t.isLt = step1 (grid1.coords t) (iblk1 V c 0 t) (iblk1 V c 1 t) (k1_pay1 (F := F)) := by
  obtain ⟨n, hn⟩ := t
  cases n with
  | zero => rfl
  | succ n => exact (if_pos h).trans rfl

theorem accAt1_next (c : Dev nD) (t : Fin cfg1.N) (h : ¬ t.val % 5 = 0) :
    accAt1 V c t.val t.isLt = step1 (grid1.coords t) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch buffer of the kernel. -/
abbrev scM1 : Memref sig .tc .vmem S1024x256 .f32 := Memref.whole cc1_scratch0

end R1

end Cert.KernelIdeal.Hand

end
-- ==== Proof.KI.R1.lean ====
/-
  Region 1: the proof data over the accumulation, the invariant that carries the scratch block from one
  grid point to the next, and the body's obligation at every grid point.
-/
import proofs.«424452_j30116310680317_3_alg».proof.Proof.KI.R1Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

/-! ## The invariant -/

/-- The scoped buffers of the core that are neither a staging buffer of this call nor its scratch, each
    whole at some contents: the staging buffers of the two other calls. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg7_0), ((c : Thread nD τ).loc cc2_stg7_0) ↦{fullShare} f)
    ∗ (∃ f : Buf (Elt F) ((c : Thread nD τ).loc cc2_stg7_1), ((c : Thread nD τ).loc cc2_stg7_1) ↦{fullShare} f))

/-- The region invariant before grid position n: before the first point what the launch hands the region
    (every scoped buffer that is no staging buffer of this call at anything, the generator register at some
    state); afterwards the same with the scratch at what the point before left in it. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ others1 (F := F) c ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the scratch at that point's contents. -/
theorem PhiS1_succ (c : Dev nD) (n : ℕ) (hn : n < cfg1.N) :
    PhiS1 V c (n + 1) hn = iprop(owns (c : Thread nD τ) scM1 fullShare (accAt1 V c n hn) ∗ others1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (accAt1 V c (n - 1) (by omega)) ∗ others1 (F := F) c ∗ (∃ r, prngReg c r)) := by
  cases n with
  | zero => exact absurd rfl hz
  | succ n => rfl

/-- What the launch hands the region, with the scratch singled out as a memref owned at some contents. -/
theorem PhiA1_eq (c : Dev nD) :
    (Pipeline.ΦA spec1 c : sProp 𝕄)
      = iprop((∃ d, owns (c : Thread nD τ) scM1 fullShare d) ∗ others1 (F := F) c ∗ (∃ r, prngReg c r)) := by
  unfold Pipeline.ΦA others1; rw [scopedRest1_eq]; simp only [scM1, owns_whole]
  refine BI.equiv_iff.mp ⟨?_, ?_⟩
  · show (_ : sProp 𝕄) ⊢ _
    iintro ⟨⟨H1, H2, H3, H4, H5, HS, H6, H7, H8, H9, H10, H11, H12, H13, H14, H15, H16, H17⟩, Hg⟩
    isplitl [HS]; · iexact HS
    isplitr [Hg]; swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · show (_ : sProp 𝕄) ⊢ _
    iintro ⟨HS, ⟨H1, H2, H3, H4, H5, H6, H7, H8, H9, H10, H11, H12, H13, H14, H15, H16, H17⟩, Hg⟩
    isplitr [Hg]; swap; · iexact Hg
    isplitl [H1]; · iexact H1
    isplitl [H2]; · iexact H2
    isplitl [H3]; · iexact H3
    isplitl [H4]; · iexact H4
    isplitl [H5]; · iexact H5
    isplitl [HS]; · iexact HS
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-! ## The proof data -/

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- After any point but the first the invariant gives back what the launch handed over: the scratch's named
    contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨HS, Ho, Hg⟩
  isplitl [HS]
  · iexists _; iexact HS
  isplitl [Ho]; · iexact Ho
  iexact Hg

/-- The same after the last point. -/
theorem hout1 (c : Dev nD) : (dat1 (F := F) V c).Φ (Fin.last cfg1.N) ⊢ Pipeline.ΦA spec1 c :=
  Phi_out1 V c _ (by rw [Fin.val_last]; have : cfg1.N = 100 := N_1; omega)

/-! ## The body's two conditions over the grid, and where the output window is idle -/

/-- The condition of the body's first conditional, from the grid coordinates: the stretch is the row
    block's first. -/
abbrev cond1_0 (i : grid1.Coords) : Prop :=
  (Scalar.cmpi .ne (Scalar.extui (Scalar.cmpi .eq (BitVec.ofNat 32 (i 1).val) 0#32)) 0#32) = 1#1
/-- It holds at the positions ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The condition of the body's last conditional: the stretch is the row block's last. -/
abbrev cond1_1 (i : grid1.Coords) : Prop := k1_cond2 i = 1#1
/-- It holds at the positions ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle at every stretch but a row block's last, -/
theorem idleAt1_2 : ∀ t : Fin cfg1.N, ¬ t.val % 5 = 4 → cfg1.idle 2 (grid1.coords t) = true := by decide +kernel
/-- is not written back there, -/
theorem noFlush1_2 : ∀ t : Fin cfg1.N, ¬ t.val % 5 = 4 → (cfg1.win 2).flush t = false := by decide +kernel
/-- and is live at a row block's last stretch. -/
theorem liveAt1_2 : ∀ t : Fin cfg1.N, t.val % 5 = 4 → cfg1.idle 2 (grid1.coords t) = false := by decide +kernel

/-- Each input's current staging buffer holds its block at every point, fetched there or not: unfetched, the
    block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun s => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun s => by rw [after1_1]; unfold Dat.blockOf iblk1; rw [A_eq1]; try rfl) t d).trans
    (by unfold Dat.fetched Dat.blockOf iblk1; rw [A_eq1]; try rfl)

/-! ## The body's run, case by case -/

/-- The zero offsets of a whole-block access. -/
theorem hz2 : (![0, 0] : Fin 2 → Nat) = fun _ => 0 := by funext a; fin_cases a <;> rfl

set_option maxHeartbeats 4000000 in
/-- A row block's first stretch (the first conditional taken, the last not): on whole memrefs, the adjacency
    block at a, the padded h0 at b, the output block at xo and the scratch at anything, the body zeroes the
    scratch, adds the stretch's product to it, and hands everything else back as it was. -/
theorem run1_A (c : Dev nD) (i : grid1.Coords) (arg2 : Memref sig .tc .vmem S1024x2048 .bf16) (harg2 : arg2.IsWhole)
    (arg3 : Memref sig .tc .vmem S10240x256 .bf16) (harg3 : arg3.IsWhole) (arg4 : Memref sig .tc .vmem S1024x256 .f32) (harg4 : arg4.IsWhole)
    (arg5 : Memref sig .tc .vmem S1024x256 .f32) (harg5 : arg5.IsWhole) (hc0 : cond1_0 i) (hc1 : ¬cond1_1 i)
    (a : Vec F S1024x2048 .bf16) (b : Vec F S10240x256 .bf16) (xo : Vec F S1024x256 .f32) (E : Set ℕ) (K : PUnit → sProp 𝕄) :
    iprop(owns (c : Thread nD τ) arg2 fullShare a ∗ owns (c : Thread nD τ) arg3 fullShare b ∗ owns (c : Thread nD τ) arg4 fullShare xo
        ∗ (∃ d, owns (c : Thread nD τ) arg5 fullShare d)
        ∗ (iprop(owns (c : Thread nD τ) arg2 fullShare a ∗ owns (c : Thread nD τ) arg3 fullShare b ∗ owns (c : Thread nD τ) arg4 fullShare xo
            ∗ owns (c : Thread nD τ) arg5 fullShare (step1 i a b (k1_pay1 (F := F)))) -∗ K ⟨⟩))
      ⊢ wp frame (wpE (defs₀ (F := F)) Variants.none c none) E (cc1__kernel i arg2 harg2 arg3 harg3 arg4 harg4 arg5 harg5) K := by
  simp only [cc1__kernel_eq_skeleton]; unfold cc1__kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (fun y => ⟨_, List.mem_cons_self, View.mem_set_unit_zero hz2 inb_S1024x256_S1024x256_0_0 y⟩),
    View.canon_cons_unit_zero hz2, View.readCov_unit_zero (S := S1024x256) _ hz2]
  rfl

set_option maxHeartbeats 4000000 in
/-- A middle stretch (neither conditional taken): the scratch at acc; the body adds the stretch's product to it
    and hands everything else back as it was. -/
theorem run1_B (c : Dev nD) (i : grid1.Coords) (arg2 : Memref sig .tc .vmem S1024x2048 .bf16) (harg2 : arg2.IsWhole)
    (arg3 : Memref sig .tc .vmem S10240x256 .bf16) (harg3 : arg3.IsWhole) (arg4 : Memref sig .tc .vmem S1024x256 .f32) (harg4 : arg4.IsWhole)
    (arg5 : Memref sig .tc .vmem S1024x256 .f32) (harg5 : arg5.IsWhole) (hc0 : ¬cond1_0 i) (hc1 : ¬cond1_1 i)
    (a : Vec F S1024x2048 .bf16) (b : Vec F S10240x256 .bf16) (xo : Vec F S1024x256 .f32) (acc : Vec F S1024x256 .f32) (E : Set ℕ) (K : PUnit → sProp 𝕄) :
    iprop(owns (c : Thread nD τ) arg2 fullShare a ∗ owns (c : Thread nD τ) arg3 fullShare b ∗ owns (c : Thread nD τ) arg4 fullShare xo
        ∗ owns (c : Thread nD τ) arg5 fullShare acc
        ∗ (iprop(owns (c : Thread nD τ) arg2 fullShare a ∗ owns (c : Thread nD τ) arg3 fullShare b ∗ owns (c : Thread nD τ) arg4 fullShare xo
            ∗ owns (c : Thread nD τ) arg5 fullShare (step1 i a b acc)) -∗ K ⟨⟩))
      ⊢ wp frame (wpE (defs₀ (F := F)) Variants.none c none) E (cc1__kernel i arg2 harg2 arg3 harg3 arg4 harg4 arg5 harg5) K := by
  simp only [cc1__kernel_eq_skeleton]; unfold cc1__kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  have hld : View.readAt (Elt F) arg5.view (Rect.unit ![0, 0] S1024x256.size inb_S1024x256_S1024x256_0_0).toLoadRect f5
      = View.read (Elt F) arg5.view f5 := View.ld_unit_zero hz2 _ _
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (fun y => ⟨_, List.mem_cons_self, View.mem_set_unit_zero hz2 inb_S1024x256_S1024x256_0_0 y⟩),
    View.canon_cons_unit_zero hz2, hld]
  rfl

set_option maxHeartbeats 4000000 in
/-- A row block's last stretch (the last conditional taken): the scratch at acc, the output block at anything;
    the body adds the stretch's product to the scratch and stores the sum, whole, to the output block. -/
theorem run1_C (c : Dev nD) (i : grid1.Coords) (arg2 : Memref sig .tc .vmem S1024x2048 .bf16) (harg2 : arg2.IsWhole)
    (arg3 : Memref sig .tc .vmem S10240x256 .bf16) (harg3 : arg3.IsWhole) (arg4 : Memref sig .tc .vmem S1024x256 .f32) (harg4 : arg4.IsWhole)
    (arg5 : Memref sig .tc .vmem S1024x256 .f32) (harg5 : arg5.IsWhole) (hc0 : ¬cond1_0 i) (hc1 : cond1_1 i)
    (a : Vec F S1024x2048 .bf16) (b : Vec F S10240x256 .bf16) (acc : Vec F S1024x256 .f32) (E : Set ℕ) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare acc
        ∗ (iprop(owns (c : Thread nD τ) arg2 fullShare a ∗ owns (c : Thread nD τ) arg3 fullShare b ∗ owns (c : Thread nD τ) arg4 fullShare (step1 i a b acc)
            ∗ owns (c : Thread nD τ) arg5 fullShare (step1 i a b acc)) -∗ K ⟨⟩))
      ⊢ wp frame (wpE (defs₀ (F := F)) Variants.none c none) E (cc1__kernel i arg2 harg2 arg3 harg3 arg4 harg4 arg5 harg5) K := by
  simp only [cc1__kernel_eq_skeleton]; unfold cc1__kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  have hld : View.readAt (Elt F) arg5.view (Rect.unit ![0, 0] S1024x256.size inb_S1024x256_S1024x256_0_0).toLoadRect f5
      = View.read (Elt F) arg5.view f5 := View.ld_unit_zero hz2 _ _
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (fun y => ⟨_, List.mem_cons_self, View.mem_set_unit_zero hz2 inb_S1024x256_S1024x256_0_0 y⟩),
      View.canon_cons_unit_zero hz2, View.readCov_unit_zero (S := S1024x256) _ hz2, hld]
    rfl
  iexists _; isplitr
  swap; · iexact H5
  ipureintro
  sl_unfold_words
  rw [View.read_writes_eq_canon _ _ _ (fun y => ⟨_, List.mem_cons_self, View.mem_set_unit_zero hz2 inb_S1024x256_S1024x256_0_0 y⟩),
    View.canon_cons_unit_zero hz2, hld]
  rfl

/-! ## The body obligation, at a generic point -/

/-- What the body is called with at point t: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks; the position's residue mod 5 says which of
    the three cases the point is in. The invariant hands the body the scratch at what the point before left (at
    anything at the very first point) and takes it back at this point's contents; the output window is handed
    back untouched at a stretch that is not a row block's last, and holds the finished sum at the last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 5 = 0
  · have h1 : ¬ t.val % 5 = 4 := by omega
    rw [Dat.leavesExact_idle (dat1 V c) 2 t (idleAt1_2 t h1) (noFlush1_2 t h1)]
    rw [accAt1_first V c t h0]
    by_cases hz : t.val = 0
    · rw [PhiS1_castSucc V c t, PhiS1_zero V c _ _ hz, PhiA1_eq]
      iintro ⟨⟨HS, Ho, Hg⟩, Hw, ⟨%d0, H0⟩, ⟨%d1, H1⟩, ⟨%d2, H2⟩⟩
      iapply (run1_A c (grid1.coords t) _ _ _ _ _ _ _ _ ((hcond1_0 t).mpr h0) (fun h => h1 ((hcond1_1 t).mp h))
        (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Ho Hg]
      · isplitl [HS]; · iexact HS
        isplitl [Ho]; · iexact Ho
        iexact Hg
      isplitl [Hw]; · iexact Hw
      isplitl [H0]; · iexact H0
      isplitl [H1]; · iexact H1
      iexists _; iexact H2
    · rw [PhiS1_castSucc V c t, PhiS1_pos V c _ _ hz]
      iintro ⟨⟨HS, Ho, Hg⟩, Hw, ⟨%d0, H0⟩, ⟨%d1, H1⟩, ⟨%d2, H2⟩⟩
      iapply (run1_A c (grid1.coords t) _ _ _ _ _ _ _ _ ((hcond1_0 t).mpr h0) (fun h => h1 ((hcond1_1 t).mp h))
        (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Ho Hg]
      · isplitl [HS]; · iexact HS
        isplitl [Ho]; · iexact Ho
        iexact Hg
      isplitl [Hw]; · iexact Hw
      isplitl [H0]; · iexact H0
      isplitl [H1]; · iexact H1
      iexists _; iexact H2
  · have hz : t.val ≠ 0 := fun e => h0 (by rw [e])
    rw [PhiS1_castSucc V c t, PhiS1_pos V c _ _ hz, accAt1_next V c t h0]
    by_cases h1 : t.val % 5 = 4
    · rw [show (dat1 V c).leavesExact 2 t = owns (c : Thread nD τ) (st1_2 t) fullShare ((dat1 V c).after 2 t) from by
        unfold Dat.leavesExact; rw [liveAt1_2 t h1], after1_2, accAt1_next V c t h0]
      iintro ⟨⟨HS, Ho, Hg⟩, Hw, ⟨%d0, H0⟩, ⟨%d1, H1⟩, ⟨%d2, H2⟩⟩
      iapply (run1_C c (grid1.coords t) _ _ _ _ _ _ _ _ (fun h => h0 ((hcond1_0 t).mp h)) ((hcond1_1 t).mpr h1)
        (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Ho Hg]
      · isplitl [HS]; · iexact HS
        isplitl [Ho]; · iexact Ho
        iexact Hg
      isplitl [Hw]; · iexact Hw
      isplitl [H0]; · iexact H0
      isplitl [H1]; · iexact H1
      iexact H2
    · rw [Dat.leavesExact_idle (dat1 V c) 2 t (idleAt1_2 t h1) (noFlush1_2 t h1)]
      iintro ⟨⟨HS, Ho, Hg⟩, Hw, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h))
        (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Ho Hg]
      · isplitl [HS]; · iexact HS
        isplitl [Ho]; · iexact Ho
        iexact Hg
      isplitl [Hw]; · iexact Hw
      isplitl [H0]; · iexact H0
      isplitl [H1]; · iexact H1
      iexists _; iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end R1

end Cert.KernelIdeal.Hand

end
-- ==== Proof.KI.R2Data.lean ====
/-
  Region 2 of the kernel program: one row block (1000 rows) of h0, h1 and h2, each times its 256 × 256
  slice of the output weight, summed, plus the bias row; stored as the matching row block of the result.
  Stated at a parameter V, the buffer contents the region is entered with.
-/
import proofs.«424452_j30116310680317_3_alg».proof.Proof.Gen.KernelIdeal.Launch
import proofs.«424452_j30116310680317_3_alg».proof.Proof.Gen.KernelIdeal.Skeleton
import proofs.«424452_j30116310680317_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R2
variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rH2 : Rect S1000x256 := Rect.unit (s := S1000x256) ![0, 0] S1000x256.size inb_S1000x256_S1000x256_0_0
abbrev rW2 : Rect S256x256 := Rect.unit (s := S256x256) ![0, 0] S256x256.size inb_S256x256_S256x256_0_0
abbrev rB2 : Rect S1x256 := Rect.unit (s := S1x256) ![0, 0] S1x256.size inb_S1x256_S1x256_0_0

/-- What the body leaves in the output block. -/
def out2_7 (x0 : Vec F S1000x256 .bf16) (x1 : Vec F S1000x256 .f32) (x2 : Vec F S1000x256 .f32)
    (x3 : Vec F S256x256 .bf16) (x4 : Vec F S256x256 .bf16) (x5 : Vec F S256x256 .bf16) (x6 : Vec F S1x256 .f32) : Vec F S1000x256 .f32 :=
  View.canon [⟨rH2, k2_pay1 (View.ld x0 rH2) (View.ld x1 rH2) (View.ld x2 rH2) (View.ld x3 rW2) (View.ld x4 rW2) (View.ld x5 rW2) (View.ld x6 rB2)⟩]

/-- The proof data of pipeline 2. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t =
    out2_7 (iblk2 V c 0 t) (iblk2 V c 1 t) (iblk2 V c 2 t) (iblk2 V c 3 t) (iblk2 V c 4 t) (iblk2 V c 5 t) (iblk2 V c 6 t) := by dsimp only [dat2]

end R2

end Cert.KernelIdeal.Hand

end
-- ==== Proof.KI.Fold.lean ====
/-
  The buffer contents of one core at each boundary between the items of the program: the launch memory,
  then each stretch of host operations applied, and at each region's exit its arrays at what the region's
  write-backs leave.
-/
import proofs.«424452_j30116310680317_3_alg».proof.Proof.KI.R0Data
import proofs.«424452_j30116310680317_3_alg».proof.Proof.KI.R1
import proofs.«424452_j30116310680317_3_alg».proof.Proof.KI.R2Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m ((c : Dev nD), b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three stretches of host operations between regions 0 and 1 (region 1's entry is W5). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the stretch of host operations between regions 1 and 2 (region 2's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At region 2's exit: the end of the program. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

end Cert.KernelIdeal.Hand

end
-- ==== Proof.KI.R0.lean ====
/-
  Region 0: the body's run on its staging buffers, and the body's obligation at every grid point.
-/
import proofs.«424452_j30116310680317_3_alg».proof.Proof.KI.R0Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

/-- The x window's current staging buffer holds its row block at every grid point, for any proof data whose
    array is the entry contents and whose body leaves the block in place: the window is uncut and never idle,
    and where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's index map is constant: it is fetched at the first point only, and its staging buffer
    holds the whole weight at every point, by the same argument. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-- The single store is the whole output block, so it covers it. -/
theorem cover0 (p0 : Vec F S1000x256 .bf16) (y : S1000x256.Idx) :
    ∃ pc ∈ ([⟨rO0, p0⟩] : List (View.Piece (Elt F) S1000x256 .bf16)), y ∈ pc.1.set :=
  View.cover_of_tiled [⟨rO0, p0⟩] S1000x256.size (by rfl) y

set_option maxHeartbeats 4000000 in
/-- The body on whole staging memrefs, the inputs at read contents x0 and x1 and the output at anything,
    runs to the continuation holding the inputs as they were and the output at the product block. -/
theorem sound_kernel0 (c : Dev nD) (E : Set ℕ) (i : grid0.Coords)
    (arg1 : Memref sig .tc .vmem S1000x2048 .f32) (harg1 : arg1.IsWhole)
    (arg2 : Memref sig .tc .vmem S2048x256 .bf16) (harg2 : arg2.IsWhole)
    (arg3 : Memref sig .tc .vmem S1000x256 .bf16) (harg3 : arg3.IsWhole)
    (x0 : Vec F S1000x2048 .f32) (x1 : Vec F S2048x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_nr_kernel i arg1 harg1 arg2 harg2 arg3 harg3) K := by
  simp only [cc0__matmul_nr_kernel_eq_skeleton]; unfold cc0__matmul_nr_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- What the body is called with at grid point t: the invariant, the core's debt, and each window's
    current staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body returns at grid point t. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the input buffers hold their blocks, so the body's triple applies; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every grid point. -/
theorem body_obligation0 (c : Dev nD) : BodyObligation (dat0 (F := F) V c) (defs₀ (F := F)) Variants.none () Set.univ := fun t => by
  rw [bigSep_W0, bigSep_W0]
  exact sound_body0 V c t

end R0

end Cert.KernelIdeal.Hand

end
-- ==== Proof.KI.R2.lean ====
/-
  Region 2: the body's run on its staging buffers, and the body's obligation at every grid point.

  The body reads its seven input windows whole, reads the output window whole (a value it never uses) and then
  stores one value over the whole output block. So each input buffer holds the window's block at the point,
  the output buffer ends at a closed function of those blocks, and nothing else of the state is touched.
-/
import proofs.«424452_j30116310680317_3_alg».proof.Proof.KI.R2Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R2
variable (V : (c : Dev nD) → (b : Ref sig .tc) → Buf (Elt F) ((c : Thread nD τ).loc b))

/-- Input window 0's current staging buffer holds its block at every grid point. -/
theorem before2_0 (c : Dev nD) (t : Fin cfg2.N) (d) : (dat2 V c).before 0 t d = iblk2 V c 0 t :=
  ((dat2 V c).before_in_eq_fetched 0 rfl (fun _ => rfl) (fun _ _ _ => rfl)
    (fun s => by rw [after2_0]; unfold Dat.blockOf iblk2; rw [A_eq2]; try rfl) t d).trans
    (by unfold Dat.fetched Dat.blockOf iblk2; rw [A_eq2]; try rfl)

/-- Input window 1's current staging buffer holds its block at every grid point. -/
theorem before2_1 (c : Dev nD) (t : Fin cfg2.N) (d) : (dat2 V c).before 1 t d = iblk2 V c 1 t :=
  ((dat2 V c).before_in_eq_fetched 1 rfl (fun _ => rfl) (fun _ _ _ => rfl)
    (fun s => by rw [after2_1]; unfold Dat.blockOf iblk2; rw [A_eq2]; try rfl) t d).trans
    (by unfold Dat.fetched Dat.blockOf iblk2; rw [A_eq2]; try rfl)

/-- Input window 2's current staging buffer holds its block at every grid point. -/
theorem before2_2 (c : Dev nD) (t : Fin cfg2.N) (d) : (dat2 V c).before 2 t d = iblk2 V c 2 t :=
  ((dat2 V c).before_in_eq_fetched 2 rfl (fun _ => rfl) (fun _ _ _ => rfl)
    (fun s => by rw [after2_2]; unfold Dat.blockOf iblk2; rw [A_eq2]; try rfl) t d).trans
    (by unfold Dat.fetched Dat.blockOf iblk2; rw [A_eq2]; try rfl)

/-- Input window 3's current staging buffer holds its block at every grid point, though it is fetched at the first point only: its block index never moves, so the block it was filled with is the block of every later point. -/
theorem before2_3 (c : Dev nD) (t : Fin cfg2.N) (d) : (dat2 V c).before 3 t d = iblk2 V c 3 t :=
  ((dat2 V c).before_in_eq_fetched 3 rfl (fun _ => rfl) (fun _ _ _ => rfl)
    (fun s => by rw [after2_3]; unfold Dat.blockOf iblk2; rw [A_eq2]; try rfl) t d).trans
    (by unfold Dat.fetched Dat.blockOf iblk2; rw [A_eq2]; try rfl)

/-- Input window 4's current staging buffer holds its block at every grid point, though it is fetched at the first point only: its block index never moves, so the block it was filled with is the block of every later point. -/
theorem before2_4 (c : Dev nD) (t : Fin cfg2.N) (d) : (dat2 V c).before 4 t d = iblk2 V c 4 t :=
  ((dat2 V c).before_in_eq_fetched 4 rfl (fun _ => rfl) (fun _ _ _ => rfl)
    (fun s => by rw [after2_4]; unfold Dat.blockOf iblk2; rw [A_eq2]; try rfl) t d).trans
    (by unfold Dat.fetched Dat.blockOf iblk2; rw [A_eq2]; try rfl)

/-- Input window 5's current staging buffer holds its block at every grid point, though it is fetched at the first point only: its block index never moves, so the block it was filled with is the block of every later point. -/
theorem before2_5 (c : Dev nD) (t : Fin cfg2.N) (d) : (dat2 V c).before 5 t d = iblk2 V c 5 t :=
  ((dat2 V c).before_in_eq_fetched 5 rfl (fun _ => rfl) (fun _ _ _ => rfl)
    (fun s => by rw [after2_5]; unfold Dat.blockOf iblk2; rw [A_eq2]; try rfl) t d).trans
    (by unfold Dat.fetched Dat.blockOf iblk2; rw [A_eq2]; try rfl)

/-- Input window 6's current staging buffer holds its block at every grid point, though it is fetched at the first point only: its block index never moves, so the block it was filled with is the block of every later point. -/
theorem before2_6 (c : Dev nD) (t : Fin cfg2.N) (d) : (dat2 V c).before 6 t d = iblk2 V c 6 t :=
  ((dat2 V c).before_in_eq_fetched 6 rfl (fun _ => rfl) (fun _ _ _ => rfl)
    (fun s => by rw [after2_6]; unfold Dat.blockOf iblk2; rw [A_eq2]; try rfl) t d).trans
    (by unfold Dat.fetched Dat.blockOf iblk2; rw [A_eq2]; try rfl)

/-- The single store writes the whole output block: one piece of the block's own extents tiles it. -/
theorem cover2 (p : Vec F S1000x256 .f32) (y : S1000x256.Idx) :
    ∃ pc ∈ ([⟨rH2, p⟩] : List (View.Piece (Elt F) S1000x256 .f32)), y ∈ pc.1.set :=
  View.cover_of_tiled [⟨rH2, p⟩] S1000x256.size (by rfl) y

set_option maxHeartbeats 4000000 in
/-- The body on whole staging memrefs. The seven inputs are read and left as they were; the output is first read
    (the value is discarded) and then overwritten whole, so whatever it held before, it ends at out2_7 of the
    inputs' contents. -/
theorem sound_kernel2 (c : Dev nD) (E : Set ℕ) (i : grid2.Coords) (a0 : Memref sig .tc .vmem S1000x256 .bf16) (ha0 : a0.IsWhole) (a1 : Memref sig .tc .vmem S1000x256 .f32) (ha1 : a1.IsWhole) (a2 : Memref sig .tc .vmem S1000x256 .f32) (ha2 : a2.IsWhole) (a3 : Memref sig .tc .vmem S256x256 .bf16) (ha3 : a3.IsWhole) (a4 : Memref sig .tc .vmem S256x256 .bf16) (ha4 : a4.IsWhole) (a5 : Memref sig .tc .vmem S256x256 .bf16) (ha5 : a5.IsWhole) (a6 : Memref sig .tc .vmem S1x256 .f32) (ha6 : a6.IsWhole) (a7 : Memref sig .tc .vmem S1000x256 .f32) (ha7 : a7.IsWhole)
    (x0 : Vec F S1000x256 .bf16) (x1 : Vec F S1000x256 .f32) (x2 : Vec F S1000x256 .f32) (x3 : Vec F S256x256 .bf16) (x4 : Vec F S256x256 .bf16) (x5 : Vec F S256x256 .bf16) (x6 : Vec F S1x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out2_7 x0 x1 x2 x3 x4 x5 x6)) -∗ K ⟨⟩))
      ⊢ wp frame (wpE (defs₀ (F := F)) Variants.none c none) E
          (cc2__combine_kernel i a0 ha0 a1 ha1 a2 ha2 a3 ha3 a4 ha4 a5 ha5 a6 ha6 a7 ha7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  iexists _; isplitr
  swap
  · iexact H7
  ipureintro
  exact View.read_writes_eq_canon _ _ _ (cover2 _)

/-- What the body is handed at grid point t: the invariant, what the core owes, and each window's current
    staging buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it hands back: the same invariant and debt one point on, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any grid point. Every input buffer holds its block there, so the body's triple applies with the
    blocks as the inputs' contents; the invariant and the debt are not touched by the body and are the same at
    the next point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every grid point: the eight windows written out one by one. -/
theorem body_obligation2 (c : Dev nD) : BodyObligation (dat2 (F := F) V c) (defs₀ (F := F)) Variants.none () Set.univ := fun t => by
  rw [bigSep_W2, bigSep_W2]
  exact sound_body2 V c t

end R2

end Cert.KernelIdeal.Hand

end
-- ==== Proof.KI.Run.lean ====
/-
  The whole program on the cores, from the launch to the return. Its eight items in order are a stretch of host
  operations, region 0, three stretches, region 1, a stretch, and region 2. Between two items a core holds
  every unscoped buffer whole at the contents the fold of the boundaries names, beside its generator register
  at some state and its debt at nothing. Each stretch moves the buffers to the next boundary's contents; each
  region splits its arrays out of the buffers at its entry, runs its pipeline, and puts them back at what the
  write-backs leave. At the end every unscoped buffer is read against the final memory, and each argument is
  walked back through the fold to its launch contents.
-/
import proofs.«424452_j30116310680317_3_alg».proof.Proof.KI.Fold
import proofs.«424452_j30116310680317_3_alg».proof.Proof.KI.R0
import proofs.«424452_j30116310680317_3_alg».proof.Proof.KI.R2
import proofs.«424452_j30116310680317_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- A reference that no region windows and no stretch of host operations writes holds at the end what it
    held at launch: every step of the fold leaves it alone. -/
theorem W8_of_untouched (c : Dev nD) (r : Ref sig .tc)
    (h0 : ∀ w, Pipeline.arrRef spec0 w ≠ r) (h1 : ∀ w, Pipeline.arrRef spec1 w ≠ r) (h2 : ∀ w, Pipeline.arrRef spec2 w ≠ r)
    (g0 : r ∉ hostOps0_W) (g1 : r ∉ hostOps1_W) (g11 : r ∉ hostOps1_1_W) (g12 : r ∉ hostOps1_2_W) (g2 : r ∉ hostOps2_W) :
    W8 m c (Proc.devRef .tc r) = m ((c : Thread nD τ).loc r) :=
  calc W8 m c (Proc.devRef .tc r)
    _ = W7 m c (Proc.devRef .tc r) := W8_of_ne m c r h2
    _ = W6 m c (Proc.devRef .tc r) := StableHlo.after_of_writes_sub hostOps2 _ hostOps2_writes g2
    _ = W5 m c (Proc.devRef .tc r) := W6_of_ne m c r h1
    _ = W4 m c (Proc.devRef .tc r) := StableHlo.after_of_writes_sub hostOps1_2 _ hostOps1_2_writes g12
    _ = W3 m c (Proc.devRef .tc r) := StableHlo.after_of_writes_sub hostOps1_1 _ hostOps1_1_writes g11
    _ = W2 m c (Proc.devRef .tc r) := StableHlo.after_of_writes_sub hostOps1 _ hostOps1_writes g1
    _ = W1 m c (Proc.devRef .tc r) := W2_of_ne m c r h0
    _ = W0 m c (Proc.devRef .tc r) := StableHlo.after_of_writes_sub hostOps0 _ hostOps0_writes g0
    _ = m ((c : Thread nD τ).loc r) := rfl

/-- The first argument is region 0's first input window: the region leaves an input's array as entered, and
    nothing else touches it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  W8_of_untouched m c main_arg1 (by decide) (by decide) (by decide) (by decide) (by decide) (by decide) (by decide) (by decide)
theorem W8_main_arg2 (c : Dev nD) : W8 m c (Proc.devRef .tc main_arg2) = m ((c : Thread nD τ).loc main_arg2) :=
  W8_of_untouched m c main_arg2 (by decide) (by decide) (by decide) (by decide) (by decide) (by decide) (by decide) (by decide)
theorem W8_main_arg3 (c : Dev nD) : W8 m c (Proc.devRef .tc main_arg3) = m ((c : Thread nD τ).loc main_arg3) :=
  W8_of_untouched m c main_arg3 (by decide) (by decide) (by decide) (by decide) (by decide) (by decide) (by decide) (by decide)
theorem W8_main_arg4 (c : Dev nD) : W8 m c (Proc.devRef .tc main_arg4) = m ((c : Thread nD τ).loc main_arg4) :=
  W8_of_untouched m c main_arg4 (by decide) (by decide) (by decide) (by decide) (by decide) (by decide) (by decide) (by decide)
theorem W8_main_arg5 (c : Dev nD) : W8 m c (Proc.devRef .tc main_arg5) = m ((c : Thread nD τ).loc main_arg5) :=
  W8_of_untouched m c main_arg5 (by decide) (by decide) (by decide) (by decide) (by decide) (by decide) (by decide) (by decide)
theorem W8_main_arg6 (c : Dev nD) : W8 m c (Proc.devRef .tc main_arg6) = m ((c : Thread nD τ).loc main_arg6) :=
  W8_of_untouched m c main_arg6 (by decide) (by decide) (by decide) (by decide) (by decide) (by decide) (by decide) (by decide)
theorem W8_main_arg7 (c : Dev nD) : W8 m c (Proc.devRef .tc main_arg7) = m ((c : Thread nD τ).loc main_arg7) :=
  W8_of_untouched m c main_arg7 (by decide) (by decide) (by decide) (by decide) (by decide) (by decide) (by decide) (by decide)
theorem W8_main_arg8 (c : Dev nD) : W8 m c (Proc.devRef .tc main_arg8) = m ((c : Thread nD τ).loc main_arg8) :=
  W8_of_untouched m c main_arg8 (by decide) (by decide) (by decide) (by decide) (by decide) (by decide) (by decide) (by decide)
theorem W8_main_arg9 (c : Dev nD) : W8 m c (Proc.devRef .tc main_arg9) = m ((c : Thread nD τ).loc main_arg9) :=
  W8_of_untouched m c main_arg9 (by decide) (by decide) (by decide) (by decide) (by decide) (by decide) (by decide) (by decide)

/-! ## The proof data of the three pipelines and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers between two items: its generator register at some state, and its debt,
    at nothing. -/
abbrev R (c : Dev nD) : sProp 𝕄 := iprop((∃ r, prngReg c r) ∗ ∃ W, owes (c : Thread nD τ) (0 : CellTallies nD τ sig Unit) W)
/-- A stretch of host operations as a segment: from the unscoped buffers at W to the same buffers at W with the
    operations applied, the rest of the thread state untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered with every unscoped buffer at the contents of the boundary before
    it, left with them at the contents of the boundary after it. At the entry its arrays are split out of the
    unscoped buffers and the generator register goes into the invariant; at the exit the arrays are put back at
    what the write-backs leave and the register comes out again. Nothing is owed and the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of the boundary before
    it, left with them at the contents of the boundary after it. At the entry its arrays are split out of the
    unscoped buffers and the generator register goes into the invariant (what the launch hands the region is the
    invariant before the first grid point); at the exit the arrays are put back at
    what the write-backs leave and the register comes out again (the invariant after the last grid point gives
    back what the launch handed over). Nothing is owed and the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5 m) c).Φ 0 from rfl]
    refine BIBase.Entails.trans ?_ (hin1 (V5 m) c)
    unfold Pipeline.ΦA
    iintro ⟨Hp, -, Hr⟩
    isplitl [Hr]; · iexact Hr
    iexact Hp
  hout c := by
    rw [Pipeline.ownSems0_none, show (pdats m 1 c).Φ (Fin.last _) = (dat1 (V5 m) c).Φ (Fin.last cfg1.N) from rfl]
    refine BIBase.Entails.trans (hout1 (V5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents of the boundary before
    it, left with them at the contents of the boundary after it. At the entry its arrays are split out of the
    unscoped buffers and the generator register goes into the invariant; at the exit the arrays are put back at
    what the write-backs leave and the register comes out again. Nothing is owed and the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order: a host segment per stretch, entered at the contents of the boundary
    before it, and a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m) ]
/-- The program is the run of its segments: it is the chain of its items, and so is the segments' run. -/
theorem main_run (c : Dev nD) : main (F := F) c = Pipeline.Seg.run (segs m) := (main_chain c).trans (by chain_rfl)

set_option backward.isDefEq.respectTransparency.types false in
/-- From any memory with every counter at zero, every weakly fair execution of the program on the cores
    terminates without a fault, and in every final state each unscoped buffer of each core holds the contents
    of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The same run, read at the arguments: each ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c)⟩) (run_all m ρ)

end Cert.KernelIdeal.Hand

end
-- ==== Proof.Val.Spec.lean ====
/-
  The mathematics both programs compute, over the extended reals, with matrices as functions of two
  coordinates. h0 = x · W1. The reference aggregates h0 along each edge list: row r of the aggregate is the
  sum, over the edges e whose destination is r, of the edge's weight times row (source of e) of h0. The
  kernel instead scatters the weights into one dense stacked adjacency matrix (20480 × 10240: the first edge
  list in rows 0 ≤ r < 10240, the second in rows 10240 ≤ r) and multiplies it by h0 padded with zero rows.
  The result is [h0 | h1 | h2] · W_out + b; the kernel sums the three 256-wide stretches separately.
-/
import Idealize.ShloMosaic.PureOps.Ideal
import Idealize.ShloMosaic.Lib.ValueIdx

noncomputable section

open scoped BigOperators

namespace Cert.Spec

open Idealize.ShloMosaic Idealize.ShloMosaic.ValueIdx Finset

/-- A matrix of extended reals. -/
abbrev Mat (n k : ℕ) : Type := Fin n → Fin k → EReal

/-- A rank-2 array read as a matrix. -/
def toMat {n k : ℕ} (a : (⟨2, ![n, k]⟩ : Shape).Idx → EReal) : Mat n k := fun r c => a (ix2 r c)
/-- A rank-1 array read as a vector. -/
def toVec {n : ℕ} (a : (⟨1, ![n]⟩ : Shape).Idx → EReal) : Fin n → EReal := fun e => a (ix1 e)
/-- A rank-1 array of 32-bit words read as natural numbers. -/
def toNats {n : ℕ} (a : (⟨1, ![n]⟩ : Shape).Idx → BitVec 32) : Fin n → ℕ := fun e => (a (ix1 e)).toNat

/-- The matrix product. -/
def mul {n k p : ℕ} (a : Mat n k) (b : Mat k p) : Mat n p := fun i j => ∑ l, a i l * b l j

/-- The dense stacked adjacency: entry (r, c) is the sum of the weights of the first list's edges (r, c),
    then of the second list's edges (r − 10240, c). -/
def dense (r1 c1 : Fin 160000 → ℕ) (v1 : Fin 160000 → EReal) (r2 c2 : Fin 320000 → ℕ) (v2 : Fin 320000 → EReal) :
    Mat 20480 10240 := fun r c =>
  ((0 : EReal) + ∑ e ∈ univ.filter (fun e => r1 e = r.val ∧ c1 e = c.val), v1 e)
    + ∑ e ∈ univ.filter (fun e => r2 e + 10240 = r.val ∧ c2 e = c.val), v2 e

/-- h0 with 240 zero rows appended. -/
def padRows (h : Mat 10000 256) : Mat 10240 256 := fun c d => if hc : c.val < 10000 then h ⟨c.val, hc⟩ d else 0

/-- What the kernel returns, from h0, the stacked aggregate hh (20480 × 256), W_out and b. -/
def kOut (h0 : Mat 10000 256) (hh : Mat 20480 256) (wo : Mat 768 256) (b : Fin 256 → EReal) : Mat 10000 256 :=
  fun r j =>
    ((∑ k : Fin 256, h0 r k * wo ⟨k.val, by omega⟩ j
      + ∑ k : Fin 256, hh ⟨r.val, by omega⟩ k * wo ⟨256 + k.val, by omega⟩ j)
      + ∑ k : Fin 256, hh ⟨10240 + r.val, by omega⟩ k * wo ⟨512 + k.val, by omega⟩ j)
    + b j

/-- The reference's aggregation along one edge list. -/
def agg {E : ℕ} (rows cols : Fin E → ℕ) (vals : Fin E → EReal) (h : Mat 10000 256) : Mat 10000 256 := fun r d =>
  (0 : EReal) + ∑ e ∈ univ.filter (fun e => rows e = r.val),
    vals e * (if hc : cols e < 10000 then h ⟨cols e, hc⟩ d else 0)

/-- The three blocks side by side. -/
def cat3 (h0 h1 h2 : Mat 10000 256) : Mat 10000 768 := fun r k =>
  if hk : k.val < 256 then h0 r ⟨k.val, hk⟩
  else if hk2 : k.val < 512 then h1 r ⟨k.val - 256, by omega⟩
  else h2 r ⟨k.val - 512, by omega⟩

/-- What the reference returns. -/
def rOut (h0 h1 h2 : Mat 10000 256) (wo : Mat 768 256) (b : Fin 256 → EReal) : Mat 10000 256 :=
  fun r j => (∑ k : Fin 768, cat3 h0 h1 h2 r k * wo k j) + b j

/-- The kernel's result as a function of the ten inputs. -/
def kernelResult (x : Mat 10000 2048) (r1 c1 : Fin 160000 → ℕ) (v1 : Fin 160000 → EReal)
    (r2 c2 : Fin 320000 → ℕ) (v2 : Fin 320000 → EReal) (w1 : Mat 2048 256) (wo : Mat 768 256) (b : Fin 256 → EReal) :
    Mat 10000 256 :=
  kOut (mul x w1) (mul (dense r1 c1 v1 r2 c2 v2) (padRows (mul x w1))) wo b

/-- The reference's result as a function of the ten inputs. -/
def referenceResult (x : Mat 10000 2048) (r1 c1 : Fin 160000 → ℕ) (v1 : Fin 160000 → EReal)
    (r2 c2 : Fin 320000 → ℕ) (v2 : Fin 320000 → EReal) (w1 : Mat 2048 256) (wo : Mat 768 256) (b : Fin 256 → EReal) :
    Mat 10000 256 :=
  rOut (mul x w1) (agg r1 c1 v1 (mul x w1)) (agg r2 c2 v2 (mul x w1)) wo b

/-- Every entry is a real number. -/
def RealMat {n k : ℕ} (a : Mat n k) : Prop := ∀ i j, ∃ t : ℝ, a i j = (t : EReal)
def RealVec {n : ℕ} (a : Fin n → EReal) : Prop := ∀ i, ∃ t : ℝ, a i = (t : EReal)
/-- Every index is a node number. -/
def Nodes {n : ℕ} (a : Fin n → ℕ) : Prop := ∀ i, a i < 10000

end Cert.Spec

end
-- ==== Proof.Val.Val0.lean ====
/-
  What region 0 leaves in h0's array, at the ideal reading: entry (r, d) is the sum over k of x (r, k) times
  the weight (k, d); row block t of the array is what grid point t wrote, and the ten blocks cover it.
-/
import proofs.«424452_j30116310680317_3_alg».proof.Proof.KI.R0
import proofs.«424452_j30116310680317_3_alg».proof.Proof.Val.Spec
import Idealize.ShloMosaic.Lib.Pipeline.Value
import Idealize.ShloMosaic.PureOps.Ideal.Laws

set_option maxRecDepth 16384

noncomputable section

open scoped BigOperators

namespace Cert.KernelIdeal.Val.R0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem zero_offsets : (![0, 0] : Fin 2 → Nat) = fun _ => 0 := funext fun a => by fin_cases a <;> rfl

/-! ## The product block at an index -/

/-- The left operand's row coordinate is the output's row. -/
theorem lhs_row (i : S1000x256.Idx) (q : dot_S1000x2048_S2048x256_S1000x256_1_0_0_1_n_n.contr.Idx) :
    (dot_S1000x2048_S2048x256_S1000x256_1_0_0_1_n_n.lhsIdx i q 0).val = (i 0).val := by
  unfold DotDims.lhsIdx
  rw [dif_neg (show ¬(0 : Fin S1000x2048.rank) ∈ dot_S1000x2048_S2048x256_S1000x256_1_0_0_1_n_n.lhsBatch by decide), dif_pos (show (0 : Fin S1000x2048.rank) ∈ dot_S1000x2048_S2048x256_S1000x256_1_0_0_1_n_n.lhsNonContracting by decide)]
  rfl
/-- The left operand's column coordinate is the contracted index. -/
theorem lhs_col (i : S1000x256.Idx) (q : dot_S1000x2048_S2048x256_S1000x256_1_0_0_1_n_n.contr.Idx) :
    (dot_S1000x2048_S2048x256_S1000x256_1_0_0_1_n_n.lhsIdx i q 1).val = (q ⟨0, by decide⟩).val :=
  dot_S1000x2048_S2048x256_S1000x256_1_0_0_1_n_n.lhsIdx_val_of_single rfl i q
/-- The right operand's row coordinate is the contracted index. -/
theorem rhs_row (i : S1000x256.Idx) (q : dot_S1000x2048_S2048x256_S1000x256_1_0_0_1_n_n.contr.Idx) :
    (dot_S1000x2048_S2048x256_S1000x256_1_0_0_1_n_n.rhsIdx i q 0).val = (q ⟨0, by decide⟩).val :=
  dot_S1000x2048_S2048x256_S1000x256_1_0_0_1_n_n.rhsIdx_val_of_single rfl i q
/-- The right operand's column coordinate is the output's column. -/
theorem rhs_col (i : S1000x256.Idx) (q : dot_S1000x2048_S2048x256_S1000x256_1_0_0_1_n_n.contr.Idx) :
    (dot_S1000x2048_S2048x256_S1000x256_1_0_0_1_n_n.rhsIdx i q 1).val = (i 1).val := by
  unfold DotDims.rhsIdx
  rw [dif_neg (show ¬(1 : Fin S2048x256.rank) ∈ dot_S1000x2048_S2048x256_S1000x256_1_0_0_1_n_n.rhsBatch by decide), dif_pos (show (1 : Fin S2048x256.rank) ∈ dot_S1000x2048_S2048x256_S1000x256_1_0_0_1_n_n.rhsNonContracting by decide)]
  rfl

/-- The body's payload, its value bindings substituted. -/
theorem prod_eq (x0 : FVec Ideal S1000x2048 .f32) (x1 : FVec Ideal S2048x256 .bf16) :
    k0_pay1 (F := Ideal) x0 x1
      = truncf .bf16 (matmul dot_S1000x2048_S2048x256_S1000x256_1_0_0_1_n_n none (truncf .bf16 x0 bitsLt_bf16_f32)
          (shapeCast S2048x256 x1 shapeCasts_S2048x256_S2048x256) (constant S1000x256 .f32 0x00000000#32)) bitsLt_bf16_f32 := rfl

/-- At the ideal reading the narrowing conversions are the identity and the product into the zero block is
    the plain sum: entry (p, q) of the payload is the sum over l of x0 (p, l) times x1 (l, q). -/
theorem prod_apply (x0 : FVec Ideal S1000x2048 .f32) (x1 : FVec Ideal S2048x256 .bf16) (p : Fin 1000) (q : Fin 256) :
    (k0_pay1 (F := Ideal) x0 x1 (ix2 p q) : EReal) = ∑ l : Fin 2048, (x0 (ix2 p l) : EReal) * (x1 (ix2 l q) : EReal) := by
  rw [prod_eq, truncf_apply]
  refine (Ideal.matmul_constant_zero_apply dot_S1000x2048_S2048x256_S1000x256_1_0_0_1_n_n none _ _ (ix2 p q)).trans ?_
  rw [← Equiv.sum_comp (contrEquiv1 dot_S1000x2048_S2048x256_S1000x256_1_0_0_1_n_n 2048 rfl rfl).symm]
  refine Finset.sum_congr rfl fun l _ => ?_
  have hl := contrEquiv1_symm_val dot_S1000x2048_S2048x256_S1000x256_1_0_0_1_n_n 2048 rfl rfl l
  have el : dot_S1000x2048_S2048x256_S1000x256_1_0_0_1_n_n.lhsIdx (ix2 p q) ((contrEquiv1 dot_S1000x2048_S2048x256_S1000x256_1_0_0_1_n_n 2048 rfl rfl).symm l) = ix2 p l := funext fun a => Fin.ext (by
    match a with
    | ⟨0, _⟩ => exact lhs_row _ _
    | ⟨1, _⟩ => exact (lhs_col _ _).trans hl)
  have er : dot_S1000x2048_S2048x256_S1000x256_1_0_0_1_n_n.rhsIdx (ix2 p q) ((contrEquiv1 dot_S1000x2048_S2048x256_S1000x256_1_0_0_1_n_n 2048 rfl rfl).symm l) = ix2 l q := funext fun a => Fin.ext (by
    match a with
    | ⟨0, _⟩ => exact (rhs_row _ _).trans hl
    | ⟨1, _⟩ => exact rhs_col _ _)
  rw [el, er, truncf_apply, shapeCast_self]

/-! ## From blocks to the array -/

/-- The product of the whole arrays, index by index: entry (r, d) is the sum over l of a0 (r, l) times a1 (l, d). -/
abbrev prodArr (a0 : S10000x2048.Idx → EReal) (a1 : S2048x256.Idx → EReal) : S10000x256.Idx → EReal :=
  fun i => ∑ l : Fin 2048, a0 (ix2 (⟨(i 0).val, idx2_lt0 i⟩ : Fin 10000) l) * a1 (ix2 l (⟨(i 1).val, idx2_lt1 i⟩ : Fin 256))

/-- A product block whose left operand is rows 1000 n … 1000 n + 999 of a0 and whose right operand is a1 is,
    entry by entry, the same rows of the product of the arrays. -/
theorem prod_block (a0 : S10000x2048.Idx → EReal) (a1 : S2048x256.Idx → EReal)
    (x0 : FVec Ideal S1000x2048 .f32) (x1 : FVec Ideal S2048x256 .bf16) (n : ℕ)
    (h0 : ∀ (y : S1000x2048.Idx) (k : S10000x2048.Idx), (k 0).val = n * 1000 + (y 0).val → (k 1).val = (y 1).val →
      (x0 y : EReal) = a0 k)
    (h1 : ∀ y : S2048x256.Idx, (x1 y : EReal) = a1 y)
    (j : S1000x256.Idx) (i : S10000x256.Idx) (hi0 : (i 0).val = n * 1000 + (j 0).val) (hi1 : (i 1).val = (j 1).val) :
    (k0_pay1 (F := Ideal) x0 x1 j : EReal) = prodArr a0 a1 i := by
  obtain ⟨p, q, rfl⟩ : ∃ (p : Fin 1000) (q : Fin 256), j = ix2 p q := ⟨j 0, j 1, eq_ix2 j⟩
  rw [prod_apply]
  refine Finset.sum_congr rfl fun l _ => ?_
  have hq : (⟨(i 1).val, idx2_lt1 i⟩ : Fin 256) = q := Fin.ext hi1
  rw [h0 (ix2 p l) (ix2 (⟨(i 0).val, idx2_lt0 i⟩ : Fin 10000) l) hi0 rfl, h1, hq]

/-- The windows' block indices, decided over the grid: x and the output move down one row block per point,
    the weight stays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Every row block is some point's. -/
theorem point_of_block : ∀ q : Fin 10, ∃ t : Fin cfg0.N, t.val = q.val :=
  (by decide +kernel : ∀ q : Fin 10, ∃ t : Fin grid0.N, t.val = q.val)

/-- The x window's block at point t is rows 1000 t … 1000 t + 999 of x. -/
theorem xblock_apply (c : Dev nD) (t : Fin cfg0.N) (y : S1000x2048.Idx) (k : S10000x2048.Idx)
    (hk0 : (k 0).val = t.val * 1000 + (y 0).val) (hk1 : (k 1).val = (y 1).val) :
    ((iblk0 (F := Ideal) V c 0 t : FVec Ideal S1000x2048 .f32) y : EReal) = (V c main_arg0 : S10000x2048.Idx → EReal) k := by
  obtain ⟨e00, e01, -⟩ := block_indices t
  unfold iblk0
  rw [View.read_apply]
  show (V c main_arg0 : S10000x2048.Idx → EReal) _ = (V c main_arg0 : S10000x2048.Idx → EReal) k
  congr 1
  funext a
  apply Fin.ext
  match a with
  | ⟨0, _⟩ => show win0_0.index t (0 : Fin 2) * 1000 + 1 * (y 0).val = (k 0).val; rw [e00, hk0]; omega
  | ⟨1, _⟩ => show win0_0.index t (1 : Fin 2) * 2048 + 1 * (y 1).val = (k 1).val; rw [e01, hk1]; omega

/-- The weight window's block at every point is the whole weight. -/
theorem wblock_apply (c : Dev nD) (t : Fin cfg0.N) (y : S2048x256.Idx) :
    ((iblk0 (F := Ideal) V c 1 t : FVec Ideal S2048x256 .bf16) y : EReal) = (V c main_v0 : S2048x256.Idx → EReal) y := by
  obtain ⟨-, -, e10, e11, -⟩ := block_indices t
  unfold iblk0
  rw [View.read_apply]
  show (V c main_v0 : S2048x256.Idx → EReal) _ = (V c main_v0 : S2048x256.Idx → EReal) y
  congr 1
  funext a
  apply Fin.ext
  match a with
  | ⟨0, _⟩ => show win0_1.index t (0 : Fin 2) * 2048 + 1 * (y 0).val = (y 0).val; rw [e10]; omega
  | ⟨1, _⟩ => show win0_1.index t (1 : Fin 2) * 256 + 1 * (y 1).val = (y 1).val; rw [e11]; omega

/-- What point t writes back is block t of the product of the arrays as the region finds them. -/
theorem flushed_eq (c : Dev nD) (t : Fin cfg0.N) :
    (dat0 (F := Ideal) V c).flushed 2 t = ((cfg0.win 2).blk t).view.read (Elt Ideal) (prodArr (V c main_arg0) (V c main_v0)) := by
  show (cfg0.win 2).cut (grid0.coords t) ((dat0 (F := Ideal) V c).after 2 t) = _
  rw [after0_2]
  unfold out0_2
  rw [View.canon_unit_zero zero_offsets]
  simp only [View.ld_unit_zero (S := S1000x2048) zero_offsets, View.ld_unit_zero (S := S2048x256) zero_offsets]
  obtain ⟨-, -, -, -, e20, e21, -⟩ := block_indices t
  funext j
  exact prod_block (V c main_arg0) (V c main_v0) (iblk0 V c 0 t) (iblk0 V c 1 t) t.val
    (fun y k hk0 hk1 => xblock_apply V c t y k hk0 hk1) (fun y => wblock_apply V c t y)
    ((win0 2).xinj (grid0.coords t) j) (((cfg0.win 2).blk t).view.emb j)
    (by show win0_2.index t (0 : Fin 2) * 1000 + 1 * (j 0).val = t.val * 1000 + (j 0).val; rw [e20]; omega)
    (by show win0_2.index t (1 : Fin 2) * 256 + 1 * (j 1).val = (j 1).val; rw [e21]; omega)

/-- An index of the array is in point t's block iff each coordinate is in the block's range on its axis. -/
theorem mem_blk (t : Fin cfg0.N) (i : S10000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v1).slice (win0_2.rect t)).set ↔ _
  rw [View.set_slice_whole, Rect.mem_set_unit]
  exact Iff.rfl

/-- The ten row blocks cover the array: row r lies in the block of point r / 1000. -/
theorem covered (i : S10000x256.Idx) :
    ∃ t : Fin cfg0.N, (cfg0.win 2).flush t = true ∧ i ∈ ((cfg0.win 2).blk t).view.set := by
  have hi0 : (i 0).val < 10000 := idx2_lt0 i
  have hi1 : (i 1).val < 256 := idx2_lt1 i
  obtain ⟨t, ht⟩ := point_of_block ⟨(i 0).val / 1000, by omega⟩
  have ht' : t.val = (i 0).val / 1000 := ht
  obtain ⟨-, -, -, -, e20, e21, -⟩ := block_indices t
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

theorem final0 (c : Dev nD) :
    Spec.toMat (n := 10000) (k := 256) ((dat0 (F := Ideal) V c).arrAt 2 cfg0.N)
      = Spec.mul (Spec.toMat (n := 10000) (k := 2048) (V c main_arg0)) (Spec.toMat (n := 2048) (k := 256) (V c main_v0)) := by
  rw [(dat0 (F := Ideal) V c).arrAt_eq_of_cover 2 (prodArr (V c main_arg0) (V c main_v0)) (fun t _ => flushed_eq V c t) (covered)]
  rfl

end Cert.KernelIdeal.Val.R0

namespace Cert.KernelIdeal.Val
export R0 (final0)
end Cert.KernelIdeal.Val

end
-- ==== Proof.Val.Val1.lean ====
/-
  What region 1 leaves in the stacked aggregate's array, at the ideal reading: entry (r, d) is the sum over
  all 10240 columns cc of the adjacency (r, cc) times the padded h0 (cc, d) — the five stretches of 2048
  columns accumulated in the scratch block add up to the whole row.

  One step of the body adds, at entry (p, q) of the scratch, the sum over the 2048 inner positions j of its
  stretch s of adjacency (1024 · mb + p, 2048 · s + j) times padded h0 (2048 · s + j, q), where the grid
  point is row block mb, stretch s. The scratch starts a row block at zero, so after the fifth stretch it
  holds 0 + T₀ + T₁ + T₂ + T₃ + T₄ with Tₛ the contribution of stretch s; the 10240 columns are the five
  stretches, so that is the whole row's sum (addition of extended reals is associative, and nothing here
  needs more than that). Only the points of a fifth stretch write their block back, each row of the output
  lies in exactly such a point's block, and so the array ends holding the product.
-/
import proofs.«424452_j30116310680317_3_alg».proof.Proof.KI.R1
import proofs.«424452_j30116310680317_3_alg».proof.Proof.Val.Spec
import Idealize.ShloMosaic.Lib.Pipeline.Value
import Idealize.ShloMosaic.PureOps.Ideal.Laws
import Mathlib.Algebra.BigOperators.Fin
import Mathlib.Data.Fintype.BigOperators
import Mathlib.Logic.Equiv.Fin.Basic

set_option maxRecDepth 16384

noncomputable section

open scoped BigOperators

namespace Cert.KernelIdeal.Val.R1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The payload of one step at an entry -/

theorem mm1_lhs_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem mm1_lhs_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem mm1_rhs_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem mm1_rhs_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The product of a 1024 × 2048 block and a 2048 × 256 block into the zero block, at entry (p, q): the
    sum over the 2048 inner positions. -/
theorem mm1_apply (l : FVec Ideal S1024x2048 .bf16) (r : FVec Ideal S2048x256 .bf16) (p : Fin 1024) (q : Fin 256) :
    matmul (F := Ideal) dot_S1024x2048_S2048x256_S1024x256_1_0_0_1_n_n none l r (constant S1024x256 .f32 0x00000000#32) (ix2 p q)
      = ∑ j : Fin 2048, l (ix2 p j) * r (ix2 j q) := by
  simp only [matmul]
  rw [Ideal.matmul_constant_zero_apply, ← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 p q) ((ValueIdx.contrEquiv1 dot_S1024x2048_S2048x256_S1024x256_1_0_0_1_n_n 2048 rfl rfl).symm k) = ix2 p k := funext fun a => Fin.ext (by
    match a with
    | ⟨0, _⟩ => exact mm1_lhs_0 _ _
    | ⟨1, _⟩ => exact (mm1_lhs_1 _ _).trans hk)
  have er : dot_S1024x2048_S2048x256_S1024x256_1_0_0_1_n_n.rhsIdx (ix2 p q) ((ValueIdx.contrEquiv1 dot_S1024x2048_S2048x256_S1024x256_1_0_0_1_n_n 2048 rfl rfl).symm k) = ix2 k q := funext fun a => Fin.ext (by
    match a with
    | ⟨0, _⟩ => exact (mm1_rhs_0 _ _).trans hk
    | ⟨1, _⟩ => exact mm1_rhs_1 _ _)
  rw [el, er]

/-- One accumulation step's payload at entry (p, q): the accumulator there plus the block product there. -/
theorem pay2_apply (v6 : Vec Ideal S2048x256 .bf16) (v8 : Vec Ideal S1024x256 .f32) (v9 : Vec Ideal S1024x2048 .bf16)
    (p : Fin 1024) (q : Fin 256) :
    k1_pay2 (F := Ideal) v6 v8 v9 (ix2 p q) = v8 (ix2 p q) + ∑ j : Fin 2048, v9 (ix2 p j) * v6 (ix2 j q) := by
  unfold k1_pay2
  simp only [shapeCast_self]
  refine (addf_apply _ _ _).trans ?_
  exact congrArg (v8 (ix2 p q) + ·) (mm1_apply v9 v6 p q)

/-- The block the scratch is reset to is zero everywhere. -/
theorem pay1_apply (p : Fin 1024) (q : Fin 256) : k1_pay1 (F := Ideal) (ix2 p q) = 0 := by
  unfold k1_pay1
  simp only [shapeCast_self]
  exact Ideal.ofBits_zero_f32

/-! ## One step at an entry, over the blocks the step reads -/

theorem hz2 : (![0, 0] : Fin 2 → Nat) = fun _ => 0 := funext fun a => by fin_cases a <;> rfl

/-- Inner position j of stretch s is column (of the adjacency) and row (of the padded h0) 2048 · s + j. -/
def stretchPos (s : Fin 5) (j : Fin 2048) : Fin 10240 := ⟨2048 * s.val + j.val, by have := s.isLt; have := j.isLt; omega⟩

theorem stretchPos_val (s : Fin 5) (j : Fin 2048) : (stretchPos s j).val = 2048 * s.val + j.val := rfl

/-- The rectangle of the padded h0 that grid point i reads starts at row 2048 · (i 1). -/
theorem rS1_idx (i : grid1.Coords) (j : Fin 2048) (q : Fin 256) :
    (rS1 i).idx (ix2 j q) = ix2 (stretchPos (i 1) j) q := by
  funext d; apply Fin.ext
  match d with
  | ⟨0, _⟩ =>
    show (k1_off1 i) 0 + 1 * j.val = 2048 * (i 1).val + j.val
    rw [k1_off1_eq]; show 2048 * (i 1).val + 1 * j.val = _; omega
  | ⟨1, _⟩ =>
    show (k1_off1 i) 1 + 1 * q.val = q.val
    rw [k1_off1_eq]; show 0 + 1 * q.val = _; omega

/-- One step at entry (p, q): the accumulator there plus the sum, over the 2048 inner positions of the
    step's stretch, of the adjacency block's entry times the padded h0's entry. -/
theorem step1_apply (i : grid1.Coords) (a : Vec Ideal S1024x2048 .bf16) (b : Vec Ideal S10240x256 .bf16)
    (acc : Vec Ideal S1024x256 .f32) (p : Fin 1024) (q : Fin 256) :
    step1 (F := Ideal) i a b acc (ix2 p q)
      = acc (ix2 p q) + ∑ j : Fin 2048, a (ix2 p j) * b (ix2 (stretchPos (i 1) j) q) := by
  unfold step1
  refine (pay2_apply (View.ld b (rS1 i)) acc (View.ld a rA1) p q).trans ?_
  refine congrArg (acc (ix2 p q) + ·) (Finset.sum_congr rfl fun j _ => ?_)
  rw [View.ld_unit_zero (S := S1024x2048) hz2]
  show a (ix2 p j) * b ((rS1 i).idx (ix2 j q)) = _
  rw [rS1_idx]

/-! ## The blocks a grid point reads, as entries of the arrays -/

/-- The index maps over the grid: point t is row block t / 5 and stretch t % 5. -/
theorem idx_facts1 : ∀ t : Fin cfg1.N,
    win1_0.index t (0 : Fin 2) = t.val / 5 ∧ win1_0.index t (1 : Fin 2) = t.val % 5
    ∧ win1_1.index t (0 : Fin 2) = 0 ∧ win1_1.index t (1 : Fin 2) = 0
    ∧ win1_2.index t (0 : Fin 2) = t.val / 5 ∧ win1_2.index t (1 : Fin 2) = 0
    ∧ (grid1.coords t 1).val = t.val % 5 :=
  (by decide +kernel : ∀ t : Fin grid1.N, _)

/-- Entry (p, j) of the adjacency block at point t is entry (1024 · (t / 5) + p, 2048 · (t % 5) + j) of
    the stacked adjacency. -/
theorem blockA_apply (c : Dev nD) (t : Fin cfg1.N) (p : Fin 1024) (j : Fin 2048) (r : Fin 20480) (cc : Fin 10240)
    (hr : r.val = 1024 * (t.val / 5) + p.val) (hc : cc.val = 2048 * (t.val % 5) + j.val) :
    (iblk1 (F := Ideal) V c 0 t : Vec Ideal S1024x2048 .bf16) (ix2 p j)
      = (V c main_v34 : Vec Ideal S20480x10240 .bf16) (ix2 r cc) := by
  obtain ⟨h00, h01, -⟩ := idx_facts1 t
  unfold iblk1
  rw [View.read_apply]
  show V c main_v34 _ = V c main_v34 _
  congr 1
  funext a; apply Fin.ext
  match a with
  | ⟨0, _⟩ =>
    show win1_0.index t (0 : Fin 2) * 1024 + 1 * p.val = r.val
    rw [h00, hr]; omega
  | ⟨1, _⟩ =>
    show win1_0.index t (1 : Fin 2) * 2048 + 1 * j.val = cc.val
    rw [h01, hc]; omega

/-- The padded h0 is staged whole: its block at any point is the array. -/
theorem blockB_apply (c : Dev nD) (t : Fin cfg1.N) (r : Fin 10240) (q : Fin 256) :
    (iblk1 (F := Ideal) V c 1 t : Vec Ideal S10240x256 .bf16) (ix2 r q)
      = (V c main_v2 : Vec Ideal S10240x256 .bf16) (ix2 r q) := by
  obtain ⟨-, -, h10, h11, -⟩ := idx_facts1 t
  unfold iblk1
  rw [View.read_apply]
  show V c main_v2 _ = V c main_v2 _
  congr 1
  funext a; apply Fin.ext
  match a with
  | ⟨0, _⟩ =>
    show win1_1.index t (0 : Fin 2) * 10240 + 1 * r.val = r.val
    rw [h10]; omega
  | ⟨1, _⟩ =>
    show win1_1.index t (1 : Fin 2) * 256 + 1 * q.val = q.val
    rw [h11]; omega

/-! ## The accumulator over a row block's five stretches -/

/-- The stacked adjacency and the padded h0 as the region finds them, as matrices. -/
abbrev adjM (c : Dev nD) : Spec.Mat 20480 10240 := Spec.toMat (n := 20480) (k := 10240) (V c main_v34)
abbrev h0M (c : Dev nD) : Spec.Mat 10240 256 := Spec.toMat (n := 10240) (k := 256) (V c main_v2)

/-- What the inner positions of stretch s contribute to entry (r, q) of the product. -/
def stretchSum (A : Spec.Mat 20480 10240) (B : Spec.Mat 10240 256) (r : Fin 20480) (q : Fin 256) (s : Fin 5) : EReal :=
  ∑ j : Fin 2048, A r (stretchPos s j) * B (stretchPos s j) q

/-- The step at grid point t adds, at entry (p, q) of the scratch, the contribution of stretch t % 5 to
    entry (1024 · (t / 5) + p, q) of the product. -/
theorem step_point (c : Dev nD) (t : Fin cfg1.N) (acc : Vec Ideal S1024x256 .f32) (p : Fin 1024) (q : Fin 256)
    (r : Fin 20480) (s : Fin 5) (hr : r.val = 1024 * (t.val / 5) + p.val) (hs : s.val = t.val % 5) :
    step1 (F := Ideal) (grid1.coords t) (iblk1 V c 0 t) (iblk1 V c 1 t) acc (ix2 p q)
      = acc (ix2 p q) + stretchSum (adjM V c) (h0M V c) r q s := by
  obtain ⟨-, -, -, -, -, -, hco⟩ := idx_facts1 t
  refine (step1_apply (grid1.coords t) (iblk1 V c 0 t) (iblk1 V c 1 t) acc p q).trans ?_
  refine congrArg (acc (ix2 p q) + ·) (Finset.sum_congr rfl fun j _ => ?_)
  have es : stretchPos (grid1.coords t 1) j = stretchPos s j := Fin.ext (by
    show 2048 * (grid1.coords t 1).val + j.val = 2048 * s.val + j.val
    rw [hco, hs])
  have e0 := blockA_apply V c t p j r (stretchPos s j) hr (by rw [stretchPos_val, hs])
  have e1 := blockB_apply V c t (stretchPos s j) q
  rw [es]
  exact congrArg₂ (· * ·) e0 e1

/-- At a row block's first stretch the scratch holds zero plus that stretch's contribution. -/
theorem acc_first (c : Dev nD) (n : ℕ) (h : n < cfg1.N) (h0 : n % 5 = 0) (p : Fin 1024) (q : Fin 256)
    (r : Fin 20480) (hr : r.val = 1024 * (n / 5) + p.val) :
    accAt1 (F := Ideal) V c n h (ix2 p q) = 0 + stretchSum (adjM V c) (h0M V c) r q 0 := by
  have e := accAt1_first (F := Ideal) V c ⟨n, h⟩ h0
  refine (congrFun e (ix2 p q)).trans ?_
  refine (step_point V c ⟨n, h⟩ (k1_pay1 (F := Ideal)) p q r 0 hr (by show (0 : ℕ) = n % 5; omega)).trans ?_
  rw [pay1_apply]

/-- At every later stretch it holds what the stretch before left plus this stretch's contribution. -/
theorem acc_next (c : Dev nD) (n n' : ℕ) (h : n < cfg1.N) (h' : n' < cfg1.N) (e : n' = n + 1) (hne : ¬ n' % 5 = 0)
    (p : Fin 1024) (q : Fin 256) (r : Fin 20480) (s : Fin 5) (hr : r.val = 1024 * (n' / 5) + p.val)
    (hs : s.val = n' % 5) :
    accAt1 (F := Ideal) V c n' h' (ix2 p q)
      = accAt1 (F := Ideal) V c n h (ix2 p q) + stretchSum (adjM V c) (h0M V c) r q s := by
  subst e
  have e := accAt1_next (F := Ideal) V c ⟨n + 1, h'⟩ hne
  refine (congrFun e (ix2 p q)).trans ?_
  exact step_point V c ⟨n + 1, h'⟩ (accAt1 (F := Ideal) V c n h) p q r s hr hs

/-- So after the fifth stretch of row block mb the scratch holds, at (p, q), the five contributions to
    entry (1024 · mb + p, q) of the product. -/
theorem acc_last (c : Dev nD) (mb : ℕ) (h : 5 * mb + 4 < cfg1.N) (p : Fin 1024) (q : Fin 256)
    (r : Fin 20480) (hr : r.val = 1024 * mb + p.val) :
    accAt1 (F := Ideal) V c (5 * mb + 4) h (ix2 p q) = ∑ s : Fin 5, stretchSum (adjM V c) (h0M V c) r q s := by
  have e0 := acc_first V c (5 * mb) (by omega) (by omega) p q r (by omega)
  have e1 := acc_next V c (5 * mb) (5 * mb + 1) (by omega) (by omega) rfl (by omega) p q r 1 (by omega) (by show (1 : ℕ) = _; omega)
  have e2 := acc_next V c (5 * mb + 1) (5 * mb + 2) (by omega) (by omega) rfl (by omega) p q r 2 (by omega) (by show (2 : ℕ) = _; omega)
  have e3 := acc_next V c (5 * mb + 2) (5 * mb + 3) (by omega) (by omega) rfl (by omega) p q r 3 (by omega) (by show (3 : ℕ) = _; omega)
  have e4 := acc_next V c (5 * mb + 3) (5 * mb + 4) (by omega) h rfl (by omega) p q r 4 (by omega) (by show (4 : ℕ) = _; omega)
  rw [e4, e3, e2, e1, e0, Fin.sum_univ_five, zero_add]

/-- The 10240 inner positions are the five stretches of 2048. -/
theorem sum_stretches (f : Fin 10240 → EReal) :
    ∑ cc : Fin 10240, f cc = ∑ s : Fin 5, ∑ j : Fin 2048, f (stretchPos s j) := by
  rw [← Fintype.sum_prod_type']
  refine (Equiv.sum_comp (finProdFinEquiv (m := 5) (n := 2048)) f).symm.trans ?_
  refine Finset.sum_congr rfl fun x _ => congrArg f (Fin.ext ?_)
  show x.2.val + 2048 * x.1.val = 2048 * x.1.val + x.2.val
  omega

/-- At a point that writes its block back the scratch holds the product's entries of the row block. -/
theorem acc_flush (c : Dev nD) (t : Fin cfg1.N) (h4 : t.val % 5 = 4) (p : Fin 1024) (q : Fin 256) (r : Fin 20480)
    (hr : r.val = 1024 * (t.val / 5) + p.val) :
    accAt1 (F := Ideal) V c t.val t.isLt (ix2 p q) = Spec.mul (adjM V c) (h0M V c) r q := by
  have hN : cfg1.N = 100 := N_1
  have ht := t.isLt
  have e : ∀ (n n' : ℕ) (h : n < cfg1.N) (h' : n' < cfg1.N), n = n' →
      accAt1 (F := Ideal) V c n h = accAt1 (F := Ideal) V c n' h' := fun n n' h h' e => by subst e; rfl
  rw [e t.val (5 * (t.val / 5) + 4) t.isLt (by omega) (by omega),
    acc_last V c (t.val / 5) (by omega) p q r hr]
  unfold Spec.mul
  rw [sum_stretches]
  rfl

/-! ## From the blocks to the array -/

/-- The product, as contents of the output array. -/
def prodArr (c : Dev nD) : Vec Ideal S20480x256 .f32 := fun i => Spec.mul (adjM V c) (h0M V c) (i 0) (i 1)

/-- Entry j of the scratch at a point that writes back is the product's entry at the place of the output
    array that the block's entry j goes to. -/
theorem flushed_entry (c : Dev nD) (t : Fin cfg1.N) (h4 : t.val % 5 = 4) (j : S1024x256.Idx) (i : S20480x256.Idx)
    (h0 : (i 0).val = 1024 * (t.val / 5) + (j 0).val) (h1 : (i 1).val = (j 1).val) :
    accAt1 (F := Ideal) V c t.val t.isLt j = prodArr V c i := by
  obtain ⟨p, q, rfl⟩ : ∃ (p : Fin 1024) (q : Fin 256), j = ix2 p q := ⟨j 0, j 1, eq_ix2 j⟩
  obtain ⟨r, d, rfl⟩ : ∃ (r : Fin 20480) (d : Fin 256), i = ix2 r d := ⟨i 0, i 1, eq_ix2 i⟩
  have hd : d = q := Fin.ext h1
  subst hd
  exact acc_flush V c t h4 p d r h0

/-- What a point with t % 5 = 4 writes back is its block of the product. -/
theorem flushed_eq1 (c : Dev nD) (t : Fin cfg1.N) (hf : (cfg1.win 2).flush t = true) :
    (dat1 (F := Ideal) V c).flushed 2 t = ((cfg1.win 2).blk t).view.read (Elt Ideal) (prodArr V c) := by
  have h4 := (flush1_2 t).mp hf
  obtain ⟨-, -, -, -, h20, h21, -⟩ := idx_facts1 t
  show (cfg1.win 2).cut (grid1.coords t) ((dat1 (F := Ideal) V c).after 2 t) = _
  rw [after1_2]
  funext j
  show accAt1 (F := Ideal) V c t.val t.isLt j = prodArr V c (((cfg1.win 2).blk t).view.emb j)
  refine flushed_entry V c t h4 j _ ?_ ?_
  · show win1_2.index t (0 : Fin 2) * 1024 + 1 * (j 0).val = 1024 * (t.val / 5) + (j 0).val
    rw [h20]; omega
  · show win1_2.index t (1 : Fin 2) * 256 + 1 * (j 1).val = (j 1).val
    rw [h21]; omega

/-- Row r of the output array is in the block of point 5 · (r / 1024) + 4, which writes back. -/
theorem cover1 (i : S20480x256.Idx) :
    ∃ t : Fin cfg1.N, (cfg1.win 2).flush t = true ∧ i ∈ ((cfg1.win 2).blk t).view.set := by
  have hN : cfg1.N = 100 := N_1
  have hi0 : (i 0).val < 20480 := (i 0).isLt
  have hi1 : (i 1).val < 256 := (i 1).isLt
  obtain ⟨t, ht⟩ : ∃ t : Fin cfg1.N, t.val = 5 * ((i 0).val / 1024) + 4 := ⟨⟨_, by omega⟩, rfl⟩
  obtain ⟨-, -, -, -, h20, h21, -⟩ := idx_facts1 t
  refine ⟨t, (flush1_2 t).mpr (by omega), ?_⟩
  show i ∈ ((View.whole main_v35).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [h20]; omega
  | ⟨1, _⟩ =>
    show win1_2.index t (1 : Fin 2) * 256 ≤ (i 1).val ∧ (i 1).val < win1_2.index t (1 : Fin 2) * 256 + 256
    rw [h21]; omega

/-- So the output array ends holding the product. -/
theorem final_arr1 (c : Dev nD) : (dat1 (F := Ideal) V c).arrAt 2 cfg1.N = prodArr V c :=
  (dat1 (F := Ideal) V c).arrAt_eq_of_cover 2 (prodArr V c) (fun t hf => flushed_eq1 V c t hf) cover1

theorem final1 (c : Dev nD) :
    Spec.toMat (n := 20480) (k := 256) ((dat1 (F := Ideal) V c).arrAt 2 cfg1.N)
      = Spec.mul (Spec.toMat (n := 20480) (k := 10240) (V c main_v34)) (Spec.toMat (n := 10240) (k := 256) (V c main_v2)) := by
  rw [final_arr1]
  rfl

end Cert.KernelIdeal.Val.R1

namespace Cert.KernelIdeal.Val
export R1 (final1)
end Cert.KernelIdeal.Val

end
-- ==== Proof.Val.Val2.lean ====
/-
  What region 2 leaves in the result's array, at the ideal reading: entry (r, j) is the three products'
  sums added in the kernel's order, plus the bias.
-/
import proofs.«424452_j30116310680317_3_alg».proof.Proof.KI.R2
import proofs.«424452_j30116310680317_3_alg».proof.Proof.Val.Spec
import Idealize.ShloMosaic.Lib.Pipeline.Value
import Idealize.ShloMosaic.PureOps.Ideal.Laws

set_option maxRecDepth 16384

noncomputable section

open scoped BigOperators

namespace Cert.KernelIdeal.Val.R2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- A product's left operand is read at the result's row … -/
theorem lhs_rowblock_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
/-- … and at the summation index along its columns; -/
theorem lhs_rowblock_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
/-- the right operand at the summation index along its rows … -/
theorem rhs_rowblock_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
/-- … and at the result's column. -/
theorem rhs_rowblock_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- A product accumulated into the zero block, read at entry (p, q): the sum over k of a(p, k) · w(k, q). -/
theorem product_apply (a : FVec Ideal S1000x256 .bf16) (w : FVec Ideal S256x256 .bf16) (p : Fin 1000) (q : Fin 256) :
    matmul dot_S1000x256_S256x256_S1000x256_1_0_0_1_n_n none a w (constant (F := Ideal) S1000x256 .f32 0x00000000#32) (ix2 p q)
      = ∑ k : Fin 256, a (ix2 p k) * w (ix2 k q) := by
  show FloatOps.matmul dot_S1000x256_S256x256_S1000x256_1_0_0_1_n_n none a w (constant (F := Ideal) S1000x256 .f32 0x00000000#32) (ix2 p q) = _
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact lhs_rowblock_0 _ _
    | ⟨1, _⟩ => exact (lhs_rowblock_1 _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (rhs_rowblock_0 _ _).trans hk
    | ⟨1, _⟩ => exact rhs_rowblock_1 _ _)
  rw [el, er]

/-- The bias row spread over the block's rows, read at entry (p, q): the row's entry q. -/
theorem bias_apply (b : FVec Ideal S1x256 .f32) (p : Fin 1000) (q : Fin 256) :
    broadcastTo S1000x256 b broadcasts_S1x256_S1000x256 (ix2 p q) = b (ix2 0 q) :=
  broadcastTo_apply b broadcasts_S1x256_S1000x256 (ix2 p q) (ix2 0 q) (fun a => match a with
    | ⟨0, _⟩ => by show (0 : ℕ) = if (1 : ℕ) = 1 then 0 else _; rw [if_pos rfl]
    | ⟨1, _⟩ => by show q.val = if (256 : ℕ) = 1 then 0 else q.val; rw [if_neg (by decide)])

/-- The stored value at entry (p, q) of the block: the three products' sums in the body's order, plus the bias. -/
theorem stored_apply (x0 : Vec Ideal S1000x256 .bf16) (x1 x2 : Vec Ideal S1000x256 .f32)
    (w3 w4 w5 : Vec Ideal S256x256 .bf16) (b : Vec Ideal S1x256 .f32) (p : Fin 1000) (q : Fin 256) :
    k2_pay1 x0 x1 x2 w3 w4 w5 b (ix2 p q)
      = ((∑ k : Fin 256, x0 (ix2 p k) * w3 (ix2 k q) + ∑ k : Fin 256, x1 (ix2 p k) * w4 (ix2 k q))
          + ∑ k : Fin 256, x2 (ix2 p k) * w5 (ix2 k q)) + b (ix2 0 q) := by
  unfold k2_pay1
  simp only [shapeCast_self]
  rw [addf_apply, addf_apply, addf_apply, product_apply, product_apply, product_apply, bias_apply]
  rfl

/-! ## From the row blocks to the whole array -/

theorem offsets_zero : (![0, 0] : Fin 2 → Nat) = fun _ => 0 := funext fun a => by fin_cases a <;> rfl

/-- Entry (r, j) of the result, from the seven arrays the region reads. -/
def entry (A0 A1 A2 : Spec.Mat 10000 256) (W3 W4 W5 : Spec.Mat 256 256) (B : Spec.Mat 1 256) : Spec.Mat 10000 256 := fun r j =>
  ((∑ k : Fin 256, A0 r k * W3 k j + ∑ k : Fin 256, A1 r k * W4 k j) + ∑ k : Fin 256, A2 r k * W5 k j) + B 0 j

/-- The result as an array: entry at the index's two coordinates. -/
def resultArr (A0 A1 A2 : Spec.Mat 10000 256) (W3 W4 W5 : Spec.Mat 256 256) (B : Spec.Mat 1 256) : S10000x256.Idx → EReal := fun i =>
  entry A0 A1 A2 W3 W4 W5 B ⟨(i 0).val, idx2_lt0 i⟩ ⟨(i 1).val, idx2_lt1 i⟩

/-- The block index maps over the ten grid points: the three row-block inputs and the output sit at row block t,
    column block 0; the three weight slices and the bias row never move. -/
theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- Row-block input 0's block at grid point t, read at (p, k): row t·1000 + p of its array. -/
theorem rowblock0_read (c : Dev nD) (t : Fin cfg2.N) (p : Fin 1000) (k : Fin 256) (hp : t.val * 1000 + p.val < 10000) :
    (iblk2 V c 0 t : Vec Ideal S1000x256 .bf16) (ix2 p k)
      = Spec.toMat (n := 10000) (k := 256) (V c main_v1) ⟨t.val * 1000 + p.val, hp⟩ k := by
  obtain ⟨e0, e1⟩ := (block_indices t).1
  unfold iblk2 Spec.toMat
  rw [View.read_apply]
  show V c main_v1 _ = V c main_v1 _
  refine congrArg (V c main_v1) (funext fun a => Fin.ext ?_)
  match a with
  | ⟨0, _⟩ => show win2_0.index t (0 : Fin 2) * 1000 + 1 * p.val = t.val * 1000 + p.val; rw [e0]; omega
  | ⟨1, _⟩ => show win2_0.index t (1 : Fin 2) * 256 + 1 * k.val = k.val; rw [e1]; omega

/-- Row-block input 1's block at grid point t, read at (p, k): row t·1000 + p of its array. -/
theorem rowblock1_read (c : Dev nD) (t : Fin cfg2.N) (p : Fin 1000) (k : Fin 256) (hp : t.val * 1000 + p.val < 10000) :
    (iblk2 V c 1 t : Vec Ideal S1000x256 .f32) (ix2 p k)
      = Spec.toMat (n := 10000) (k := 256) (V c main_v36) ⟨t.val * 1000 + p.val, hp⟩ k := by
  obtain ⟨e0, e1⟩ := (block_indices t).2.1
  unfold iblk2 Spec.toMat
  rw [View.read_apply]
  show V c main_v36 _ = V c main_v36 _
  refine congrArg (V c main_v36) (funext fun a => Fin.ext ?_)
  match a with
  | ⟨0, _⟩ => show win2_1.index t (0 : Fin 2) * 1000 + 1 * p.val = t.val * 1000 + p.val; rw [e0]; omega
  | ⟨1, _⟩ => show win2_1.index t (1 : Fin 2) * 256 + 1 * k.val = k.val; rw [e1]; omega

/-- Row-block input 2's block at grid point t, read at (p, k): row t·1000 + p of its array. -/
theorem rowblock2_read (c : Dev nD) (t : Fin cfg2.N) (p : Fin 1000) (k : Fin 256) (hp : t.val * 1000 + p.val < 10000) :
    (iblk2 V c 2 t : Vec Ideal S1000x256 .f32) (ix2 p k)
      = Spec.toMat (n := 10000) (k := 256) (V c main_v37) ⟨t.val * 1000 + p.val, hp⟩ k := by
  obtain ⟨e0, e1⟩ := (block_indices t).2.2.1
  unfold iblk2 Spec.toMat
  rw [View.read_apply]
  show V c main_v37 _ = V c main_v37 _
  refine congrArg (V c main_v37) (funext fun a => Fin.ext ?_)
  match a with
  | ⟨0, _⟩ => show win2_2.index t (0 : Fin 2) * 1000 + 1 * p.val = t.val * 1000 + p.val; rw [e0]; omega
  | ⟨1, _⟩ => show win2_2.index t (1 : Fin 2) * 256 + 1 * k.val = k.val; rw [e1]; omega

/-- Weight slice 3's block at any grid point is the whole slice. -/
theorem weight3_read (c : Dev nD) (t : Fin cfg2.N) (k : Fin 256) (q : Fin 256) :
    (iblk2 V c 3 t : Vec Ideal S256x256 .bf16) (ix2 k q) = Spec.toMat (n := 256) (k := 256) (V c main_v39) k q := by
  obtain ⟨e0, e1⟩ := (block_indices t).2.2.2.1
  unfold iblk2 Spec.toMat
  rw [View.read_apply]
  show V c main_v39 _ = V c main_v39 _
  refine congrArg (V c main_v39) (funext fun a => Fin.ext ?_)
  match a with
  | ⟨0, _⟩ => show win2_3.index t (0 : Fin 2) * 256 + 1 * k.val = k.val; rw [e0]; omega
  | ⟨1, _⟩ => show win2_3.index t (1 : Fin 2) * 256 + 1 * q.val = q.val; rw [e1]; omega

/-- Weight slice 4's block at any grid point is the whole slice. -/
theorem weight4_read (c : Dev nD) (t : Fin cfg2.N) (k : Fin 256) (q : Fin 256) :
    (iblk2 V c 4 t : Vec Ideal S256x256 .bf16) (ix2 k q) = Spec.toMat (n := 256) (k := 256) (V c main_v41) k q := by
  obtain ⟨e0, e1⟩ := (block_indices t).2.2.2.2.1
  unfold iblk2 Spec.toMat
  rw [View.read_apply]
  show V c main_v41 _ = V c main_v41 _
  refine congrArg (V c main_v41) (funext fun a => Fin.ext ?_)
  match a with
  | ⟨0, _⟩ => show win2_4.index t (0 : Fin 2) * 256 + 1 * k.val = k.val; rw [e0]; omega
  | ⟨1, _⟩ => show win2_4.index t (1 : Fin 2) * 256 + 1 * q.val = q.val; rw [e1]; omega

/-- Weight slice 5's block at any grid point is the whole slice. -/
theorem weight5_read (c : Dev nD) (t : Fin cfg2.N) (k : Fin 256) (q : Fin 256) :
    (iblk2 V c 5 t : Vec Ideal S256x256 .bf16) (ix2 k q) = Spec.toMat (n := 256) (k := 256) (V c main_v43) k q := by
  obtain ⟨e0, e1⟩ := (block_indices t).2.2.2.2.2.1
  unfold iblk2 Spec.toMat
  rw [View.read_apply]
  show V c main_v43 _ = V c main_v43 _
  refine congrArg (V c main_v43) (funext fun a => Fin.ext ?_)
  match a with
  | ⟨0, _⟩ => show win2_5.index t (0 : Fin 2) * 256 + 1 * k.val = k.val; rw [e0]; omega
  | ⟨1, _⟩ => show win2_5.index t (1 : Fin 2) * 256 + 1 * q.val = q.val; rw [e1]; omega

/-- The bias row's block at any grid point is the whole row. -/
theorem bias_read (c : Dev nD) (t : Fin cfg2.N) (q : Fin 256) :
    (iblk2 V c 6 t : Vec Ideal S1x256 .f32) (ix2 0 q) = Spec.toMat (n := 1) (k := 256) (V c main_v44) 0 q := by
  obtain ⟨e0, e1⟩ := (block_indices t).2.2.2.2.2.2.1
  unfold iblk2 Spec.toMat
  rw [View.read_apply]
  show V c main_v44 _ = V c main_v44 _
  refine congrArg (V c main_v44) (funext fun a => Fin.ext ?_)
  match a with
  | ⟨0, _⟩ => show win2_6.index t (0 : Fin 2) * 1 + 1 * 0 = 0; rw [e0]
  | ⟨1, _⟩ => show win2_6.index t (1 : Fin 2) * 256 + 1 * q.val = q.val; rw [e1]; omega

/-- One stored entry is one entry of the result. Stated over any seven blocks that read their arrays as the
    row-block inputs (at rows T·1000 + p), the weight slices and the bias row do. -/
theorem stored_eq_entry (x0 : Vec Ideal S1000x256 .bf16) (x1 x2 : Vec Ideal S1000x256 .f32)
    (w3 w4 w5 : Vec Ideal S256x256 .bf16) (b : Vec Ideal S1x256 .f32)
    (A0 A1 A2 : Spec.Mat 10000 256) (W3 W4 W5 : Spec.Mat 256 256) (B : Spec.Mat 1 256) (T : ℕ)
    (h0 : ∀ (p : Fin 1000) (k : Fin 256) (hp : T * 1000 + p.val < 10000), x0 (ix2 p k) = A0 ⟨T * 1000 + p.val, hp⟩ k)
    (h1 : ∀ (p : Fin 1000) (k : Fin 256) (hp : T * 1000 + p.val < 10000), x1 (ix2 p k) = A1 ⟨T * 1000 + p.val, hp⟩ k)
    (h2 : ∀ (p : Fin 1000) (k : Fin 256) (hp : T * 1000 + p.val < 10000), x2 (ix2 p k) = A2 ⟨T * 1000 + p.val, hp⟩ k)
    (h3 : ∀ (k q : Fin 256), w3 (ix2 k q) = W3 k q) (h4 : ∀ (k q : Fin 256), w4 (ix2 k q) = W4 k q)
    (h5 : ∀ (k q : Fin 256), w5 (ix2 k q) = W5 k q) (h6 : ∀ q : Fin 256, b (ix2 0 q) = B 0 q)
    (y : S1000x256.Idx) (i : S10000x256.Idx) (hi0 : (i 0).val = T * 1000 + (y 0).val) (hi1 : (i 1).val = (y 1).val) :
    k2_pay1 x0 x1 x2 w3 w4 w5 b y = resultArr A0 A1 A2 W3 W4 W5 B i := by
  obtain ⟨p, q, rfl⟩ : ∃ (p : Fin 1000) (q : Fin 256), y = ix2 p q := ⟨y 0, y 1, eq_ix2 y⟩
  have hr : (i 0).val = T * 1000 + p.val := hi0
  have hc : (i 1).val = q.val := hi1
  have hp : T * 1000 + p.val < 10000 := by have := idx2_lt0 i; omega
  have er : (⟨(i 0).val, idx2_lt0 i⟩ : Fin 10000) = ⟨T * 1000 + p.val, hp⟩ := Fin.ext hr
  have ec : (⟨(i 1).val, idx2_lt1 i⟩ : Fin 256) = q := Fin.ext hc
  rw [stored_apply]
  unfold resultArr entry
  rw [er, ec]
  simp only [h0 _ _ hp, h1 _ _ hp, h2 _ _ hp, h3, h4, h5, h6]

/-- What grid point t writes back is row block t of the result. -/
theorem flushed_rowblock (c : Dev nD) (t : Fin cfg2.N) :
    (dat2 (F := Ideal) V c).flushed 7 t = ((cfg2.win 7).blk t).view.read (Elt Ideal)
      (resultArr (Spec.toMat (n := 10000) (k := 256) (V c main_v1)) (Spec.toMat (n := 10000) (k := 256) (V c main_v36))
        (Spec.toMat (n := 10000) (k := 256) (V c main_v37)) (Spec.toMat (n := 256) (k := 256) (V c main_v39))
        (Spec.toMat (n := 256) (k := 256) (V c main_v41)) (Spec.toMat (n := 256) (k := 256) (V c main_v43))
        (Spec.toMat (n := 1) (k := 256) (V c main_v44))) := by
  show (cfg2.win 7).cut (grid2.coords t) ((dat2 V c).after 7 t) = _
  rw [after2_7]
  unfold out2_7
  rw [View.canon_unit_zero offsets_zero]
  simp only [View.ld_unit_zero (S := S1000x256) offsets_zero, View.ld_unit_zero (S := S256x256) offsets_zero,
    View.ld_unit_zero (S := S1x256) offsets_zero]
  obtain ⟨e0, e1⟩ := (block_indices t).2.2.2.2.2.2.2
  funext y
  rw [View.read_apply]
  refine stored_eq_entry _ _ _ _ _ _ _ _ _ _ _ _ _ _ t.val
    (fun p k hp => rowblock0_read V c t p k hp) (fun p k hp => rowblock1_read V c t p k hp)
    (fun p k hp => rowblock2_read V c t p k hp) (fun k q => weight3_read V c t k q) (fun k q => weight4_read V c t k q)
    (fun k q => weight5_read V c t k q) (fun q => bias_read V c t q) y _ ?_ ?_
  · show win2_7.index t (0 : Fin 2) * 1000 + 1 * (y 0).val = t.val * 1000 + (y 0).val; rw [e0]; omega
  · show win2_7.index t (1 : Fin 2) * 256 + 1 * (y 1).val = (y 1).val; rw [e1]; omega

/-- An index of the result lies in grid point t's block iff each coordinate lies in the block's range. -/
theorem mem_rowblock (t : Fin cfg2.N) (i : S10000x256.Idx) :
    i ∈ ((cfg2.win 7).blk t).view.set ↔ ∀ a : Fin 2, win2_7.index t a * S1000x256.size a ≤ (i a).val
      ∧ (i a).val < win2_7.index t a * S1000x256.size a + S1000x256.size a := by
  show i ∈ ((View.whole main_v45).slice (win2_7.rect t)).set ↔ _
  rw [View.set_slice_whole, Rect.mem_set_unit]
  exact Iff.rfl

/-- Every index of the result is written: row r lies in the block of grid point r / 1000. -/
theorem covered (i : S10000x256.Idx) :
    ∃ t : Fin cfg2.N, (cfg2.win 7).flush t = true ∧ i ∈ ((cfg2.win 7).blk t).view.set := by
  have hi0 : (i 0).val < 10000 := idx2_lt0 i
  have hi1 : (i 1).val < 256 := idx2_lt1 i
  have hN : cfg2.N = 10 := N_2
  have ht : (i 0).val / 1000 < cfg2.N := by rw [hN]; omega
  obtain ⟨e0, e1⟩ := (block_indices ⟨(i 0).val / 1000, ht⟩).2.2.2.2.2.2.2
  refine ⟨⟨(i 0).val / 1000, ht⟩, flush2_7 _, ?_⟩
  rw [mem_rowblock]
  intro a
  match a with
  | ⟨0, _⟩ =>
    show win2_7.index ⟨(i 0).val / 1000, ht⟩ (0 : Fin 2) * 1000 ≤ (i 0).val
      ∧ (i 0).val < win2_7.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win2_7.index ⟨(i 0).val / 1000, ht⟩ (1 : Fin 2) * 256 ≤ (i 1).val
      ∧ (i 1).val < win2_7.index ⟨(i 0).val / 1000, ht⟩ (1 : Fin 2) * 256 + 256
    rw [e1]; omega

/-- The result's array after the region: every entry is written by exactly the grid point of its row block, so the
    array is the result entry by entry. -/
theorem final2 (c : Dev nD) (r : Fin 10000) (j : Fin 256) :
    Spec.toMat (n := 10000) (k := 256) ((dat2 (F := Ideal) V c).arrAt 7 cfg2.N) r j
      = ((∑ k : Fin 256, Spec.toMat (n := 10000) (k := 256) (V c main_v1) r k * Spec.toMat (n := 256) (k := 256) (V c main_v39) k j
          + ∑ k : Fin 256, Spec.toMat (n := 10000) (k := 256) (V c main_v36) r k * Spec.toMat (n := 256) (k := 256) (V c main_v41) k j)
          + ∑ k : Fin 256, Spec.toMat (n := 10000) (k := 256) (V c main_v37) r k * Spec.toMat (n := 256) (k := 256) (V c main_v43) k j)
        + Spec.toMat (n := 1) (k := 256) (V c main_v44) 0 j := by
  have h := (dat2 (F := Ideal) V c).arrAt_eq_of_cover 7 _ (fun t _ => flushed_rowblock V c t) covered
  show (dat2 (F := Ideal) V c).arrAt 7 cfg2.N (ix2 r j) = _
  rw [h]
  rfl

end Cert.KernelIdeal.Val.R2

namespace Cert.KernelIdeal.Val
export R2 (final2)
end Cert.KernelIdeal.Val

end
-- ==== Proof.Val.Dense.lean ====
/-
  The host operations that build the dense stacked adjacency, as one function of the six edge inputs, and
  what it holds when every edge endpoint is a node number: entry (r, c) is the sum of the weights of the
  first list's edges from c to r, then of the second list's edges from c to r − 10240. (Negative indices
  would be wrapped and out-of-range ones dropped; with node numbers neither happens.)
-/
import proofs.«424452_j30116310680317_3_alg».proof.Proof.Gen.KernelIdeal
import proofs.«424452_j30116310680317_3_alg».proof.Proof.Val.Spec
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Cert.KernelIdeal.Val

open Idealize.ShloMosaic Idealize.ShloMosaic.ValueIdx
open Cert.KernelIdeal
open Cert.KernelIdeal.Facts₀ Cert.KernelIdeal.Facts

/-- An index input with its negative entries wrapped by the extent n. -/
def wrapIdx {S : Shape} (n : BitVec 32) (hb : S_.BroadcastsInDim S (![] : Fin 0 → Fin S.rank)) (a : IVec S 32) : IVec S 32 :=
  select (cmpi .slt a (broadcastInDim S ![] hb (constantI S_ 32 0#32)))
    (addi a (broadcastInDim S ![] hb (constantI S_ 32 n))) a

/-- The (row, column) index pairs of the first edge list. -/
def pairs1 (a1 a2 : IVec S160000 32) : IVec S160000x2 32 :=
  concatenate S160000x2 1
    [⟨S160000x1, broadcastInDim S160000x1 ![0] bcast_S160000_S160000x1_0 (wrapIdx 20480#32 bcast_S_S160000 a1)⟩,
     ⟨S160000x1, broadcastInDim S160000x1 ![0] bcast_S160000_S160000x1_0 (wrapIdx 10240#32 bcast_S_S160000 a2)⟩]
    concatenates_S160000x1_S160000x1_S160000x2_d1

/-- The (row, column) index pairs of the second edge list, its rows shifted by 10240. -/
def pairs2 (a4 a5 : IVec S320000 32) : IVec S320000x2 32 :=
  concatenate S320000x2 1
    [⟨S320000x1, broadcastInDim S320000x1 ![0] bcast_S320000_S320000x1_0
        (wrapIdx 20480#32 bcast_S_S320000 (addi a4 (broadcastInDim S320000 ![] bcast_S_S320000 (constantI S_ 32 10240#32))))⟩,
     ⟨S320000x1, broadcastInDim S320000x1 ![0] bcast_S320000_S320000x1_0 (wrapIdx 10240#32 bcast_S_S320000 a5)⟩]
    concatenates_S320000x1_S320000x1_S320000x2_d1

/-- The dense stacked adjacency as the host builds it. -/
def denseTerm (a1 a2 : IVec S160000 32) (a3 : FVec Ideal S160000 .f32) (a4 a5 : IVec S320000 32) (a6 : FVec Ideal S320000 .f32) :
    FVec Ideal S20480x10240 .bf16 :=
  truncf .bf16
    (Host.scatterAdd scatter_S20480x10240_S320000x2_S320000_n_01_01_1
      (Host.scatterAdd scatter_S20480x10240_S160000x2_S160000_n_01_01_1
        (broadcastInDim S20480x10240 ![] bcast_S_S20480x10240 (constant (F := Ideal) S_ .f32 0x00000000#32))
        (pairs1 a1 a2) a3)
      (pairs2 a4 a5) a6)
    bitsLt_bf16_f32

/-! ## Words -/

/-- A word below 2^31 read signed is its natural-number reading. -/
theorem toInt_of_small (w : BitVec 32) (h : w.toNat < 2147483648) : w.toInt = (w.toNat : Int) :=
  BitVec.toInt_eq_toNat_of_lt (by omega)

/-- A word below 2^31 is not negative: the signed comparison with zero answers no. -/
theorem cmpi_slt_zero (w : BitVec 32) (h : w.toNat < 2147483648) : IntOp.cmpi .slt w 0#32 = 0#1 := by
  have hs : w.slt 0#32 = false := by
    rw [BitVec.slt_eq_decide, toInt_of_small w h, BitVec.toInt_zero]
    exact decide_eq_false (by omega)
  show BitVec.ofBool (w.slt 0#32) = 0#1
  rw [hs]; rfl

/-- Wrapping leaves an entry below 2^31 as it is. -/
theorem wrapIdx_apply {S : Shape} (n : BitVec 32) (hb : S_.BroadcastsInDim S (![] : Fin 0 → Fin S.rank)) (a : IVec S 32)
    (i : S.Idx) (h : (a i).toNat < 2147483648) : wrapIdx n hb a i = a i := by
  show Scalar.select (IntOp.cmpi .slt (a i) 0#32) _ (a i) = a i
  rw [cmpi_slt_zero _ h, select_zero]

/-- A node number shifted by 10240, as a natural number. -/
theorem toNat_add_10240 (w : BitVec 32) (h : w.toNat < 10000) : (w + 10240#32).toNat = w.toNat + 10240 := by
  rw [BitVec.toNat_add]
  have e : (10240#32).toNat = 10240 := rfl
  rw [e]
  exact Nat.mod_eq_of_lt (by omega)

/-! ## Where an update lands -/

/-- An update lands at i exactly when, on every axis, its window start plus its window coordinate is i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hf a
      have hf' := Option.some.inj hf
      have hv : (d.start j idx a + (d.window j a : Int)).toNat = (i a).val := congrArg (fun f => (f a).val) hf'
      have := h a
      omega
    · intro hall
      refine congrArg some (funext fun a => Fin.ext ?_)
      show (d.start j idx a + (d.window j a : Int)).toNat = (i a).val
      rw [hall a]; exact Int.toNat_natCast _
  · rename_i h
    constructor
    · intro hf; cases hf
    · intro hall
      exact absurd (fun a => by rw [hall a]; exact ⟨Int.natCast_nonneg _, by exact_mod_cast (i a).isLt⟩) h

/-- The dimension numbers of a scatter of E single elements at (row, column) index pairs into the stacked adjacency. -/
abbrev pairDims (E : Nat) (wf : ScatterDims.WF S20480x10240 ⟨2, ![E, 2]⟩ ⟨1, ![E]⟩ [] [0, 1] [0, 1] 1) :
    ScatterDims S20480x10240 ⟨2, ![E, 2]⟩ ⟨1, ![E]⟩ where
  updateWindowDims := []
  insertedWindowDims := [0, 1]
  scatterDimsToOperandDims := [0, 1]
  indexVectorDim := 1
  wf := wf

/-- Update j reads component c of its start index at (j, c). -/
theorem siIdx_pairDims (E : Nat) (wf) (j : (⟨1, ![E]⟩ : Shape).Idx) (c : Fin 2) :
    (pairDims E wf).siIdx j c = ix2 (j 0) c := by
  funext b
  match b with
  | ⟨0, _⟩ => rfl
  | ⟨1, _⟩ => rfl

/-- The window of update j starts, on axis a, at the index pair's component a, read signed. -/
theorem start_pairDims (E : Nat) (wf) (j : (⟨1, ![E]⟩ : Shape).Idx) (idx : IVec ⟨2, ![E, 2]⟩ 32) (a : Fin 2) :
    (pairDims E wf).start j idx a = (idx (ix2 (j 0) a)).toInt := by
  match a with
  | ⟨0, _⟩ =>
    show (idx ((pairDims E wf).siIdx j ⟨0, _⟩)).toInt = _
    rw [siIdx_pairDims]; rfl
  | ⟨1, _⟩ =>
    show (idx ((pairDims E wf).siIdx j ⟨1, _⟩)).toInt = _
    rw [siIdx_pairDims]; rfl

/-- Both operand axes are inserted: the window has no coordinate. -/
theorem window_pairDims (E : Nat) (wf) (j : (⟨1, ![E]⟩ : Shape).Idx) (a : Fin 2) :
    (pairDims E wf).window j a = 0 := by
  match a with
  | ⟨0, _⟩ => rfl
  | ⟨1, _⟩ => rfl

/-- Update e lands at (r, c) exactly when its index pair, read signed, is (r, c). -/
theorem resultIdx?_pairDims (E : Nat) (wf) (e : Fin E) (idx : IVec ⟨2, ![E, 2]⟩ 32) (r : Fin 20480) (c : Fin 10240) :
    (pairDims E wf).resultIdx? (ix1 e) idx = some (ix2 r c) ↔
      (idx (ix2 e (0 : Fin 2))).toInt = (r.val : Int) ∧ (idx (ix2 e (1 : Fin 2))).toInt = (c.val : Int) := by
  rw [resultIdx?_eq_some_iff]
  have key : ∀ a : Fin 2, (pairDims E wf).start (ix1 e) idx a + ((pairDims E wf).window (ix1 e) a : Int)
      = (idx (ix2 e a)).toInt := by
    intro a
    have e1 : (pairDims E wf).start (ix1 e) idx a = (idx (ix2 e a)).toInt := start_pairDims E wf (ix1 e) idx a
    have e2 : ((pairDims E wf).window (ix1 e) a : Int) = 0 := by rw [window_pairDims]; rfl
    rw [e1, e2, add_zero]
  constructor
  · intro h
    exact ⟨(key 0).symm.trans (h 0), (key 1).symm.trans (h 1)⟩
  · intro ⟨h0, h1⟩ a
    match a with
    | ⟨0, _⟩ => exact (key _).trans h0
    | ⟨1, _⟩ => exact (key _).trans h1

/-! ## The index pairs at an update -/

/-- A column made of a list reads the list's entry. -/
theorem col_apply_S160000 {α : Type} (x : S160000.Idx → α) (e : Fin 160000) :
    broadcastInDim S160000x1 ![0] bcast_S160000_S160000x1_0 x (ix2 e (0 : Fin 1)) = x (ix1 e) :=
  broadcastInDim_apply ![0] bcast_S160000_S160000x1_0 x (ix2 e (0 : Fin 1)) (ix1 e)
    (fun a => by match a with | ⟨0, _⟩ => rfl)

theorem col_apply_S320000 {α : Type} (x : S320000.Idx → α) (e : Fin 320000) :
    broadcastInDim S320000x1 ![0] bcast_S320000_S320000x1_0 x (ix2 e (0 : Fin 1)) = x (ix1 e) :=
  broadcastInDim_apply ![0] bcast_S320000_S320000x1_0 x (ix2 e (0 : Fin 1)) (ix1 e)
    (fun a => by match a with | ⟨0, _⟩ => rfl)

theorem pairs1_row (a1 a2 : IVec S160000 32) (e : Fin 160000) :
    pairs1 a1 a2 (ix2 e (0 : Fin 2)) = wrapIdx 20480#32 bcast_S_S160000 a1 (ix1 e) := by
  unfold pairs1
  refine (concatenate_pair_apply_left (t := S160000x2) (s₁ := S160000x1) (s₂ := S160000x1) (1 : Fin 2) _ _
    concatenates_S160000x1_S160000x1_S160000x2_d1 (ix2 e (0 : Fin 2)) rfl (ix2 e (0 : Fin 1) : S160000x1.Idx) ?_).trans ?_
  · intro b; match b with | ⟨0, _⟩ => rfl | ⟨1, _⟩ => rfl
  · exact col_apply_S160000 _ e

theorem pairs1_col (a1 a2 : IVec S160000 32) (e : Fin 160000) :
    pairs1 a1 a2 (ix2 e (1 : Fin 2)) = wrapIdx 10240#32 bcast_S_S160000 a2 (ix1 e) := by
  unfold pairs1
  refine (concatenate_pair_apply_right (t := S160000x2) (s₁ := S160000x1) (s₂ := S160000x1) (1 : Fin 2) _ _
    concatenates_S160000x1_S160000x1_S160000x2_d1 (ix2 e (1 : Fin 2)) rfl rfl (ix2 e (0 : Fin 1) : S160000x1.Idx) ?_ rfl).trans ?_
  · intro b hb; match b with | ⟨0, _⟩ => rfl | ⟨1, _⟩ => exact absurd rfl hb
  · exact col_apply_S160000 _ e

theorem pairs2_row (a4 a5 : IVec S320000 32) (e : Fin 320000) :
    pairs2 a4 a5 (ix2 e (0 : Fin 2))
      = wrapIdx 20480#32 bcast_S_S320000 (addi a4 (broadcastInDim S320000 ![] bcast_S_S320000 (constantI S_ 32 10240#32))) (ix1 e) := by
  unfold pairs2
  refine (concatenate_pair_apply_left (t := S320000x2) (s₁ := S320000x1) (s₂ := S320000x1) (1 : Fin 2) _ _
    concatenates_S320000x1_S320000x1_S320000x2_d1 (ix2 e (0 : Fin 2)) rfl (ix2 e (0 : Fin 1) : S320000x1.Idx) ?_).trans ?_
  · intro b; match b with | ⟨0, _⟩ => rfl | ⟨1, _⟩ => rfl
  · exact col_apply_S320000 _ e

theorem pairs2_col (a4 a5 : IVec S320000 32) (e : Fin 320000) :
    pairs2 a4 a5 (ix2 e (1 : Fin 2)) = wrapIdx 10240#32 bcast_S_S320000 a5 (ix1 e) := by
  unfold pairs2
  refine (concatenate_pair_apply_right (t := S320000x2) (s₁ := S320000x1) (s₂ := S320000x1) (1 : Fin 2) _ _
    concatenates_S320000x1_S320000x1_S320000x2_d1 (ix2 e (1 : Fin 2)) rfl rfl (ix2 e (0 : Fin 1) : S320000x1.Idx) ?_ rfl).trans ?_
  · intro b hb; match b with | ⟨0, _⟩ => rfl | ⟨1, _⟩ => exact absurd rfl hb
  · exact col_apply_S320000 _ e

/-! ## The sums -/

/-- Sums over a rank-1 index set filtered by a condition, as sums over the coordinate. -/
theorem sum_filter_idx1 {n : Nat} (P : (⟨1, ![n]⟩ : Shape).Idx → Prop) [DecidablePred P] (Q : Fin n → Prop) [DecidablePred Q]
    (f : (⟨1, ![n]⟩ : Shape).Idx → EReal) (hPQ : ∀ e, P (ix1 e) ↔ Q e) :
    ∑ j ∈ Finset.univ.filter P, f j = ∑ e ∈ Finset.univ.filter Q, f (ix1 e) := by
  rw [Finset.sum_filter, Finset.sum_filter, ← Equiv.sum_comp (idxEquiv1 (n := n)).symm]
  refine Finset.sum_congr rfl (fun e _ => ?_)
  show (if P (ix1 e) then f (ix1 e) else 0) = _
  by_cases h : Q e
  · rw [if_pos h, if_pos ((hPQ e).2 h)]
  · rw [if_neg h, if_neg (fun hp => h ((hPQ e).1 hp))]

/-! ## The dense stacked adjacency -/

theorem dense_eq (a1 a2 : IVec S160000 32) (a3 : FVec Ideal S160000 .f32) (a4 a5 : IVec S320000 32) (a6 : FVec Ideal S320000 .f32)
    (hr1 : Spec.Nodes (Spec.toNats (n := 160000) a1)) (hc1 : Spec.Nodes (Spec.toNats (n := 160000) a2))
    (hr2 : Spec.Nodes (Spec.toNats (n := 320000) a4)) (hc2 : Spec.Nodes (Spec.toNats (n := 320000) a5)) :
    Spec.toMat (n := 20480) (k := 10240) (denseTerm a1 a2 a3 a4 a5 a6)
      = Spec.dense (Spec.toNats (n := 160000) a1) (Spec.toNats (n := 160000) a2) (Spec.toVec (n := 160000) a3)
          (Spec.toNats (n := 320000) a4) (Spec.toNats (n := 320000) a5) (Spec.toVec (n := 320000) a6) := by
  funext r c
  have n1 : ∀ e : Fin 160000, (a1 (ix1 e)).toNat < 10000 := hr1
  have n2 : ∀ e : Fin 160000, (a2 (ix1 e)).toNat < 10000 := hc1
  have n4 : ∀ e : Fin 320000, (a4 (ix1 e)).toNat < 10000 := hr2
  have n5 : ∀ e : Fin 320000, (a5 (ix1 e)).toNat < 10000 := hc2
  -- an edge of the first list lands at (r, c) exactly when its endpoints are (r, c)
  have L1 : ∀ e : Fin 160000,
      scatter_S20480x10240_S160000x2_S160000_n_01_01_1.resultIdx? (ix1 e) (pairs1 a1 a2) = some (ix2 r c)
        ↔ ((a1 (ix1 e)).toNat = r.val ∧ (a2 (ix1 e)).toNat = c.val) := by
    intro e
    refine (resultIdx?_pairDims 160000 scatter_S20480x10240_S160000x2_S160000_n_01_01_1_wf e (pairs1 a1 a2) r c).trans ?_
    rw [pairs1_row, pairs1_col, wrapIdx_apply _ _ _ _ (by have := n1 e; omega), wrapIdx_apply _ _ _ _ (by have := n2 e; omega),
      toInt_of_small _ (by have := n1 e; omega), toInt_of_small _ (by have := n2 e; omega)]
    constructor <;> (intro ⟨x, y⟩; exact ⟨by exact_mod_cast x, by exact_mod_cast y⟩)
  -- an edge of the second list lands at (r, c) exactly when its endpoints, the row shifted, are (r, c)
  have L2 : ∀ e : Fin 320000,
      scatter_S20480x10240_S320000x2_S320000_n_01_01_1.resultIdx? (ix1 e) (pairs2 a4 a5) = some (ix2 r c)
        ↔ ((a4 (ix1 e)).toNat + 10240 = r.val ∧ (a5 (ix1 e)).toNat = c.val) := by
    intro e
    refine (resultIdx?_pairDims 320000 scatter_S20480x10240_S320000x2_S320000_n_01_01_1_wf e (pairs2 a4 a5) r c).trans ?_
    have hw : (addi a4 (broadcastInDim S320000 ![] bcast_S_S320000 (constantI S_ 32 10240#32))) (ix1 e) = a4 (ix1 e) + 10240#32 := rfl
    have hn := toNat_add_10240 _ (n4 e)
    rw [pairs2_row, pairs2_col, wrapIdx_apply _ _ _ _ (by rw [hw, hn]; have := n4 e; omega),
      wrapIdx_apply _ _ _ _ (by have := n5 e; omega), hw,
      toInt_of_small _ (by rw [hn]; have := n4 e; omega), toInt_of_small _ (by have := n5 e; omega), hn]
    constructor <;> (intro ⟨x, y⟩; exact ⟨by exact_mod_cast x, by exact_mod_cast y⟩)
  have S1 := sum_filter_idx1
    (fun j => scatter_S20480x10240_S160000x2_S160000_n_01_01_1.resultIdx? j (pairs1 a1 a2) = some (ix2 r c))
    (fun e : Fin 160000 => (a1 (ix1 e)).toNat = r.val ∧ (a2 (ix1 e)).toNat = c.val) a3 L1
  have S2 := sum_filter_idx1
    (fun j => scatter_S20480x10240_S320000x2_S320000_n_01_01_1.resultIdx? j (pairs2 a4 a5) = some (ix2 r c))
    (fun e : Fin 320000 => (a4 (ix1 e)).toNat + 10240 = r.val ∧ (a5 (ix1 e)).toNat = c.val) a6 L2
  have z : broadcastInDim S20480x10240 ![] bcast_S_S20480x10240 (constant (F := Ideal) S_ .f32 0x00000000#32) (ix2 r c) = (0 : EReal) :=
    Ideal.ofBits_zero_f32
  calc Spec.toMat (n := 20480) (k := 10240) (denseTerm a1 a2 a3 a4 a5 a6) r c
      = (broadcastInDim S20480x10240 ![] bcast_S_S20480x10240 (constant (F := Ideal) S_ .f32 0x00000000#32) (ix2 r c)
          + ∑ j ∈ Finset.univ.filter
              (fun j => scatter_S20480x10240_S160000x2_S160000_n_01_01_1.resultIdx? j (pairs1 a1 a2) = some (ix2 r c)), a3 j)
        + ∑ j ∈ Finset.univ.filter
              (fun j => scatter_S20480x10240_S320000x2_S320000_n_01_01_1.resultIdx? j (pairs2 a4 a5) = some (ix2 r c)), a6 j := rfl
    _ = _ := by rw [S1, S2, z]; rfl

end Cert.KernelIdeal.Val

end
-- ==== Proof.Val.KVal.lean ====
/-
  The kernel program's result buffer at the end of the run, at the ideal reading, as the specification's
  function of the ten inputs: region by region through the host operations between them.
-/
import proofs.«424452_j30116310680317_3_alg».proof.Proof.KI.Fold
import proofs.«424452_j30116310680317_3_alg».proof.Proof.Val.Val0
import proofs.«424452_j30116310680317_3_alg».proof.Proof.Val.Val1
import proofs.«424452_j30116310680317_3_alg».proof.Proof.Val.Val2
import proofs.«424452_j30116310680317_3_alg».proof.Proof.Val.Dense
import proofs.«424452_j30116310680317_3_alg».proof.Proof.Val.Spec
import proofs.«424452_j30116310680317_3_alg».proof.Proof.Gen.KernelIdeal.Regions
import Idealize.ShloMosaic.Lib.StableHlo.Run
import Idealize.ShloMosaic.Lib.Pipeline.Value
import Idealize.ShloMosaic.Lib.ValueLayout
import Idealize.ShloMosaic.Lib.KernelVsHost

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

namespace K

/-! ## References nothing has written yet -/

/-- A reference that region 0 does not window and the first stretch of host operations does not write holds
    at region 0's exit what it held at launch. -/
theorem W2_of_untouched (c : Dev nD) (r : Ref sig .tc) (h0 : ∀ w, Pipeline.arrRef spec0 w ≠ r) (g0 : r ∉ hostOps0_W) :
    W2 (F := Ideal) m c (Proc.devRef .tc r) = m ((c.tc : Thread nD τ).loc r) :=
  calc W2 (F := Ideal) m c (Proc.devRef .tc r)
    _ = W1 m c (Proc.devRef .tc r) := W2_of_ne m c r h0
    _ = W0 m c (Proc.devRef .tc r) := StableHlo.after_of_writes_sub hostOps0 _ hostOps0_writes g0
    _ = m ((c.tc : Thread nD τ).loc r) := rfl

/-- The same up to region 1's exit, for a reference region 1 does not window either and the four stretches
    between do not write. -/
theorem W6_of_untouched (c : Dev nD) (r : Ref sig .tc) (h0 : ∀ w, Pipeline.arrRef spec0 w ≠ r) (h1 : ∀ w, Pipeline.arrRef spec1 w ≠ r)
    (g0 : r ∉ hostOps0_W) (g1 : r ∉ hostOps1_W) (g11 : r ∉ hostOps1_1_W) (g12 : r ∉ hostOps1_2_W) :
    W6 (F := Ideal) m c (Proc.devRef .tc r) = m ((c.tc : Thread nD τ).loc r) :=
  calc W6 (F := Ideal) m c (Proc.devRef .tc r)
    _ = W5 m c (Proc.devRef .tc r) := W6_of_ne m c r h1
    _ = W4 m c (Proc.devRef .tc r) := StableHlo.after_of_writes_sub hostOps1_2 _ hostOps1_2_writes g12
    _ = W3 m c (Proc.devRef .tc r) := StableHlo.after_of_writes_sub hostOps1_1 _ hostOps1_1_writes g11
    _ = W2 m c (Proc.devRef .tc r) := StableHlo.after_of_writes_sub hostOps1 _ hostOps1_writes g1
    _ = m ((c.tc : Thread nD τ).loc r) := W2_of_untouched m c r h0 g0

/-! ## Region 0: h0 = x · W1 -/

/-- Region 0 is entered with x as launched. -/
theorem V1_arg0 (c : Dev nD) : Hand.V1 (F := Ideal) m c main_arg0 = m ((c.tc : Thread nD τ).loc main_arg0) :=
  StableHlo.after_of_writes_sub hostOps0 _ hostOps0_writes (by decide)

/-- Region 0 is entered with the first-layer weight narrowed to the 16-bit format, which at the ideal reading
    is the weight itself. -/
theorem V1_v0 (c : Dev nD) : Spec.toMat (n := 2048) (k := 256) (Hand.V1 (F := Ideal) m c main_v0)
    = Spec.toMat (n := 2048) (k := 256) (m ((c.tc : Thread nD τ).loc main_arg7)) := by
  have e : (Hand.V1 (F := Ideal) m c main_v0 : FVec Ideal S2048x256 .bf16)
      = truncf (F := Ideal) .bf16 (m ((c.tc : Thread nD τ).loc main_arg7) : FVec Ideal S2048x256 .f32) bitsLt_bf16_f32 := by
    show StableHlo.after hostOps0 _ (Proc.devRef .tc main_v0) = _
    after_results <;> rfl
  rw [e]
  rfl

/-! ## Region 1: the stacked aggregate -/

set_option maxHeartbeats 2000000 in
/-- Region 1 is entered with the dense stacked adjacency as the host builds it from the six edge inputs. -/
theorem V5_v34 (c : Dev nD) : (Hand.V5 (F := Ideal) m c main_v34 : FVec Ideal S20480x10240 .bf16)
    = denseTerm (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  have e : (Hand.V5 (F := Ideal) m c main_v34 : FVec Ideal S20480x10240 .bf16)
      = denseTerm (W2 (F := Ideal) m c (Proc.devRef .tc main_arg1)) (W2 (F := Ideal) m c (Proc.devRef .tc main_arg2))
          (W2 (F := Ideal) m c (Proc.devRef .tc main_arg3)) (W2 (F := Ideal) m c (Proc.devRef .tc main_arg4))
          (W2 (F := Ideal) m c (Proc.devRef .tc main_arg5)) (W2 (F := Ideal) m c (Proc.devRef .tc main_arg6)) := by
    show StableHlo.after hostOps1_2 _ (Proc.devRef .tc main_v34) = _
    after_results
    unfold denseTerm pairs1 pairs2 wrapIdx
    rfl
  rw [e, W2_of_untouched m c main_arg1 (by decide) (by decide), W2_of_untouched m c main_arg2 (by decide) (by decide), W2_of_untouched m c main_arg3 (by decide) (by decide),
    W2_of_untouched m c main_arg4 (by decide) (by decide), W2_of_untouched m c main_arg5 (by decide) (by decide), W2_of_untouched m c main_arg6 (by decide) (by decide)]

/-- Region 1 is entered with h0 padded by the host to 10240 rows with the scalar zero. -/
theorem V5_v2 (c : Dev nD) : (Hand.V5 (F := Ideal) m c main_v2 : FVec Ideal S10240x256 .bf16)
    = pad S10240x256 ![0, 0] ![240, 0] ![0, 0] (W2 (F := Ideal) m c (Proc.devRef .tc main_v1) : FVec Ideal S10000x256 .bf16)
        (sitofp (F := Ideal) .bf16 (constantI S_ 32 0#32) : FVec Ideal S_ .bf16) pads_S10000x256_S10240x256_02400_000 h_S_ := by
  have e1 : Hand.V5 (F := Ideal) m c main_v2 = W4 (F := Ideal) m c (Proc.devRef .tc main_v2) :=
    StableHlo.after_of_writes_sub hostOps1_2 _ hostOps1_2_writes (by decide)
  rw [e1]
  show StableHlo.after hostOps1_1 _ (Proc.devRef .tc main_v2) = _
  after_results <;> rfl

/-- The scalar zero converted to the 16-bit format is the extended real zero. -/
theorem zero_pad (i : S_.Idx) : (sitofp (F := Ideal) .bf16 (constantI S_ 32 0#32) : FVec Ideal S_ .bf16) i = 0 := by
  show (((0#32 : BitVec 32).toInt : ℝ) : EReal) = 0
  rw [show (0#32 : BitVec 32).toInt = 0 from by decide, Int.cast_zero, EReal.coe_zero]

/-- Read as a matrix, that is h0 with 240 zero rows appended. -/
theorem V5_v2_mat (c : Dev nD) : Spec.toMat (n := 10240) (k := 256) (Hand.V5 (F := Ideal) m c main_v2)
    = Spec.padRows (Spec.toMat (n := 10000) (k := 256) (W2 (F := Ideal) m c (Proc.devRef .tc main_v1))) := by
  funext cc d
  show (Hand.V5 (F := Ideal) m c main_v2 : FVec Ideal S10240x256 .bf16) (ix2 cc d) = _
  rw [V5_v2 m c]
  unfold Spec.padRows
  by_cases hc : cc.val < 10000
  · rw [dif_pos hc]
    exact pad_apply_of_inside _ _ _ _ _ _ _ (ix2 cc d) (ix2 (⟨cc.val, hc⟩ : Fin 10000) d) (fun a => by
      match a with
      | ⟨0, _⟩ => show cc.val = 0 + cc.val * (0 + 1); omega
      | ⟨1, _⟩ => show d.val = 0 + d.val * (0 + 1); omega)
  · rw [dif_neg hc]
    refine (pad_apply_of_not_inside _ _ _ _ _ _ _ (ix2 cc d) (0 : Fin 2) (fun h => hc ?_)).trans (zero_pad _)
    have h2 : (cc.val - 0) / (0 + 1) < 10000 := h.2.2
    omega

/-! ## Region 2: the result -/

/-- Region 2 is entered with h0 as region 0 left it: nothing in between writes it. -/
theorem V7_v1 (c : Dev nD) : Hand.V7 (F := Ideal) m c main_v1 = W2 (F := Ideal) m c (Proc.devRef .tc main_v1) :=
  calc Hand.V7 (F := Ideal) m c main_v1
    _ = W6 m c (Proc.devRef .tc main_v1) := StableHlo.after_of_writes_sub hostOps2 _ hostOps2_writes (by decide)
    _ = W5 m c (Proc.devRef .tc main_v1) := W6_of_ne m c main_v1 (by decide)
    _ = W4 m c (Proc.devRef .tc main_v1) := StableHlo.after_of_writes_sub hostOps1_2 _ hostOps1_2_writes (by decide)
    _ = W3 m c (Proc.devRef .tc main_v1) := StableHlo.after_of_writes_sub hostOps1_1 _ hostOps1_1_writes (by decide)
    _ = W2 m c (Proc.devRef .tc main_v1) := StableHlo.after_of_writes_sub hostOps1 _ hostOps1_writes (by decide)

/-- The first aggregate is rows 0 ≤ r < 10000 of the stacked aggregate. -/
theorem V7_v36 (c : Dev nD) : Spec.toMat (n := 10000) (k := 256) (Hand.V7 (F := Ideal) m c main_v36)
    = fun r k => Spec.toMat (n := 20480) (k := 256) (W6 (F := Ideal) m c (Proc.devRef .tc main_v35)) ⟨r.val, by omega⟩ k := by
  have e : (Hand.V7 (F := Ideal) m c main_v36 : FVec Ideal S10000x256 .f32)
      = extractStridedSlice S10000x256 ![0, 0] (W6 (F := Ideal) m c (Proc.devRef .tc main_v35) : FVec Ideal S20480x256 .f32) slices_S20480x256_S10000x256_0_0 := by
    show StableHlo.after hostOps2 _ (Proc.devRef .tc main_v36) = _
    after_results <;> rfl
  funext r k
  show (Hand.V7 (F := Ideal) m c main_v36 : FVec Ideal S10000x256 .f32) (ix2 r k) = _
  rw [e]
  exact slice2_axis0_apply 0 _ _ r k ⟨r.val, by omega⟩ (Nat.zero_add _).symm

/-- The second aggregate is rows 10240 ≤ r < 20240 of the stacked aggregate. -/
theorem V7_v37 (c : Dev nD) : Spec.toMat (n := 10000) (k := 256) (Hand.V7 (F := Ideal) m c main_v37)
    = fun r k => Spec.toMat (n := 20480) (k := 256) (W6 (F := Ideal) m c (Proc.devRef .tc main_v35)) ⟨10240 + r.val, by omega⟩ k := by
  have e : (Hand.V7 (F := Ideal) m c main_v37 : FVec Ideal S10000x256 .f32)
      = extractStridedSlice S10000x256 ![10240, 0] (W6 (F := Ideal) m c (Proc.devRef .tc main_v35) : FVec Ideal S20480x256 .f32) slices_S20480x256_S10000x256_10240_0 := by
    show StableHlo.after hostOps2 _ (Proc.devRef .tc main_v37) = _
    after_results <;> rfl
  funext r k
  show (Hand.V7 (F := Ideal) m c main_v37 : FVec Ideal S10000x256 .f32) (ix2 r k) = _
  rw [e]
  exact slice2_axis0_apply 10240 _ _ r k ⟨10240 + r.val, by omega⟩ rfl

/-- The first output weight is rows 0 ≤ k < 256 of W_out, narrowed to the 16-bit format. -/
theorem V7_v39 (c : Dev nD) : Spec.toMat (n := 256) (k := 256) (Hand.V7 (F := Ideal) m c main_v39)
    = fun r k => Spec.toMat (n := 768) (k := 256) (m ((c.tc : Thread nD τ).loc main_arg8)) ⟨r.val, by omega⟩ k := by
  have e : (Hand.V7 (F := Ideal) m c main_v39 : FVec Ideal S256x256 .bf16)
      = truncf (F := Ideal) .bf16 (extractStridedSlice S256x256 ![0, 0] (W6 (F := Ideal) m c (Proc.devRef .tc main_arg8) : FVec Ideal S768x256 .f32) slices_S768x256_S256x256_0_0 : FVec Ideal S256x256 .f32) bitsLt_bf16_f32 := by
    show StableHlo.after hostOps2 _ (Proc.devRef .tc main_v39) = _
    after_results <;> rfl
  funext r k
  show (Hand.V7 (F := Ideal) m c main_v39 : FVec Ideal S256x256 .bf16) (ix2 r k) = _
  rw [e, truncf_apply, W6_of_untouched m c main_arg8 (by decide) (by decide) (by decide) (by decide) (by decide) (by decide)]
  exact slice2_axis0_apply 0 _ _ r k ⟨r.val, by omega⟩ (Nat.zero_add _).symm

/-- The second output weight is rows 256 ≤ k < 512 of W_out. -/
theorem V7_v41 (c : Dev nD) : Spec.toMat (n := 256) (k := 256) (Hand.V7 (F := Ideal) m c main_v41)
    = fun r k => Spec.toMat (n := 768) (k := 256) (m ((c.tc : Thread nD τ).loc main_arg8)) ⟨256 + r.val, by omega⟩ k := by
  have e : (Hand.V7 (F := Ideal) m c main_v41 : FVec Ideal S256x256 .bf16)
      = truncf (F := Ideal) .bf16 (extractStridedSlice S256x256 ![256, 0] (W6 (F := Ideal) m c (Proc.devRef .tc main_arg8) : FVec Ideal S768x256 .f32) slices_S768x256_S256x256_256_0 : FVec Ideal S256x256 .f32) bitsLt_bf16_f32 := by
    show StableHlo.after hostOps2 _ (Proc.devRef .tc main_v41) = _
    after_results <;> rfl
  funext r k
  show (Hand.V7 (F := Ideal) m c main_v41 : FVec Ideal S256x256 .bf16) (ix2 r k) = _
  rw [e, truncf_apply, W6_of_untouched m c main_arg8 (by decide) (by decide) (by decide) (by decide) (by decide) (by decide)]
  exact slice2_axis0_apply 256 _ _ r k ⟨256 + r.val, by omega⟩ rfl

/-- The third output weight is rows 512 ≤ k < 768 of W_out. -/
theorem V7_v43 (c : Dev nD) : Spec.toMat (n := 256) (k := 256) (Hand.V7 (F := Ideal) m c main_v43)
    = fun r k => Spec.toMat (n := 768) (k := 256) (m ((c.tc : Thread nD τ).loc main_arg8)) ⟨512 + r.val, by omega⟩ k := by
  have e : (Hand.V7 (F := Ideal) m c main_v43 : FVec Ideal S256x256 .bf16)
      = truncf (F := Ideal) .bf16 (extractStridedSlice S256x256 ![512, 0] (W6 (F := Ideal) m c (Proc.devRef .tc main_arg8) : FVec Ideal S768x256 .f32) slices_S768x256_S256x256_512_0 : FVec Ideal S256x256 .f32) bitsLt_bf16_f32 := by
    show StableHlo.after hostOps2 _ (Proc.devRef .tc main_v43) = _
    after_results <;> rfl
  funext r k
  show (Hand.V7 (F := Ideal) m c main_v43 : FVec Ideal S256x256 .bf16) (ix2 r k) = _
  rw [e, truncf_apply, W6_of_untouched m c main_arg8 (by decide) (by decide) (by decide) (by decide) (by decide) (by decide)]
  exact slice2_axis0_apply 512 _ _ r k ⟨512 + r.val, by omega⟩ rfl

/-- The bias row is the bias vector laid out as one row. -/
theorem V7_v44 (c : Dev nD) (j : Fin 256) : Spec.toMat (n := 1) (k := 256) (Hand.V7 (F := Ideal) m c main_v44) 0 j
    = Spec.toVec (n := 256) (m ((c.tc : Thread nD τ).loc main_arg9)) j := by
  have e : (Hand.V7 (F := Ideal) m c main_v44 : FVec Ideal S1x256 .f32)
      = shapeCast S1x256 (W6 (F := Ideal) m c (Proc.devRef .tc main_arg9) : FVec Ideal S256 .f32) shapeCasts_S256_S1x256 := by
    show StableHlo.after hostOps2 _ (Proc.devRef .tc main_v44) = _
    after_results <;> rfl
  show (Hand.V7 (F := Ideal) m c main_v44 : FVec Ideal S1x256 .f32) (ix2 (0 : Fin 1) j) = _
  rw [e, W6_of_untouched m c main_arg9 (by decide) (by decide) (by decide) (by decide) (by decide) (by decide)]
  exact shapeCast_a_1a_apply _ _ 0 j

/-! ## The three regions' results -/

/-- What region 0 leaves in h0's buffer. -/
theorem h0_eq (c : Dev nD) : Spec.toMat (n := 10000) (k := 256) (W2 (F := Ideal) m c (Proc.devRef .tc main_v1))
    = Spec.mul (Spec.toMat (n := 10000) (k := 2048) (m ((c.tc : Thread nD τ).loc main_arg0)))
        (Spec.toMat (n := 2048) (k := 256) (m ((c.tc : Thread nD τ).loc main_arg7))) := by
  rw [← V1_v0 m c, ← V1_arg0 m c, ← final0 (Hand.V1 m) c]
  exact congrArg (Spec.toMat (n := 10000) (k := 256)) (W2_arr m c 2)

/-- What region 1 leaves in the stacked aggregate's buffer. -/
theorem hh_eq (c : Dev nD)
    (hr1 : Spec.Nodes (Spec.toNats (n := 160000) (m ((c.tc : Thread nD τ).loc main_arg1))))
    (hc1 : Spec.Nodes (Spec.toNats (n := 160000) (m ((c.tc : Thread nD τ).loc main_arg2))))
    (hr2 : Spec.Nodes (Spec.toNats (n := 320000) (m ((c.tc : Thread nD τ).loc main_arg4))))
    (hc2 : Spec.Nodes (Spec.toNats (n := 320000) (m ((c.tc : Thread nD τ).loc main_arg5)))) :
    Spec.toMat (n := 20480) (k := 256) (W6 (F := Ideal) m c (Proc.devRef .tc main_v35))
      = Spec.mul
          (Spec.dense (Spec.toNats (n := 160000) (m ((c.tc : Thread nD τ).loc main_arg1))) (Spec.toNats (n := 160000) (m ((c.tc : Thread nD τ).loc main_arg2)))
            (Spec.toVec (n := 160000) (m ((c.tc : Thread nD τ).loc main_arg3))) (Spec.toNats (n := 320000) (m ((c.tc : Thread nD τ).loc main_arg4)))
            (Spec.toNats (n := 320000) (m ((c.tc : Thread nD τ).loc main_arg5))) (Spec.toVec (n := 320000) (m ((c.tc : Thread nD τ).loc main_arg6))))
          (Spec.padRows (Spec.toMat (n := 10000) (k := 256) (W2 (F := Ideal) m c (Proc.devRef .tc main_v1)))) := by
  rw [← dense_eq _ _ _ _ _ _ hr1 hc1 hr2 hc2, ← V5_v34 m c, ← V5_v2_mat m c, ← final1 (Hand.V5 m) c]
  exact congrArg (Spec.toMat (n := 20480) (k := 256)) (W6_arr m c 2)

end K

open K

/-! ## The result as the specification's function of the inputs -/

theorem kernel_value (c : Dev nD)
    (hr1 : Spec.Nodes (Spec.toNats (n := 160000) (m ((c.tc : Thread nD τ).loc main_arg1))))
    (hc1 : Spec.Nodes (Spec.toNats (n := 160000) (m ((c.tc : Thread nD τ).loc main_arg2))))
    (hr2 : Spec.Nodes (Spec.toNats (n := 320000) (m ((c.tc : Thread nD τ).loc main_arg4))))
    (hc2 : Spec.Nodes (Spec.toNats (n := 320000) (m ((c.tc : Thread nD τ).loc main_arg5)))) :
    Spec.toMat (n := 10000) (k := 256) (W8 (F := Ideal) m c (Proc.devRef .tc main_v45))
      = Spec.kernelResult
          (Spec.toMat (n := 10000) (k := 2048) (m ((c.tc : Thread nD τ).loc main_arg0)))
          (Spec.toNats (n := 160000) (m ((c.tc : Thread nD τ).loc main_arg1)))
          (Spec.toNats (n := 160000) (m ((c.tc : Thread nD τ).loc main_arg2)))
          (Spec.toVec (n := 160000) (m ((c.tc : Thread nD τ).loc main_arg3)))
          (Spec.toNats (n := 320000) (m ((c.tc : Thread nD τ).loc main_arg4)))
          (Spec.toNats (n := 320000) (m ((c.tc : Thread nD τ).loc main_arg5)))
          (Spec.toVec (n := 320000) (m ((c.tc : Thread nD τ).loc main_arg6)))
          (Spec.toMat (n := 2048) (k := 256) (m ((c.tc : Thread nD τ).loc main_arg7)))
          (Spec.toMat (n := 768) (k := 256) (m ((c.tc : Thread nD τ).loc main_arg8)))
          (Spec.toVec (n := 256) (m ((c.tc : Thread nD τ).loc main_arg9))) := by
  funext r j
  have hout : Spec.toMat (n := 10000) (k := 256) (W8 (F := Ideal) m c (Proc.devRef .tc main_v45)) r j
      = Spec.toMat (n := 10000) (k := 256) ((dat2 (F := Ideal) (Hand.V7 m) c).arrAt 7 cfg2.N) r j :=
    congrFun (congrFun (congrArg (Spec.toMat (n := 10000) (k := 256)) (W8_arr m c 7)) r) j
  rw [hout, final2 (Hand.V7 m) c r j, V7_v1 m c, V7_v36 m c, V7_v37 m c, V7_v39 m c, V7_v41 m c, V7_v43 m c, V7_v44 m c j,
    hh_eq m c hr1 hc1 hr2 hc2, h0_eq m c]
  rfl

end Cert.KernelIdeal.Val

end
-- ==== Proof.Val.RefVal.lean ====
/-
  The reference's result, at the ideal reading, as the specification's function of the ten inputs.
-/
import proofs.«424452_j30116310680317_3_alg».proof.Proof.Gen.ReferenceIdeal.Read
import proofs.«424452_j30116310680317_3_alg».proof.Proof.Val.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen

/-! ## Taking rows of a matrix, and adding rows into a matrix, read at an index

The two indexed operations of the reference, for any extents: an operand of `N` rows of width `D`, and `E` row
numbers given as an `E × 1` array of words. -/

section Rows
variable {α : Type}

/-- The dimension numbers of "take the rows a list names": result row `e` is the operand's row number `idx e`. -/
abbrev rowGather (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, c)` of the rows taken is the operand at `(idx e, c)`, the row number read as a signed integer and
    clamped into `[0, N − 1]`. -/
theorem rowGather_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGather N D E wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGather N D E wf).start (ix2 e c) idx 0 + (rowGather N D E wf).batchCoord (ix2 e c) 0
        + (rowGather N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e c) ⟨List.idxOf (0 : Fin 2) (rowGather N D E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGather N D E wf).start (ix2 e c) idx 1 + (rowGather N D E wf).batchCoord (ix2 e c) 1
        + (rowGather N D E wf).offCoord (ix2 e c) 1 = c.val
    rw [GatherDims.batchCoord_eq_zero _ _ _ List.not_mem_nil]
    have hs : (rowGather N D E wf).start (ix2 e c) idx 1 = 0 := by
      unfold GatherDims.start
      rw [dif_neg (show ¬ (1 : Fin 2) ∈ ([0] : List (Fin 2)) by decide)]
    have ho : (rowGather N D E wf).offCoord (ix2 e c) 1 = c.val := by
      unfold GatherDims.offCoord
      rw [dif_pos (show (1 : Fin 2) ∈ (rowGather N D E wf).sKept from
        (GatherDims.mem_sKept _ _).mpr ⟨(show ¬ (1 : Fin 2) ∈ ([0] : List (Fin 2)) from by decide), List.not_mem_nil⟩)]
      rfl
    rw [hs, ho]
    omega

/-- The same where the row number is known: the word read signed is `n`, a row of the operand, so the clamp does
    nothing. -/
theorem rowGather_apply_of {N D E w : Nat}
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D)
    (n : ℕ) (hn : (idx (ix2 e ⟨0, Nat.one_pos⟩)).toInt = (n : ℤ)) (hlt : n < N) :
    Host.gather (rowGather N D E wf) x idx (ix2 e c) = x (ix2 ⟨n, hlt⟩ c) := by
  rw [rowGather_apply (Nat.lt_of_le_of_lt (Nat.zero_le _) hlt)]
  refine congrArg (fun q : Fin N => x (ix2 q c)) (Fin.ext ?_)
  show min (idx (ix2 e ⟨0, Nat.one_pos⟩)).toInt.toNat (N - 1) = n
  rw [hn]
  omega

end Rows

section RowsAdd

/-- The dimension numbers of "add update row `e` into the operand's row number `idx e`". -/
abbrev rowScatter (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N D E w : Nat} (wf : ScatterDims.WF ⟨2, ![N, D]⟩ ⟨2, ![E, 1]⟩ ⟨2, ![E, D]⟩ [1] [0] [0] 1)
  (idx : IVec ⟨2, ![E, 1]⟩ w)

/-- Along the rows the window of update `(e, c)` starts at the row number `idx e`, read as a signed integer. -/
theorem rowScatter_start0 (e : Fin E) (c : Fin D) :
    (rowScatter N D E wf).start (ix2 e c) idx 0 = (idx (ix2 e ⟨0, Nat.one_pos⟩)).toInt := by
  unfold ScatterDims.start
  rw [dif_pos (show (0 : Fin 2) ∈ (rowScatter N D E wf).scatterDimsToOperandDims from List.mem_singleton.mpr rfl)]
  have hsi : (rowScatter N D E wf).siIdx (ix2 e c) ⟨List.idxOf (0 : Fin 2) (rowScatter N D E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- Along the columns it starts at 0. -/
theorem rowScatter_start1 (e : Fin E) (c : Fin D) : (rowScatter N D E wf).start (ix2 e c) idx 1 = 0 := by
  unfold ScatterDims.start
  rw [dif_neg (show ¬ (1 : Fin 2) ∈ ([0] : List (Fin 2)) by decide)]

/-- The window has one row … -/
theorem rowScatter_window0 (e : Fin E) (c : Fin D) : (rowScatter N D E wf).window (ix2 e c) 0 = 0 := by
  unfold ScatterDims.window
  have hm : ¬ (0 : Fin 2) ∈ (rowScatter N D E wf).sKept :=
    (by decide : ¬ (0 : Fin 2) ∈ (List.finRange 2).filter (fun a => a ∉ ([0] : List (Fin 2))))
  rw [dif_neg hm]

/-- … and update `(e, c)` is its column `c`. -/
theorem rowScatter_window1 (e : Fin E) (c : Fin D) : (rowScatter N D E wf).window (ix2 e c) 1 = c.val := by
  unfold ScatterDims.window
  have hm : (1 : Fin 2) ∈ (rowScatter N D E wf).sKept :=
    (by decide : (1 : Fin 2) ∈ (List.finRange 2).filter (fun a => a ∉ ([0] : List (Fin 2))))
  rw [dif_pos hm]
  rfl

/-- Where every row number is a row of the operand (`rows e < N`, the word read signed being `rows e`), update
    `(e, c)` lands at `(rows e, c)`. -/
theorem rowScatter_resultIdx (rows : Fin E → ℕ) (hrows : ∀ e, (idx (ix2 e ⟨0, Nat.one_pos⟩)).toInt = (rows e : ℤ))
    (hlt : ∀ e, rows e < N) (e : Fin E) (c : Fin D) :
    (rowScatter N D E wf).resultIdx? (ix2 e c) idx = some (ix2 ⟨rows e, hlt e⟩ c) := by
  unfold ScatterDims.resultIdx?
  have hall : ∀ a : Fin 2, 0 ≤ (rowScatter N D E wf).start (ix2 e c) idx a + ((rowScatter N D E wf).window (ix2 e c) a : ℤ)
      ∧ (rowScatter N D E wf).start (ix2 e c) idx a + ((rowScatter N D E wf).window (ix2 e c) a : ℤ)
        < ((⟨2, ![N, D]⟩ : Shape).size a : ℤ) := fun a => by
    match a with
    | ⟨0, _⟩ =>
      rw [show (⟨0, by decide⟩ : Fin 2) = 0 from rfl, rowScatter_start0, rowScatter_window0, hrows e]
      have := hlt e
      show (0 : ℤ) ≤ (rows e : ℤ) + ((0 : ℕ) : ℤ) ∧ (rows e : ℤ) + ((0 : ℕ) : ℤ) < (N : ℤ)
      omega
    | ⟨1, _⟩ =>
      rw [show (⟨1, by decide⟩ : Fin 2) = 1 from rfl, rowScatter_start1, rowScatter_window1]
      have := c.isLt
      show (0 : ℤ) ≤ 0 + (c.val : ℤ) ∧ 0 + (c.val : ℤ) < (D : ℤ)
      omega
  rw [dif_pos hall]
  congr 1
  funext a
  refine Fin.ext ?_
  match a with
  | ⟨0, _⟩ =>
    show ((rowScatter N D E wf).start (ix2 e c) idx 0 + ((rowScatter N D E wf).window (ix2 e c) 0 : ℤ)).toNat = rows e
    rw [rowScatter_start0, rowScatter_window0, hrows e]
    omega
  | ⟨1, _⟩ =>
    show ((rowScatter N D E wf).start (ix2 e c) idx 1 + ((rowScatter N D E wf).window (ix2 e c) 1 : ℤ)).toNat = c.val
    rw [rowScatter_start1, rowScatter_window1]
    omega

/-- **Rows added into a matrix, read at an index**: entry `(r, c)` is the operand's plus the sum, over the update
    rows `e` sent to row `r`, of their entries in column `c`. -/
theorem rowScatterAdd_apply (x : (⟨2, ![N, D]⟩ : Shape).Idx → EReal) (upd : (⟨2, ![E, D]⟩ : Shape).Idx → EReal)
    (rows : Fin E → ℕ) (hrows : ∀ e, (idx (ix2 e ⟨0, Nat.one_pos⟩)).toInt = (rows e : ℤ)) (hlt : ∀ e, rows e < N)
    (r : Fin N) (c : Fin D) :
    Ideal.hostScatterAdd (rowScatter N D E wf) x idx upd (ix2 r c)
      = x (ix2 r c) + ∑ e ∈ Finset.univ.filter (fun e : Fin E => rows e = r.val), upd (ix2 e c) := by
  unfold Ideal.hostScatterAdd
  congr 1
  rw [Finset.sum_filter, sum_idx2, Finset.sum_filter]
  refine Finset.sum_congr rfl fun e _ => ?_
  simp only [rowScatter_resultIdx wf idx rows hrows hlt]
  by_cases hr : rows e = r.val
  · rw [if_pos hr, Finset.sum_eq_single c]
    · rw [if_pos (congrArg some (show ix2 (⟨rows e, hlt e⟩ : Fin N) c = ix2 r c from by rw [show (⟨rows e, hlt e⟩ : Fin N) = r from Fin.ext hr]))]
    · intro b _ hbc
      have hne : ¬ (some (ix2 (⟨rows e, hlt e⟩ : Fin N) b) = some (ix2 r c)) :=
        fun h => hbc (congrFun (Option.some.inj h) 1)
      rw [if_neg hne]
    · intro h; exact absurd (Finset.mem_univ c) h
  · rw [if_neg hr]
    refine Finset.sum_eq_zero fun b _ => ?_
    have hne : ¬ (some (ix2 (⟨rows e, hlt e⟩ : Fin N) b) = some (ix2 r c)) :=
      fun h => hr (congrArg Fin.val (congrFun (Option.some.inj h) 0))
    rw [if_neg hne]

end RowsAdd

/-! ## Three blocks side by side, read at an index -/

section Cat
variable {α : Type}

/-- Column `k` of three 256-wide blocks laid side by side: the first block's for `k < 256`, the second's column
    `k − 256` for `256 ≤ k < 512`, else the third's column `k − 512`. -/
theorem cat_apply (h0 h1 h2 : S10000x256.Idx → α)
    (hc : Shape.Concatenates [S10000x256, S10000x256, S10000x256] S10000x768 1) (r : Fin 10000) (k : Fin 768) :
    concatenate S10000x768 1 [⟨S10000x256, h0⟩, ⟨S10000x256, h1⟩, ⟨S10000x256, h2⟩] hc (ix2 r k)
      = if hk : k.val < 256 then h0 (ix2 r ⟨k.val, hk⟩)
        else if hk2 : k.val < 512 then h1 (ix2 r ⟨k.val - 256, by omega⟩)
        else h2 (ix2 r ⟨k.val - 512, by omega⟩) := by
  have hoff : ∀ (q : Fin 256) (b : Fin S10000x256.rank), b.cast (rfl : S10000x256.rank = S10000x768.rank) ≠ 1 →
      ((ix2 r q : S10000x256.Idx) b).val = ((ix2 r k : S10000x768.Idx) (b.cast rfl)).val := fun q b hb => by
    match b with
    | ⟨0, _⟩ => rfl
    | ⟨1, _⟩ => exact absurd rfl hb
  by_cases hk : k.val < 256
  · rw [dif_pos hk]
    exact concatenate_apply_piece (t := S10000x768) 1 [⟨S10000x256, h0⟩, ⟨S10000x256, h1⟩, ⟨S10000x256, h2⟩] hc (ix2 r k) 0 (by show (0 : ℕ) < 3; omega) S10000x256 h0 rfl rfl 0 rfl
      (ix2 r ⟨k.val, hk⟩) (hoff _) (by show 0 + k.val = k.val; omega)
  · rw [dif_neg hk]
    by_cases hk2 : k.val < 512
    · rw [dif_pos hk2]
      exact concatenate_apply_piece (t := S10000x768) 1 [⟨S10000x256, h0⟩, ⟨S10000x256, h1⟩, ⟨S10000x256, h2⟩] hc (ix2 r k) 1 (by show (1 : ℕ) < 3; omega) S10000x256 h1 rfl rfl 256 rfl
        (ix2 r ⟨k.val - 256, by omega⟩) (hoff _) (by show 256 + (k.val - 256) = k.val; omega)
    · rw [dif_neg hk2]
      exact concatenate_apply_piece (t := S10000x768) 1 [⟨S10000x256, h0⟩, ⟨S10000x256, h1⟩, ⟨S10000x256, h2⟩] hc (ix2 r k) 2 (by show (2 : ℕ) < 3; omega) S10000x256 h2 rfl rfl 512 rfl
        (ix2 r ⟨k.val - 512, by omega⟩) (hoff _) (by show 512 + (k.val - 512) = k.val; omega)

end Cat

/-! ## Words that are node numbers -/

/-- A word below 10000 read as a signed integer is its value. -/
theorem node_toInt (w : BitVec 32) (h : w.toNat < 10000) : w.toInt = (w.toNat : ℤ) :=
  BitVec.toInt_eq_toNat_of_lt (by omega)

/-- A word below 10000 is not negative as a signed integer. -/
theorem node_slt_zero (w : BitVec 32) (h : w.toNat < 10000) : IntOp.cmpi .slt w 0#32 = 0#1 := by
  show BitVec.ofBool (w.slt 0#32) = 0#1
  have hs : w.slt 0#32 = false := by
    simp [BitVec.slt, node_toInt w h]
  rw [hs]; rfl

/-! ## The reference's stages, read at an index -/

section Stages

variable (x0 : (⟨S10000x2048, .f32⟩ : BufTy).Contents (Elt Ideal))
  (x1 x2 : (⟨S160000, .i32⟩ : BufTy).Contents (Elt Ideal)) (x3 : (⟨S160000, .f32⟩ : BufTy).Contents (Elt Ideal))
  (x4 x5 : (⟨S320000, .i32⟩ : BufTy).Contents (Elt Ideal)) (x6 : (⟨S320000, .f32⟩ : BufTy).Contents (Elt Ideal))
  (x7 : (⟨S2048x256, .f32⟩ : BufTy).Contents (Elt Ideal)) (x8 : (⟨S768x256, .f32⟩ : BufTy).Contents (Elt Ideal))
  (x9 : (⟨S256, .f32⟩ : BufTy).Contents (Elt Ideal))

/-- `x · W1`, the matrix both aggregates read. -/
abbrev H0 : Spec.Mat 10000 256 :=
  Spec.mul (Spec.toMat (n := 10000) (k := 2048) x0) (Spec.toMat (n := 2048) (k := 256) x7)

theorem lidx0_eq (r : Fin 10000) (d : Fin 256) (k : Fin 2048) : Read.lidx_main_v0 (ix2 r d) k = ix2 r k := by
  funext a; match a with | ⟨0, _⟩ => rfl | ⟨1, _⟩ => rfl
theorem ridx0_eq (r : Fin 10000) (d : Fin 256) (k : Fin 2048) : Read.ridx_main_v0 (ix2 r d) k = ix2 k d := by
  funext a; match a with | ⟨0, _⟩ => rfl | ⟨1, _⟩ => rfl

/-- The first product. -/
theorem v0_entry (r : Fin 10000) (d : Fin 256) : Read.val_main_v0 (F := Ideal) x0 x7 (ix2 r d) = H0 x0 x7 r d := by
  rw [Read.val_main_v0_apply]
  show _ = ∑ l : Fin 2048, Spec.toMat (n := 10000) (k := 2048) x0 r l * Spec.toMat (n := 2048) (k := 256) x7 l d
  refine Finset.sum_congr rfl fun k _ => ?_
  rw [lidx0_eq, ridx0_eq]
  rfl

/-! ### Edge list 1: rows `x1`, columns `x2`, weights `x3` -/

theorem gather1_eq : gather_S10000x256_S160000x1_S160000x256_1_0_n_n_0_1_1256
    = rowGather 10000 256 160000 Facts₀.gather_S10000x256_S160000x1_S160000x256_1_0_n_n_0_1_1256_wf := rfl
theorem scatter1_eq : scatter_S10000x256_S160000x1_S160000x256_1_0_0_1
    = rowScatter 10000 256 160000 Facts₀.scatter_S10000x256_S160000x1_S160000x256_1_0_0_1_wf := rfl

theorem idxv7_eq (e : Fin 160000) : Read.idx_main_v7 (ix2 e ⟨0, Nat.one_pos⟩) = ix1 e := by
  funext a; match a with | ⟨0, _⟩ => rfl
theorem idxv12_eq (e : Fin 160000) : Read.idx_main_v12 (ix2 e ⟨0, Nat.one_pos⟩) = ix1 e := by
  funext a; match a with | ⟨0, _⟩ => rfl
theorem idxv9_eq (e : Fin 160000) (d : Fin 256) : Read.idx_main_v1 (Read.idx_main_v9 (ix2 e d)) = ix1 e := by
  funext a; match a with | ⟨0, _⟩ => rfl

/-- The wrap of a negative column number leaves a node number as it is. -/
theorem v6_entry (e : Fin 160000) (h : Spec.toNats (n := 160000) x2 e < 10000) :
    Read.val_main_v6 (F := Ideal) x2 (ix1 e) = x2 (ix1 e) := by
  rw [Read.val_main_v6_apply, Read.val_main_v3_apply, Read.val_main_v2_apply, Read.val_main_c_apply,
    node_slt_zero (x2 (ix1 e)) h, select_zero]

theorem v7_entry (e : Fin 160000) (h : Spec.toNats (n := 160000) x2 e < 10000) :
    Read.val_main_v7 (F := Ideal) x2 (ix2 e ⟨0, Nat.one_pos⟩) = x2 (ix1 e) := by
  rw [Read.val_main_v7_apply, idxv7_eq, v6_entry x2 e h]

/-- The gathered row of edge `e` is row (column number of `e`) of `x · W1`. -/
theorem v8_entry (e : Fin 160000) (d : Fin 256) (h : Spec.toNats (n := 160000) x2 e < 10000) :
    Read.val_main_v8 (F := Ideal) x0 x2 x7 (ix2 e d) = H0 x0 x7 ⟨Spec.toNats (n := 160000) x2 e, h⟩ d := by
  unfold Read.val_main_v8
  rw [gather1_eq]
  refine (rowGather_apply_of _ _ _ e d (Spec.toNats (n := 160000) x2 e) ?_ h).trans (v0_entry x0 x7 _ d)
  rw [v7_entry x2 e h]
  exact node_toInt _ h

theorem v9_entry (e : Fin 160000) (d : Fin 256) :
    Read.val_main_v9 (F := Ideal) x3 (ix2 e d) = Spec.toVec (n := 160000) x3 e := by
  rw [Read.val_main_v9_apply, Read.val_main_v1_apply, idxv9_eq]
  rfl

/-- The weighted row of edge `e`. -/
theorem v10_entry (e : Fin 160000) (d : Fin 256) (h : Spec.toNats (n := 160000) x2 e < 10000) :
    Read.val_main_v10 (F := Ideal) x0 x2 x3 x7 (ix2 e d)
      = Spec.toVec (n := 160000) x3 e * H0 x0 x7 ⟨Spec.toNats (n := 160000) x2 e, h⟩ d := by
  rw [Read.val_main_v10_apply, v9_entry, v8_entry x0 x2 x7 e d h]
  rfl

theorem v11_entry (i : S10000x256.Idx) : Read.val_main_v11 (F := Ideal) i = (0 : EReal) := by
  rw [Read.val_main_v11_apply, Read.val_main_cst_apply]
  exact Ideal.ofBits_zero_f32

theorem v12_entry (e : Fin 160000) :
    Read.val_main_v12 (F := Ideal) x1 (ix2 e ⟨0, Nat.one_pos⟩) = x1 (ix1 e) := by
  rw [Read.val_main_v12_apply, idxv12_eq]

/-- The weighted rows added into the rows their edges point to: the specification's aggregate. -/
theorem v13_entry (hr : Spec.Nodes (Spec.toNats (n := 160000) x1)) (hc : Spec.Nodes (Spec.toNats (n := 160000) x2))
    (r : Fin 10000) (d : Fin 256) :
    Read.val_main_v13 (F := Ideal) x0 x1 x2 x3 x7 (ix2 r d)
      = Spec.agg (Spec.toNats (n := 160000) x1) (Spec.toNats (n := 160000) x2) (Spec.toVec (n := 160000) x3) (H0 x0 x7) r d := by
  unfold Read.val_main_v13 Host.scatterAdd
  rw [Ideal.hostScatterAdd_def, scatter1_eq,
    rowScatterAdd_apply _ _ _ _ (Spec.toNats (n := 160000) x1)
      (fun e => by rw [v12_entry]; exact node_toInt _ (hr e)) hr]
  unfold Spec.agg
  refine congrArg₂ (· + ·) (v11_entry _) (Finset.sum_congr rfl fun e _ => ?_)
  rw [v10_entry x0 x2 x3 x7 e d (hc e), dif_pos (hc e)]

/-! ### Edge list 2: rows `x4`, columns `x5`, weights `x6` -/

theorem gather2_eq : gather_S10000x256_S320000x1_S320000x256_1_0_n_n_0_1_1256
    = rowGather 10000 256 320000 Facts₀.gather_S10000x256_S320000x1_S320000x256_1_0_n_n_0_1_1256_wf := rfl
theorem scatter2_eq : scatter_S10000x256_S320000x1_S320000x256_1_0_0_1
    = rowScatter 10000 256 320000 Facts₀.scatter_S10000x256_S320000x1_S320000x256_1_0_0_1_wf := rfl

theorem idxv20_eq (e : Fin 320000) : Read.idx_main_v20 (ix2 e ⟨0, Nat.one_pos⟩) = ix1 e := by
  funext a; match a with | ⟨0, _⟩ => rfl
theorem idxv25_eq (e : Fin 320000) : Read.idx_main_v25 (ix2 e ⟨0, Nat.one_pos⟩) = ix1 e := by
  funext a; match a with | ⟨0, _⟩ => rfl
theorem idxv22_eq (e : Fin 320000) (d : Fin 256) : Read.idx_main_v14 (Read.idx_main_v22 (ix2 e d)) = ix1 e := by
  funext a; match a with | ⟨0, _⟩ => rfl

/-- The wrap of a negative column number leaves a node number as it is. -/
theorem v19_entry (e : Fin 320000) (h : Spec.toNats (n := 320000) x5 e < 10000) :
    Read.val_main_v19 (F := Ideal) x5 (ix1 e) = x5 (ix1 e) := by
  rw [Read.val_main_v19_apply, Read.val_main_v16_apply, Read.val_main_v15_apply, Read.val_main_c_1_apply,
    node_slt_zero (x5 (ix1 e)) h, select_zero]

theorem v20_entry (e : Fin 320000) (h : Spec.toNats (n := 320000) x5 e < 10000) :
    Read.val_main_v20 (F := Ideal) x5 (ix2 e ⟨0, Nat.one_pos⟩) = x5 (ix1 e) := by
  rw [Read.val_main_v20_apply, idxv20_eq, v19_entry x5 e h]

/-- The gathered row of edge `e` is row (column number of `e`) of `x · W1`. -/
theorem v21_entry (e : Fin 320000) (d : Fin 256) (h : Spec.toNats (n := 320000) x5 e < 10000) :
    Read.val_main_v21 (F := Ideal) x0 x5 x7 (ix2 e d) = H0 x0 x7 ⟨Spec.toNats (n := 320000) x5 e, h⟩ d := by
  unfold Read.val_main_v21
  rw [gather2_eq]
  refine (rowGather_apply_of _ _ _ e d (Spec.toNats (n := 320000) x5 e) ?_ h).trans (v0_entry x0 x7 _ d)
  rw [v20_entry x5 e h]
  exact node_toInt _ h

theorem v22_entry (e : Fin 320000) (d : Fin 256) :
    Read.val_main_v22 (F := Ideal) x6 (ix2 e d) = Spec.toVec (n := 320000) x6 e := by
  rw [Read.val_main_v22_apply, Read.val_main_v14_apply, idxv22_eq]
  rfl

/-- The weighted row of edge `e`. -/
theorem v23_entry (e : Fin 320000) (d : Fin 256) (h : Spec.toNats (n := 320000) x5 e < 10000) :
    Read.val_main_v23 (F := Ideal) x0 x5 x6 x7 (ix2 e d)
      = Spec.toVec (n := 320000) x6 e * H0 x0 x7 ⟨Spec.toNats (n := 320000) x5 e, h⟩ d := by
  rw [Read.val_main_v23_apply, v22_entry, v21_entry x0 x5 x7 e d h]
  rfl

theorem v24_entry (i : S10000x256.Idx) : Read.val_main_v24 (F := Ideal) i = (0 : EReal) := by
  rw [Read.val_main_v24_apply, Read.val_main_cst_3_apply]
  exact Ideal.ofBits_zero_f32

theorem v25_entry (e : Fin 320000) :
    Read.val_main_v25 (F := Ideal) x4 (ix2 e ⟨0, Nat.one_pos⟩) = x4 (ix1 e) := by
  rw [Read.val_main_v25_apply, idxv25_eq]

/-- The weighted rows added into the rows their edges point to: the specification's aggregate. -/
theorem v26_entry (hr : Spec.Nodes (Spec.toNats (n := 320000) x4)) (hc : Spec.Nodes (Spec.toNats (n := 320000) x5))
    (r : Fin 10000) (d : Fin 256) :
    Read.val_main_v26 (F := Ideal) x0 x4 x5 x6 x7 (ix2 r d)
      = Spec.agg (Spec.toNats (n := 320000) x4) (Spec.toNats (n := 320000) x5) (Spec.toVec (n := 320000) x6) (H0 x0 x7) r d := by
  unfold Read.val_main_v26 Host.scatterAdd
  rw [Ideal.hostScatterAdd_def, scatter2_eq,
    rowScatterAdd_apply _ _ _ _ (Spec.toNats (n := 320000) x4)
      (fun e => by rw [v25_entry]; exact node_toInt _ (hr e)) hr]
  unfold Spec.agg
  refine congrArg₂ (· + ·) (v24_entry _) (Finset.sum_congr rfl fun e _ => ?_)
  rw [v23_entry x0 x5 x6 x7 e d (hc e), dif_pos (hc e)]

/-- The three blocks side by side. -/
theorem v27_entry (hr1 : Spec.Nodes (Spec.toNats (n := 160000) x1)) (hc1 : Spec.Nodes (Spec.toNats (n := 160000) x2))
    (hr2 : Spec.Nodes (Spec.toNats (n := 320000) x4)) (hc2 : Spec.Nodes (Spec.toNats (n := 320000) x5))
    (r : Fin 10000) (k : Fin 768) :
    Read.val_main_v27 (F := Ideal) x0 x1 x2 x3 x4 x5 x6 x7 (ix2 r k)
      = Spec.cat3 (H0 x0 x7)
          (Spec.agg (Spec.toNats (n := 160000) x1) (Spec.toNats (n := 160000) x2) (Spec.toVec (n := 160000) x3) (H0 x0 x7))
          (Spec.agg (Spec.toNats (n := 320000) x4) (Spec.toNats (n := 320000) x5) (Spec.toVec (n := 320000) x6) (H0 x0 x7))
          r k := by
  unfold Read.val_main_v27 Spec.cat3
  rw [cat_apply]
  by_cases hk : k.val < 256
  · rw [dif_pos hk, dif_pos hk]
    exact v0_entry x0 x7 r _
  · rw [dif_neg hk, dif_neg hk]
    by_cases hk2 : k.val < 512
    · rw [dif_pos hk2, dif_pos hk2]
      exact v13_entry x0 x1 x2 x3 x7 hr1 hc1 r _
    · rw [dif_neg hk2, dif_neg hk2]
      exact v26_entry x0 x4 x5 x6 x7 hr2 hc2 r _

theorem lidx28_eq (r : Fin 10000) (j : Fin 256) (k : Fin 768) : Read.lidx_main_v28 (ix2 r j) k = ix2 r k := by
  funext a; match a with | ⟨0, _⟩ => rfl | ⟨1, _⟩ => rfl
theorem ridx28_eq (r : Fin 10000) (j : Fin 256) (k : Fin 768) : Read.ridx_main_v28 (ix2 r j) k = ix2 k j := by
  funext a; match a with | ⟨0, _⟩ => rfl | ⟨1, _⟩ => rfl
theorem idx30_eq (r : Fin 10000) (j : Fin 256) : Read.idx_main_v29 (Read.idx_main_v30 (ix2 r j)) = ix1 j := by
  funext a; match a with | ⟨0, _⟩ => rfl

end Stages

/-- **The reference's result is the specification's**, where the four index lists hold node numbers. -/
theorem reference_value (x0 : (⟨S10000x2048, .f32⟩ : BufTy).Contents (Elt Ideal))
    (x1 x2 : (⟨S160000, .i32⟩ : BufTy).Contents (Elt Ideal)) (x3 : (⟨S160000, .f32⟩ : BufTy).Contents (Elt Ideal))
    (x4 x5 : (⟨S320000, .i32⟩ : BufTy).Contents (Elt Ideal)) (x6 : (⟨S320000, .f32⟩ : BufTy).Contents (Elt Ideal))
    (x7 : (⟨S2048x256, .f32⟩ : BufTy).Contents (Elt Ideal)) (x8 : (⟨S768x256, .f32⟩ : BufTy).Contents (Elt Ideal))
    (x9 : (⟨S256, .f32⟩ : BufTy).Contents (Elt Ideal))
    (hr1 : Spec.Nodes (Spec.toNats (n := 160000) x1)) (hc1 : Spec.Nodes (Spec.toNats (n := 160000) x2))
    (hr2 : Spec.Nodes (Spec.toNats (n := 320000) x4)) (hc2 : Spec.Nodes (Spec.toNats (n := 320000) x5)) :
    Spec.toMat (n := 10000) (k := 256) (Cert.ReferenceIdeal.Read.val_main_v31 (F := Ideal) x0 x1 x2 x3 x4 x5 x6 x7 x8 x9)
      = Spec.referenceResult (Spec.toMat (n := 10000) (k := 2048) x0) (Spec.toNats x1) (Spec.toNats x2)
          (Spec.toVec (n := 160000) x3) (Spec.toNats x4) (Spec.toNats x5) (Spec.toVec (n := 320000) x6)
          (Spec.toMat (n := 2048) (k := 256) x7) (Spec.toMat (n := 768) (k := 256) x8) (Spec.toVec (n := 256) x9) := by
  funext r j
  show Read.val_main_v31 (F := Ideal) x0 x1 x2 x3 x4 x5 x6 x7 x8 x9 (ix2 r j) = _
  rw [Read.val_main_v31_apply, Read.val_main_v28_apply, Read.val_main_v30_apply, Read.val_main_v29_apply, idx30_eq]
  unfold Spec.referenceResult Spec.rOut
  refine congrArg₂ (· + ·) (Finset.sum_congr rfl fun k _ => ?_) rfl
  rw [lidx28_eq, ridx28_eq, v27_entry x0 x1 x2 x3 x4 x5 x6 x7 hr1 hc1 hr2 hc2 r k]
  rfl

end Cert.ReferenceIdeal.RefValue

end
-- ==== Proof.Val.Alg.lean ====
/-
  The dense stacked adjacency times the zero-padded h0 is the reference's edge-by-edge aggregation, and the
  three 256-wide products are the one 768-wide product: the two results agree when the inputs the sums
  distribute over are real numbers and every edge endpoint is a node number.
-/
import proofs.«424452_j30116310680317_3_alg».proof.Proof.Val.Spec
import Mathlib.Data.EReal.Basic
import Mathlib.Algebra.BigOperators.Fin
import Mathlib.Algebra.BigOperators.Ring.Finset
import Mathlib.Algebra.BigOperators.Group.Finset.Piecewise
import Mathlib.Algebra.BigOperators.Group.Finset.Sigma

noncomputable section

open scoped BigOperators

namespace Cert.Spec

open Finset

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- In a commutative semiring: summing over the columns c the weight collected at (P, c) times g c
    is summing over the edges e with P the weight of e times g at the column of e. -/
theorem sum_fiber_mul {R : Type*} [CommSemiring R] {E M : ℕ} (P : Fin E → Prop) [DecidablePred P]
    (cols : Fin E → ℕ) (hcols : ∀ e, cols e < M) (v : Fin E → R) (g : Fin M → R) :
    ∑ c : Fin M, (∑ e ∈ univ.filter (fun e => P e ∧ cols e = c.val), v e) * g c
      = ∑ e ∈ univ.filter P, v e * g ⟨cols e, hcols e⟩ := by
  calc ∑ c : Fin M, (∑ e ∈ univ.filter (fun e => P e ∧ cols e = c.val), v e) * g c
      = ∑ c : Fin M, ∑ e ∈ univ.filter P, if cols e = c.val then v e * g c else 0 := by
        refine sum_congr rfl fun c _ => ?_
        rw [sum_mul, ← filter_filter, sum_filter]
    _ = ∑ e ∈ univ.filter P, ∑ c : Fin M, if cols e = c.val then v e * g c else 0 := sum_comm
    _ = ∑ e ∈ univ.filter P, v e * g ⟨cols e, hcols e⟩ := by
        refine sum_congr rfl fun e _ => ?_
        rw [sum_eq_single (⟨cols e, hcols e⟩ : Fin M)]
        · simp
        · intro c _ hc
          rw [if_neg]
          intro h
          exact hc (Fin.ext h.symm)
        · intro h
          exact absurd (mem_univ _) h

/-- The same over the extended reals when the weights and the table are real: the table has N rows and is
    read as zero from row N on, and every column index is below N. -/
theorem ereal_sum_fiber_mul {E N M : ℕ} (hNM : N ≤ M) (P : Fin E → Prop) [DecidablePred P]
    (cols : Fin E → ℕ) (hcols : ∀ e, cols e < N) (v : Fin E → ℝ) (h : Fin N → ℝ) :
    ∑ c : Fin M, (∑ e ∈ univ.filter (fun e => P e ∧ cols e = c.val), (v e : EReal)) *
        (if hc : c.val < N then (h ⟨c.val, hc⟩ : EReal) else 0)
      = ∑ e ∈ univ.filter P,
          (v e : EReal) * (if hc : cols e < N then (h ⟨cols e, hc⟩ : EReal) else 0) := by
  have hcM : ∀ e, cols e < M := fun e => lt_of_lt_of_le (hcols e) hNM
  have hgc : ∀ c : Fin M, (if hc : c.val < N then (h ⟨c.val, hc⟩ : EReal) else 0)
      = (((if hc : c.val < N then h ⟨c.val, hc⟩ else 0 : ℝ)) : EReal) := by
    intro c
    split_ifs <;> simp
  have hge : ∀ e, (if hc : cols e < N then (h ⟨cols e, hc⟩ : EReal) else 0)
      = (((fun c : Fin M => if hc : c.val < N then h ⟨c.val, hc⟩ else 0) ⟨cols e, hcM e⟩ : ℝ) : EReal) := by
    intro e
    simp only [dif_pos (hcols e)]
  have key := sum_fiber_mul P cols hcM v (fun c : Fin M => if hc : c.val < N then h ⟨c.val, hc⟩ else 0)
  calc _ = ∑ c : Fin M, (((∑ e ∈ univ.filter (fun e => P e ∧ cols e = c.val), v e) *
            (if hc : c.val < N then h ⟨c.val, hc⟩ else 0) : ℝ) : EReal) := by
        refine sum_congr rfl fun c _ => ?_
        rw [hgc c, EReal.coe_mul, coe_sum]
    _ = ((∑ e ∈ univ.filter P, v e *
            (fun c : Fin M => if hc : c.val < N then h ⟨c.val, hc⟩ else 0) ⟨cols e, hcM e⟩ : ℝ) : EReal) := by
        rw [← coe_sum, key]
    _ = _ := by
        rw [coe_sum]
        refine sum_congr rfl fun e _ => ?_
        rw [hge e, EReal.coe_mul]

/-- A sum over 768 indices is the sum of its three stretches of 256. -/
theorem sum_fin_three {M : Type*} [AddCommMonoid M] (f : Fin 768 → M) :
    ∑ k, f k = (∑ k : Fin 256, f ⟨k.val, by omega⟩ + ∑ k : Fin 256, f ⟨256 + k.val, by omega⟩)
      + ∑ k : Fin 256, f ⟨512 + k.val, by omega⟩ := by
  have h1 := Fin.sum_univ_add (a := 512) (b := 256) f
  have h2 := Fin.sum_univ_add (a := 256) (b := 256) (fun i : Fin (256 + 256) => f (Fin.castAdd 256 i))
  rw [h1, h2]
  rfl

/-- A product of matrices with real entries has real entries. -/
theorem realMat_mul {n k p : ℕ} {a : Mat n k} {b : Mat k p} (ha : RealMat a) (hb : RealMat b) :
    RealMat (mul a b) := by
  intro i j
  choose aR haR using ha
  choose bR hbR using hb
  refine ⟨∑ l, aR i l * bR l j, ?_⟩
  unfold mul
  rw [coe_sum]
  refine sum_congr rfl fun l _ => ?_
  rw [haR, hbR, EReal.coe_mul]

/-- Row r < 10000 of the stacked product is the aggregate along the first edge list: no edge of the second
    list lands in that row, and the columns of the first list are node numbers. -/
theorem mul_dense_fst (r1 c1 : Fin 160000 → ℕ) (v1 : Fin 160000 → EReal) (r2 c2 : Fin 320000 → ℕ)
    (v2 : Fin 320000 → EReal) (h0 : Mat 10000 256) (hv1 : RealVec v1) (hh : RealMat h0) (hc1 : Nodes c1)
    (r : Fin 10000) (hr : r.val < 20480) (d : Fin 256) :
    mul (dense r1 c1 v1 r2 c2 v2) (padRows h0) ⟨r.val, hr⟩ d = agg r1 c1 v1 h0 r d := by
  choose vR hvR using hv1
  choose hR hhR using hh
  have e2 : ∀ c : Fin 10240, univ.filter (fun e => r2 e + 10240 = r.val ∧ c2 e = c.val) = ∅ := by
    intro c
    refine filter_eq_empty_iff.mpr fun e _ h => ?_
    have := r.isLt
    omega
  unfold mul dense padRows agg
  simp only [Fin.val_mk, e2, sum_empty, add_zero, zero_add, hvR, hhR]
  exact ereal_sum_fiber_mul (by norm_num) (fun e => r1 e = r.val) c1 hc1 vR (fun i => hR i d)

/-- Row 10240 + r of the stacked product is the aggregate along the second edge list: the rows of the first
    list are node numbers, so none of its edges lands there. -/
theorem mul_dense_snd (r1 c1 : Fin 160000 → ℕ) (v1 : Fin 160000 → EReal) (r2 c2 : Fin 320000 → ℕ)
    (v2 : Fin 320000 → EReal) (h0 : Mat 10000 256) (hv2 : RealVec v2) (hh : RealMat h0) (hr1 : Nodes r1)
    (hc2 : Nodes c2) (r : Fin 10000) (hr : 10240 + r.val < 20480) (d : Fin 256) :
    mul (dense r1 c1 v1 r2 c2 v2) (padRows h0) ⟨10240 + r.val, hr⟩ d = agg r2 c2 v2 h0 r d := by
  choose vR hvR using hv2
  choose hR hhR using hh
  have e1 : ∀ c : Fin 10240, univ.filter (fun e => r1 e = 10240 + r.val ∧ c1 e = c.val) = ∅ := by
    intro c
    refine filter_eq_empty_iff.mpr fun e _ h => ?_
    have := hr1 e
    omega
  have e2 : ∀ c : Fin 10240, univ.filter (fun e => r2 e + 10240 = 10240 + r.val ∧ c2 e = c.val)
      = univ.filter (fun e => r2 e = r.val ∧ c2 e = c.val) := by
    intro c
    refine filter_congr fun e _ => ?_
    constructor <;> rintro ⟨h1, h2⟩ <;> exact ⟨by omega, h2⟩
  unfold mul dense padRows agg
  simp only [Fin.val_mk, e1, e2, sum_empty, add_zero, zero_add, hvR, hhR]
  exact ereal_sum_fiber_mul (by norm_num) (fun e => r2 e = r.val) c2 hc2 vR (fun i => hR i d)

/-- The first 256 columns of the three blocks side by side are the first block. -/
theorem cat3_fst (h0 h1 h2 : Mat 10000 256) (r : Fin 10000) (k : Fin 256) (hk : k.val < 768) :
    cat3 h0 h1 h2 r ⟨k.val, hk⟩ = h0 r k := by
  unfold cat3
  dsimp only
  rw [dif_pos k.isLt]

/-- Columns 256 to 511 are the second block. -/
theorem cat3_snd (h0 h1 h2 : Mat 10000 256) (r : Fin 10000) (k : Fin 256) (hk : 256 + k.val < 768) :
    cat3 h0 h1 h2 r ⟨256 + k.val, hk⟩ = h1 r k := by
  have hk1 := k.isLt
  unfold cat3
  dsimp only
  rw [dif_neg (by omega), dif_pos (by omega)]
  congr 1
  exact Fin.ext (Nat.add_sub_cancel_left 256 k.val)

/-- Columns 512 to 767 are the third block. -/
theorem cat3_thd (h0 h1 h2 : Mat 10000 256) (r : Fin 10000) (k : Fin 256) (hk : 512 + k.val < 768) :
    cat3 h0 h1 h2 r ⟨512 + k.val, hk⟩ = h2 r k := by
  have hk1 := k.isLt
  unfold cat3
  dsimp only
  rw [dif_neg (by omega), dif_neg (by omega)]
  congr 1
  exact Fin.ext (Nat.add_sub_cancel_left 512 k.val)

theorem kernel_eq_reference (x : Mat 10000 2048) (r1 c1 : Fin 160000 → ℕ) (v1 : Fin 160000 → EReal)
    (r2 c2 : Fin 320000 → ℕ) (v2 : Fin 320000 → EReal) (w1 : Mat 2048 256) (wo : Mat 768 256) (b : Fin 256 → EReal)
    (hx : RealMat x) (hw1 : RealMat w1) (hv1 : RealVec v1) (hv2 : RealVec v2)
    (hr1 : Nodes r1) (hc1 : Nodes c1) (hr2 : Nodes r2) (hc2 : Nodes c2) :
    kernelResult x r1 c1 v1 r2 c2 v2 w1 wo b = referenceResult x r1 c1 v1 r2 c2 v2 w1 wo b := by
  have hh : RealMat (mul x w1) := realMat_mul hx hw1
  funext r j
  unfold kernelResult referenceResult kOut rOut
  rw [sum_fin_three]
  simp only [cat3_fst, cat3_snd, cat3_thd,
    mul_dense_fst r1 c1 v1 r2 c2 v2 (mul x w1) hv1 hh hc1,
    mul_dense_snd r1 c1 v1 r2 c2 v2 (mul x w1) hv2 hh hr1 hc2]

end Cert.Spec

end
-- ==== Proof.Val.PreFacts.lean ====
/-
  What the precondition says of the inputs: every entry of the float inputs is a real number, and every
  entry of the four index inputs is a node number (at least 0 and below 10000, read as a signed word).
-/
import proofs.«424452_j30116310680317_3_alg».proof.Pre_finite_inputs
import proofs.«424452_j30116310680317_3_alg».proof.Proof.Gen.Pre_finite_inputs
import proofs.«424452_j30116310680317_3_alg».proof.Proof.Val.Spec
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx Cert.Pre_finite_inputs

/-- The scalar shape has one index. -/
instance : Subsingleton S_.Idx := ⟨fun a b => funext fun d => d.elim0⟩

/-- The pattern 0x7F800000 denotes +∞. -/
theorem inf_eq_top : Ideal.ofBits .f32 0x7F800000#32 = ⊤ := by simp [Ideal.ofBits, Ideal.ieee]

/-- An extended real whose absolute value max x (−x) is below +∞ is a real number: at −∞ and at +∞ the
    absolute value is +∞ itself. -/
theorem real_of_abs_lt_top (x : EReal)
    (h : Ideal.cmp .olt (max x (-x)) (Ideal.ofBits .f32 0x7F800000#32) = 1#1) : ∃ t : ℝ, x = (t : EReal) := by
  rw [inf_eq_top] at h
  induction x using EReal.rec with
  | bot => simp [Ideal.cmp] at h
  | coe r => exact ⟨r, rfl⟩
  | top => simp [Ideal.cmp] at h

/-- A 32-bit word that is, read signed, at least 0 and below 10000 is below 10000 read unsigned: a word with
    its top bit set reads negative. -/
theorem node_of_range (w : BitVec 32) (h1 : IntOp.cmpi .sge w 0#32 = 1#1) (h2 : IntOp.cmpi .slt w 10000#32 = 1#1) :
    w.toNat < 10000 := by
  have h1' : (0#32 : BitVec 32).sle w = true := (StableHlo.Predicate.ofBool_eq_one_iff _).1 h1
  have h2' : w.slt 10000#32 = true := (StableHlo.Predicate.ofBool_eq_one_iff _).1 h2
  simp only [BitVec.sle, BitVec.slt, decide_eq_true_eq] at h1' h2'
  have e0 : (0#32 : BitVec 32).toInt = 0 := by decide
  have e1 : (10000#32 : BitVec 32).toInt = 10000 := by decide
  rw [e0] at h1'
  rw [e1] at h2'
  rw [BitVec.toInt_eq_toNat_cond] at h1' h2'
  have hw := w.isLt
  by_cases hc : 2 * w.toNat < 2 ^ 32
  · rw [if_pos hc] at h1' h2'; omega
  · rw [if_neg hc] at h1' h2'; omega

/-- The conjunction of two one-bit scalars is 1 exactly when both are. -/
theorem andi_ix0 (x y : IVec S_ 1) (h : andi x y ix0 = 1#1) : x ix0 = 1#1 ∧ y ix0 = 1#1 :=
  IntOp.andi_eq_one.1 h

/-- "All of |a| < +∞" over an array of any shape: if the conjunction over all entries of the mask
    |a| < +∞ is 1, every entry of a is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1)
    (i : s.Idx) : ∃ t : ℝ, a i = (t : EReal) :=
  real_of_abs_lt_top (a i) (Host.reduce_andi_all _ _ hr hu ix0 e i)

/-- "All of 0 ≤ a < 10000" over an array of 32-bit words of any shape: if the conjunction over all entries
    of the mask (a ≥ 0 and a < 10000, signed) is 1, every entry of a is below 10000 read unsigned. -/
theorem all_nodes {s : Shape} {axes : List (Fin s.rank)} (a : IVec s 32)
    (hb : S_.BroadcastsInDim s (![] : Fin 0 → Fin s.rank)) (hr : s.ReducesTo axes S_) (hu : 0 < S_.numel)
    (e : Host.reduce IntOp.andi
        (andi (cmpi .sge a (broadcastInDim s ![] hb (constantI S_ 32 0#32)))
          (cmpi .slt a (broadcastInDim s ![] hb (constantI S_ 32 10000#32))))
        (constantI S_ 1 1#1) hr hu ix0 = 1#1)
    (i : s.Idx) : (a i).toNat < 10000 := by
  obtain ⟨h1, h2⟩ := IntOp.andi_eq_one.1 (Host.reduce_andi_all _ _ hr hu ix0 e i)
  exact node_of_range (a i) h1 h2

variable [Cert.Pre_finite_inputs.Facts]

theorem pre_facts (a0 : FVec Ideal S10000x2048 .f32) (a1 a2 : IVec S160000 32) (a3 : FVec Ideal S160000 .f32)
    (a4 a5 : IVec S320000 32) (a6 : FVec Ideal S320000 .f32) (a7 : FVec Ideal S2048x256 .f32)
    (a8 : FVec Ideal S768x256 .f32) (a9 : FVec Ideal S256 .f32)
    (h : Cert.Pre_finite_inputs.fn (F := Ideal) a0 a1 a2 a3 a4 a5 a6 a7 a8 a9 = fun _ => 1#1) :
    Spec.RealMat (Spec.toMat (n := 10000) (k := 2048) a0) ∧ Spec.RealVec (Spec.toVec (n := 160000) a3)
      ∧ Spec.RealVec (Spec.toVec (n := 320000) a6) ∧ Spec.RealMat (Spec.toMat (n := 2048) (k := 256) a7)
      ∧ Spec.Nodes (Spec.toNats (n := 160000) a1) ∧ Spec.Nodes (Spec.toNats (n := 160000) a2)
      ∧ Spec.Nodes (Spec.toNats (n := 320000) a4) ∧ Spec.Nodes (Spec.toNats (n := 320000) a5) := by
  -- the precondition at its one index: a chain of nine conjunctions over ten "all" reductions
  have h0 := congrFun h ix0
  dsimp only [Cert.Pre_finite_inputs.fn, Cert.Pre_finite_inputs.fn_part1, Cert.Pre_finite_inputs.fn_part2,
    Cert.Pre_finite_inputs.fn_part3] at h0
  -- split the chain from the outside in: the last conjunct is the second index list's columns
  obtain ⟨h49, hA5⟩ := andi_ix0 _ _ h0
  obtain ⟨h42, hA4⟩ := andi_ix0 _ _ h49
  obtain ⟨h35, hA2⟩ := andi_ix0 _ _ h42
  obtain ⟨h28, hA1⟩ := andi_ix0 _ _ h35
  obtain ⟨h23, hA9⟩ := andi_ix0 _ _ h28
  obtain ⟨h18, hA8⟩ := andi_ix0 _ _ h23
  obtain ⟨h13, hA7⟩ := andi_ix0 _ _ h18
  obtain ⟨h8, hA6⟩ := andi_ix0 _ _ h13
  obtain ⟨hA0, hA3⟩ := andi_ix0 _ _ h8
  exact ⟨fun i j => all_real a0 _ _ _ hA0 (ix2 i j), fun i => all_real a3 _ _ _ hA3 (ix1 i),
    fun i => all_real a6 _ _ _ hA6 (ix1 i), fun i j => all_real a7 _ _ _ hA7 (ix2 i j),
    fun i => all_nodes a1 _ _ _ hA1 (ix1 i), fun i => all_nodes a2 _ _ _ hA2 (ix1 i),
    fun i => all_nodes a4 _ _ _ hA4 (ix1 i), fun i => all_nodes a5 _ _ _ hA5 (ix1 i)⟩

end Cert.Pre_finite_inputs.Decode

end
-- ==== Proof.lean ====
/-
  The certificate. Both programs compute out = [h0 | A1·h0 | A2·h0] · W_out + b with h0 = x · W1, where
  A1 and A2 are the sparse adjacency matrices the two edge lists name. The reference aggregates edge by
  edge; the kernel scatters the edge weights into one dense stacked matrix, multiplies it by the zero-padded
  h0 stretch by stretch, and adds the three 256-wide products separately. Over the extended reals the two
  agree once the sums may be distributed, which needs the entries of x, W1 and the edge weights to be real
  numbers, and once every edge endpoint is a node number, so that no index is wrapped, clamped or dropped.
  The frames: the kernel program is three pipelined regions between stretches of host operations, run segment
  by segment; the reference is host operations only.
-/
import proofs.«424452_j30116310680317_3_alg».proof.Defs
import proofs.«424452_j30116310680317_3_alg».proof.Proof.Gen.Kernel
import proofs.«424452_j30116310680317_3_alg».proof.Proof.Gen.KernelIdeal
import proofs.«424452_j30116310680317_3_alg».proof.Proof.Gen.ReferenceIdeal
import proofs.«424452_j30116310680317_3_alg».proof.Proof.Gen.ReferenceIdeal.Run
import proofs.«424452_j30116310680317_3_alg».proof.Proof.Gen.ReferenceIdeal.Read
import proofs.«424452_j30116310680317_3_alg».proof.Proof.Gen.Pre_finite_inputs
import proofs.«424452_j30116310680317_3_alg».proof.Proof.KB.Run
import proofs.«424452_j30116310680317_3_alg».proof.Proof.KI.Run
import proofs.«424452_j30116310680317_3_alg».proof.Proof.Val.KVal
import proofs.«424452_j30116310680317_3_alg».proof.Proof.Val.RefVal
import proofs.«424452_j30116310680317_3_alg».proof.Proof.Val.Alg
import proofs.«424452_j30116310680317_3_alg».proof.Proof.Val.PreFacts
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments as launched. -/
theorem frame_k : Cert.frame_Kernel := fun m ρ _ => Cert.Kernel.Hand.frame (F := Bits) m ρ

/-- The idealized kernel program runs and leaves its arguments as launched. -/
theorem frame_ki : Cert.frame_KernelIdeal := fun m ρ _ => Cert.KernelIdeal.Hand.frame (F := Ideal) m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- A rank-2 array is determined by its reading as a matrix. -/
theorem eq_of_toMat {n k : ℕ} (a b : (⟨2, ![n, k]⟩ : Shape).Idx → EReal) (h : Spec.toMat a = Spec.toMat b) : a = b := by
  funext i
  rw [eq_ix2 i]
  exact congrFun (congrFun h (i 0)) (i 1)

/-- Run from memories that agree on the inputs, the two idealized programs end with the same result. -/
theorem algebraic : Cert.algebraic_KernelIdeal_ReferenceIdeal := by
  intro m ρ m' ρ' hpre hagree
  refine ⟨fun c => Cert.KernelIdeal.Hand.W8 (F := Ideal) m c (Proc.devRef .tc Cert.KernelIdeal.main_v45), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v45 (by decide)),
      (h c _ (Cert.KernelIdeal.Hand.mem_uc Cert.KernelIdeal.main_arg0 (by decide))).trans (Cert.KernelIdeal.Hand.W8_main_arg0 m c),
      (h c _ (Cert.KernelIdeal.Hand.mem_uc Cert.KernelIdeal.main_arg1 (by decide))).trans (Cert.KernelIdeal.Hand.W8_main_arg1 m c),
      (h c _ (Cert.KernelIdeal.Hand.mem_uc Cert.KernelIdeal.main_arg2 (by decide))).trans (Cert.KernelIdeal.Hand.W8_main_arg2 m c),
      (h c _ (Cert.KernelIdeal.Hand.mem_uc Cert.KernelIdeal.main_arg3 (by decide))).trans (Cert.KernelIdeal.Hand.W8_main_arg3 m c),
      (h c _ (Cert.KernelIdeal.Hand.mem_uc Cert.KernelIdeal.main_arg4 (by decide))).trans (Cert.KernelIdeal.Hand.W8_main_arg4 m c),
      (h c _ (Cert.KernelIdeal.Hand.mem_uc Cert.KernelIdeal.main_arg5 (by decide))).trans (Cert.KernelIdeal.Hand.W8_main_arg5 m c),
      (h c _ (Cert.KernelIdeal.Hand.mem_uc Cert.KernelIdeal.main_arg6 (by decide))).trans (Cert.KernelIdeal.Hand.W8_main_arg6 m c),
      (h c _ (Cert.KernelIdeal.Hand.mem_uc Cert.KernelIdeal.main_arg7 (by decide))).trans (Cert.KernelIdeal.Hand.W8_main_arg7 m c),
      (h c _ (Cert.KernelIdeal.Hand.mem_uc Cert.KernelIdeal.main_arg8 (by decide))).trans (Cert.KernelIdeal.Hand.W8_main_arg8 m c),
      (h c _ (Cert.KernelIdeal.Hand.mem_uc Cert.KernelIdeal.main_arg9 (by decide))).trans (Cert.KernelIdeal.Hand.W8_main_arg9 m c)⟩
  · refine (θ_run Cert.ReferenceIdeal.defs _ _).mono (fun r h c => ⟨(h c).1.trans ?_, (h c).2⟩)
      (Cert.ReferenceIdeal.Value.run (F := Ideal) m' ρ')
    obtain ⟨hx, hv1, hv2, hw1, hr1, hc1, hr2, hc2⟩ := Cert.Pre_finite_inputs.Decode.pre_facts _ _ _ _ _ _ _ _ _ _ (hpre c)
    obtain ⟨e0, e1, e2, e3, e4, e5, e6, e7, e8, e9⟩ := hagree c
    rw [Cert.ReferenceIdeal.Read.val_main_v31_eq, e0, e1, e2, e3, e4, e5, e6, e7, e8, e9]
    refine eq_of_toMat (n := 10000) (k := 256) _ _ ?_
    rw [Cert.ReferenceIdeal.RefValue.reference_value _ _ _ _ _ _ _ _ _ _ hr1 hc1 hr2 hc2,
      Cert.KernelIdeal.Val.kernel_value m c hr1 hc1 hr2 hc2]
    exact (Cert.Spec.kernel_eq_reference _ _ _ _ _ _ _ _ _ _ hx hw1 hv1 hv2 hr1 hc1 hr2 hc2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
